-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000 : Shape := ⟨1, ![32000]⟩
abbrev S2x320000 : Shape := ⟨2, ![2, 320000]⟩
abbrev S320000x32 : Shape := ⟨2, ![320000, 32]⟩
abbrev S100x128 : Shape := ⟨2, ![100, 128]⟩
abbrev S288x128 : Shape := ⟨2, ![288, 128]⟩
abbrev S128 : Shape := ⟨1, ![128]⟩
abbrev S128x128 : Shape := ⟨2, ![128, 128]⟩
abbrev S_ : Shape := ⟨0, ![]⟩

class Facts : Prop where
  bcast_S_S320000x32 : S_.BroadcastsInDim S320000x32 (![] : Fin 0 → Fin S320000x32.rank)
  reducesTo_S320000x32_S_d0_1 : S320000x32.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S32000 : S_.BroadcastsInDim S32000 (![] : Fin 0 → Fin S32000.rank)
  reducesTo_S32000_S_d0 : S32000.ReducesTo [0] S_
  bcast_S_S2x320000 : S_.BroadcastsInDim S2x320000 (![] : Fin 0 → Fin S2x320000.rank)
  reducesTo_S2x320000_S_d0_1 : S2x320000.ReducesTo [0, 1] S_

variable [Facts]

def fn_part5 {F : FTy → Type} [FloatOps F] (main_arg1 : IVec S2x320000 32) (main_v78 : IVec S_ 1) (main_v84 : IVec S_ 1) : IVec S_ 1 :=
  let main_v85 : IVec S_ 1 := andi main_v78 main_v84
  let main_c_33 : IVec S_ 32 := constantI S_ 32 0#32
  let main_v86 : IVec S2x320000 32 := broadcastInDim S2x320000 ![] bcast_S_S2x320000 main_c_33
  let main_v87 : IVec S2x320000 1 := cmpi .sge main_arg1 main_v86
  let main_c_34 : IVec S_ 32 := constantI S_ 32 32000#32
  let main_v88 : IVec S2x320000 32 := broadcastInDim S2x320000 ![] bcast_S_S2x320000 main_c_34
  let main_v89 : IVec S2x320000 1 := cmpi .slt main_arg1 main_v88
  let main_v90 : IVec S2x320000 1 := andi main_v87 main_v89
  let main_c_35 : IVec S_ 1 := constantI S_ 1 1#1
  let main_v91 : IVec S_ 1 := (fun x v => Host.reduce IntOp.andi x v reducesTo_S2x320000_S_d0_1 h_S_) main_v90 main_c_35
  let main_v92 : IVec S_ 1 := andi main_v85 main_v91
  main_v92

def fn_part4 {F : FTy → Type} [FloatOps F] (main_arg0 : IVec S32000 32) (main_arg1 : IVec S2x320000 32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S32000 32 := broadcastInDim S32000 ![] bcast_S_S32000 main_c_30
  let main_v80 : IVec S32000 1 := cmpi .sge main_arg0 main_v79
  let main_c_31 : IVec S_ 32 := constantI S_ 32 100#32
  let main_v81 : IVec S32000 32 := broadcastInDim S32000 ![] bcast_S_S32000 main_c_31
  let main_v82 : IVec S32000 1 := cmpi .slt main_arg0 main_v81
  let main_v83 : IVec S32000 1 := andi main_v80 main_v82
  let main_c_32 : IVec S_ 1 := constantI S_ 1 1#1
  let main_v84 : IVec S_ 1 := (fun x v => Host.reduce IntOp.andi x v reducesTo_S32000_S_d0 h_S_) main_v83 main_c_32
  fn_part5 (F := F) main_arg1 main_v78 main_v84

def fn_part3 {F : FTy → Type} [FloatOps F] (main_arg0 : IVec S32000 32) (main_arg1 : IVec S2x320000 32) (main_arg14 : FVec F S128 .f32) (main_arg15 : FVec F S288x128 .f32) (main_arg16 : FVec F S128 .f32) (main_arg17 : FVec F S128x128 .f32) (main_arg18 : FVec F S128 .f32) (main_v48 : IVec S_ 1) (main_v49 : FVec F S288x128 .f32) (main_v50 : FVec F S288x128 .f32) : IVec S_ 1 :=
  let main_v51 : IVec S288x128 1 := cmpf .olt main_v49 main_v50
  let main_c_19 : IVec S_ 1 := constantI S_ 1 1#1
  let main_v52 : IVec S_ 1 := (fun x v => Host.reduce IntOp.andi x v reducesTo_S288x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S288x128 .f32 := Host.absf main_arg15
  let main_cst_22 : FVec F S_ .f32 := constant S_ .f32 0x7F800000#32
  let main_v60 : FVec F S288x128 .f32 := broadcastInDim S288x128 ![] bcast_S_S288x128 main_cst_22
  let main_v61 : IVec S288x128 1 := cmpf .olt main_v59 main_v60
  let main_c_23 : IVec S_ 1 := constantI S_ 1 1#1
  let main_v62 : IVec S_ 1 := (fun x v => Host.reduce IntOp.andi x v reducesTo_S288x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg17 main_arg18 main_v63 main_v67

def fn_part2 {F : FTy → Type} [FloatOps F] (main_arg0 : IVec S32000 32) (main_arg1 : IVec S2x320000 32) (main_arg10 : FVec F S128 .f32) (main_arg11 : FVec F S288x128 .f32) (main_arg12 : FVec F S128 .f32) (main_arg13 : FVec F S288x128 .f32) (main_arg14 : FVec F S128 .f32) (main_arg15 : FVec F S288x128 .f32) (main_arg16 : FVec F S128 .f32) (main_arg17 : FVec F S128x128 .f32) (main_arg18 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S288x128 .f32 := Host.absf main_arg11
  let main_cst_14 : FVec F S_ .f32 := constant S_ .f32 0x7F800000#32
  let main_v40 : FVec F S288x128 .f32 := broadcastInDim S288x128 ![] bcast_S_S288x128 main_cst_14
  let main_v41 : IVec S288x128 1 := cmpf .olt main_v39 main_v40
  let main_c_15 : IVec S_ 1 := constantI S_ 1 1#1
  let main_v42 : IVec S_ 1 := (fun x v => Host.reduce IntOp.andi x v reducesTo_S288x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S288x128 .f32 := Host.absf main_arg13
  let main_cst_18 : FVec F S_ .f32 := constant S_ .f32 0x7F800000#32
  let main_v50 : FVec F S288x128 .f32 := broadcastInDim S288x128 ![] bcast_S_S288x128 main_cst_18
  fn_part3 (F := F) main_arg0 main_arg1 main_arg14 main_arg15 main_arg16 main_arg17 main_arg18 main_v48 main_v49 main_v50

def fn_part1 {F : FTy → Type} [FloatOps F] (main_arg0 : IVec S32000 32) (main_arg1 : IVec S2x320000 32) (main_arg7 : FVec F S288x128 .f32) (main_arg8 : FVec F S128 .f32) (main_arg9 : FVec F S288x128 .f32) (main_arg10 : FVec F S128 .f32) (main_arg11 : FVec F S288x128 .f32) (main_arg12 : FVec F S128 .f32) (main_arg13 : FVec F S288x128 .f32) (main_arg14 : FVec F S128 .f32) (main_arg15 : FVec F S288x128 .f32) (main_arg16 : FVec F S128 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S288x128 .f32 := Host.absf main_arg7
  let main_cst_6 : FVec F S_ .f32 := constant S_ .f32 0x7F800000#32
  let main_v20 : FVec F S288x128 .f32 := broadcastInDim S288x128 ![] bcast_S_S288x128 main_cst_6
  let main_v21 : IVec S288x128 1 := cmpf .olt main_v19 main_v20
  let main_c_7 : IVec S_ 1 := constantI S_ 1 1#1
  let main_v22 : IVec S_ 1 := (fun x v => Host.reduce IntOp.andi x v reducesTo_S288x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S288x128 .f32 := Host.absf main_arg9
  let main_cst_10 : FVec F S_ .f32 := constant S_ .f32 0x7F800000#32
  let main_v30 : FVec F S288x128 .f32 := broadcastInDim S288x128 ![] bcast_S_S288x128 main_cst_10
  let main_v31 : IVec S288x128 1 := cmpf .olt main_v29 main_v30
  let main_c_11 : IVec S_ 1 := constantI S_ 1 1#1
  let main_v32 : IVec S_ 1 := (fun x v => Host.reduce IntOp.andi x v reducesTo_S288x128_S_d0_1 h_S_) main_v31 main_c_11
  let main_v33 : IVec S_ 1 := andi main_v28 main_v32
  fn_part2 (F := F) main_arg0 main_arg1 main_arg10 main_arg11 main_arg12 main_arg13 main_arg14 main_arg15 main_arg16 main_arg17 main_arg18 main_v33

def fn {F : FTy → Type} [FloatOps F] (main_arg0 : IVec S32000 32) (main_arg1 : IVec S2x320000 32) (main_arg2 : FVec F S320000x32 .f32) (main_arg3 : IVec S32000 32) (main_arg4 : FVec F S100x128 .f32) (main_arg5 : FVec F S288x128 .f32) (main_arg6 : FVec F S128 .f32) (main_arg7 : FVec F S288x128 .f32) (main_arg8 : FVec F S128 .f32) (main_arg9 : FVec F S288x128 .f32) (main_arg10 : FVec F S128 .f32) (main_arg11 : FVec F S288x128 .f32) (main_arg12 : FVec F S128 .f32) (main_arg13 : FVec F S288x128 .f32) (main_arg14 : FVec F S128 .f32) (main_arg15 : FVec F S288x128 .f32) (main_arg16 : FVec F S128 .f32) (main_arg17 : FVec F S128x128 .f32) (main_arg18 : FVec F S128 .f32) : IVec S_ 1 :=
  let main_v0 : FVec F S320000x32 .f32 := Host.absf main_arg2
  let main_cst : FVec F S_ .f32 := constant S_ .f32 0x7F800000#32
  let main_v1 : FVec F S320000x32 .f32 := broadcastInDim S320000x32 ![] bcast_S_S320000x32 main_cst
  let main_v2 : IVec S320000x32 1 := cmpf .olt main_v0 main_v1
  let main_c : IVec S_ 1 := constantI S_ 1 1#1
  let main_v3 : IVec S_ 1 := (fun x v => Host.reduce IntOp.andi x v reducesTo_S320000x32_S_d0_1 h_S_) main_v2 main_c
  let main_v4 : FVec F S100x128 .f32 := Host.absf main_arg4
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S288x128 .f32 := Host.absf main_arg5
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg7 main_arg8 main_arg9 main_arg10 main_arg11 main_arg12 main_arg13 main_arg14 main_arg15 main_arg16 main_arg17 main_arg18 main_v13 main_v16
-- ==== Kernel.lean ====
abbrev S32000 : Shape := ⟨1, ![32000]⟩
abbrev S2x320000 : Shape := ⟨2, ![2, 320000]⟩
abbrev S320000x32 : Shape := ⟨2, ![320000, 32]⟩
abbrev S100x128 : Shape := ⟨2, ![100, 128]⟩
abbrev S288x128 : Shape := ⟨2, ![288, 128]⟩
abbrev S128 : Shape := ⟨1, ![128]⟩
abbrev S128x128 : Shape := ⟨2, ![128, 128]⟩
abbrev S1x320000 : Shape := ⟨2, ![1, 320000]⟩
abbrev S320000 : Shape := ⟨1, ![320000]⟩
abbrev S_ : Shape := ⟨0, ![]⟩
abbrev S32000x1 : Shape := ⟨2, ![32000, 1]⟩
abbrev S1 : Shape := ⟨1, ![1]⟩
abbrev S1x1 : Shape := ⟨2, ![1, 1]⟩
abbrev S32000x128 : Shape := ⟨2, ![32000, 128]⟩
abbrev S320000x1 : Shape := ⟨2, ![320000, 1]⟩
abbrev S320000x128 : Shape := ⟨2, ![320000, 128]⟩
abbrev S1x128 : Shape := ⟨2, ![1, 128]⟩
abbrev S4000x128 : Shape := ⟨2, ![4000, 128]⟩
abbrev S4000x32 : Shape := ⟨2, ![4000, 32]⟩
abbrev S4000x288 : Shape := ⟨2, ![4000, 288]⟩
abbrev S1600x128 : Shape := ⟨2, ![1600, 128]⟩
abbrev S1600 : Shape := ⟨1, ![1600]⟩
abbrev S1600x1 : Shape := ⟨2, ![1600, 1]⟩

abbrev nBuf : Space → Nat
  | .hbm => 237
  | .vmem => 36
  | .smem => 0
  | _ => 0

abbrev hbmTy0_0 (i : Nat) : BufTy := match i % 128 with
  | 0 => ⟨S32000, .i32⟩
  | 1 => ⟨S2x320000, .i32⟩
  | 2 => ⟨S320000x32, .f32⟩
  | 3 => ⟨S32000, .i32⟩
  | 4 => ⟨S100x128, .f32⟩
  | 5 => ⟨S288x128, .f32⟩
  | 6 => ⟨S128, .f32⟩
  | 7 => ⟨S288x128, .f32⟩
  | 8 => ⟨S128, .f32⟩
  | 9 => ⟨S288x128, .f32⟩
  | 10 => ⟨S128, .f32⟩
  | 11 => ⟨S288x128, .f32⟩
  | 12 => ⟨S128, .f32⟩
  | 13 => ⟨S288x128, .f32⟩
  | 14 => ⟨S128, .f32⟩
  | 15 => ⟨S288x128, .f32⟩
  | 16 => ⟨S128, .f32⟩
  | 17 => ⟨S128x128, .f32⟩
  | 18 => ⟨S128, .f32⟩
  | 19 => ⟨S1x320000, .i32⟩
  | 20 => ⟨S320000, .i32⟩
  | 21 => ⟨S1x320000, .i32⟩
  | 22 => ⟨S320000, .i32⟩
  | 23 => ⟨S_, .i32⟩
  | 24 => ⟨S32000, .i32⟩
  | 25 => ⟨S32000, .i1⟩
  | 26 => ⟨S_, .i32⟩
  | 27 => ⟨S32000, .i32⟩
  | 28 => ⟨S32000, .i32⟩
  | 29 => ⟨S32000, .i32⟩
  | 30 => ⟨S32000x1, .i32⟩
  | 31 => ⟨S1, .i32⟩
  | 32 => ⟨S_, .i32⟩
  | 33 => ⟨S32000x1, .i32⟩
  | 34 => ⟨S32000x1, .i1⟩
  | 35 => ⟨S1x1, .i32⟩
  | 36 => ⟨S32000x1, .i32⟩
  | 37 => ⟨S32000x1, .i1⟩
  | 38 => ⟨S32000x1, .i1⟩
  | 39 => ⟨S_, .i1⟩
  | 40 => ⟨S32000, .i1⟩
  | 41 => ⟨S32000x128, .f32⟩
  | 42 => ⟨S32000x128, .i1⟩
  | 43 => ⟨S_, .f32⟩
  | 44 => ⟨S32000x128, .f32⟩
  | 45 => ⟨S32000x128, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S1, .i32⟩
  | 55 => ⟨S_, .i32⟩
  | 56 => ⟨S320000x1, .i32⟩
  | 57 => ⟨S320000x1, .i1⟩
  | 58 => ⟨S1x1, .i32⟩
  | 59 => ⟨S320000x1, .i32⟩
  | 60 => ⟨S320000x1, .i1⟩
  | 61 => ⟨S320000x1, .i1⟩
  | 62 => ⟨S_, .i1⟩
  | 63 => ⟨S320000, .i1⟩
  | 64 => ⟨S320000x128, .f32⟩
  | 65 => ⟨S320000x128, .i1⟩
  | 66 => ⟨S_, .f32⟩
  | 67 => ⟨S320000x128, .f32⟩
  | 68 => ⟨S320000x128, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S1, .i32⟩
  | 78 => ⟨S_, .i32⟩
  | 79 => ⟨S320000x1, .i32⟩
  | 80 => ⟨S320000x1, .i1⟩
  | 81 => ⟨S1x1, .i32⟩
  | 82 => ⟨S320000x1, .i32⟩
  | 83 => ⟨S320000x1, .i1⟩
  | 84 => ⟨S320000x1, .i1⟩
  | 85 => ⟨S_, .i1⟩
  | 86 => ⟨S320000, .i1⟩
  | 87 => ⟨S320000x128, .f32⟩
  | 88 => ⟨S320000x128, .i1⟩
  | 89 => ⟨S_, .f32⟩
  | 90 => ⟨S320000x128, .f32⟩
  | 91 => ⟨S320000x128, .f32⟩
  | 92 => ⟨S1x128, .f32⟩
  | 93 => ⟨S1x128, .f32⟩
  | 94 => ⟨S320000x128, .f32⟩
  | 95 => ⟨S_, .f32⟩
  | 96 => ⟨S32000x128, .f32⟩
  | 97 => ⟨S320000x1, .i32⟩
  | 98 => ⟨S32000x128, .f32⟩
  | 99 => ⟨S32000x128, .f32⟩
  | 100 => ⟨S_, .f32⟩
  | 101 => ⟨S32000x128, .f32⟩
  | 102 => ⟨S32000x128, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S1, .i32⟩
  | 112 => ⟨S_, .i32⟩
  | 113 => ⟨S320000x1, .i32⟩
  | 114 => ⟨S320000x1, .i1⟩
  | 115 => ⟨S1x1, .i32⟩
  | 116 => ⟨S320000x1, .i32⟩
  | 117 => ⟨S320000x1, .i1⟩
  | 118 => ⟨S320000x1, .i1⟩
  | 119 => ⟨S_, .i1⟩
  | 120 => ⟨S320000, .i1⟩
  | 121 => ⟨S320000x128, .f32⟩
  | 122 => ⟨S320000x128, .i1⟩
  | 123 => ⟨S_, .f32⟩
  | 124 => ⟨S320000x128, .f32⟩
  | 125 => ⟨S320000x128, .f32⟩
  | 126 => ⟨S_, .i32⟩
  | 127 => ⟨S320000, .i32⟩
  | _ => ⟨S32000, .i32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S1, .i32⟩
  | 7 => ⟨S_, .i32⟩
  | 8 => ⟨S320000x1, .i32⟩
  | 9 => ⟨S320000x1, .i1⟩
  | 10 => ⟨S1x1, .i32⟩
  | 11 => ⟨S320000x1, .i32⟩
  | 12 => ⟨S320000x1, .i1⟩
  | 13 => ⟨S320000x1, .i1⟩
  | 14 => ⟨S_, .i1⟩
  | 15 => ⟨S320000, .i1⟩
  | 16 => ⟨S320000x128, .f32⟩
  | 17 => ⟨S320000x128, .i1⟩
  | 18 => ⟨S_, .f32⟩
  | 19 => ⟨S320000x128, .f32⟩
  | 20 => ⟨S320000x128, .f32⟩
  | 21 => ⟨S1x128, .f32⟩
  | 22 => ⟨S1x128, .f32⟩
  | 23 => ⟨S320000x128, .f32⟩
  | 24 => ⟨S_, .f32⟩
  | 25 => ⟨S32000x128, .f32⟩
  | 26 => ⟨S320000x1, .i32⟩
  | 27 => ⟨S32000x128, .f32⟩
  | 28 => ⟨S32000x128, .f32⟩
  | 29 => ⟨S_, .f32⟩
  | 30 => ⟨S32000x128, .f32⟩
  | 31 => ⟨S32000x128, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S1, .i32⟩
  | 41 => ⟨S_, .i32⟩
  | 42 => ⟨S320000x1, .i32⟩
  | 43 => ⟨S320000x1, .i1⟩
  | 44 => ⟨S1x1, .i32⟩
  | 45 => ⟨S320000x1, .i32⟩
  | 46 => ⟨S320000x1, .i1⟩
  | 47 => ⟨S320000x1, .i1⟩
  | 48 => ⟨S_, .i1⟩
  | 49 => ⟨S320000, .i1⟩
  | 50 => ⟨S320000x128, .f32⟩
  | 51 => ⟨S320000x128, .i1⟩
  | 52 => ⟨S_, .f32⟩
  | 53 => ⟨S320000x128, .f32⟩
  | 54 => ⟨S320000x128, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S1, .i32⟩
  | 64 => ⟨S_, .i32⟩
  | 65 => ⟨S320000x1, .i32⟩
  | 66 => ⟨S320000x1, .i1⟩
  | 67 => ⟨S1x1, .i32⟩
  | 68 => ⟨S320000x1, .i32⟩
  | 69 => ⟨S320000x1, .i1⟩
  | 70 => ⟨S320000x1, .i1⟩
  | 71 => ⟨S_, .i1⟩
  | 72 => ⟨S320000, .i1⟩
  | 73 => ⟨S320000x128, .f32⟩
  | 74 => ⟨S320000x128, .i1⟩
  | 75 => ⟨S_, .f32⟩
  | 76 => ⟨S320000x128, .f32⟩
  | 77 => ⟨S320000x128, .f32⟩
  | 78 => ⟨S1x128, .f32⟩
  | 79 => ⟨S1x128, .f32⟩
  | 80 => ⟨S320000x128, .f32⟩
  | 81 => ⟨S_, .f32⟩
  | 82 => ⟨S32000x128, .f32⟩
  | 83 => ⟨S320000x1, .i32⟩
  | 84 => ⟨S32000x128, .f32⟩
  | 85 => ⟨S32000x128, .f32⟩
  | 86 => ⟨S_, .f32⟩
  | 87 => ⟨S32000x128, .f32⟩
  | 88 => ⟨S32000x128, .f32⟩
  | 89 => ⟨S_, .f32⟩
  | 90 => ⟨S1600x128, .f32⟩
  | 91 => ⟨S32000x1, .i32⟩
  | 92 => ⟨S1600x128, .f32⟩
  | 93 => ⟨S_, .f32⟩
  | 94 => ⟨S32000, .f32⟩
  | 95 => ⟨S_, .f32⟩
  | 96 => ⟨S1600, .f32⟩
  | 97 => ⟨S32000x1, .i32⟩
  | 98 => ⟨S1600, .f32⟩
  | 99 => ⟨S_, .f32⟩
  | 100 => ⟨S1600, .f32⟩
  | 101 => ⟨S1600, .f32⟩
  | 102 => ⟨S1600x1, .f32⟩
  | 103 => ⟨S1600x128, .f32⟩
  | 104 => ⟨S1600x128, .f32⟩
  | 105 => ⟨S1600x128, .f32⟩
  | 106 => ⟨S1x128, .f32⟩
  | 107 => ⟨S1600x128, .f32⟩
  | 108 => ⟨S1600x128, .f32⟩
  | _ => ⟨S32000, .i32⟩

abbrev hbmTy (i : Nat) : BufTy := match i / 128 with
  | 0 => hbmTy0_0 i
  | 1 => hbmTy0_1 i
  | _ => ⟨S32000, .i32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x32, .f32⟩
  | .local _ .vmem, ⟨5, _⟩ => ⟨S4000x32, .f32⟩
  | .local _ .vmem, ⟨6, _⟩ => ⟨S288x128, .f32⟩
  | .local _ .vmem, ⟨7, _⟩ => ⟨S1x128, .f32⟩
  | .local _ .vmem, ⟨8, _⟩ => ⟨S288x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x32, .f32⟩
  | .local _ .vmem, ⟨17, _⟩ => ⟨S4000x32, .f32⟩
  | .local _ .vmem, ⟨18, _⟩ => ⟨S288x128, .f32⟩
  | .local _ .vmem, ⟨19, _⟩ => ⟨S1x128, .f32⟩
  | .local _ .vmem, ⟨20, _⟩ => ⟨S288x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x32, .f32⟩
  | .local _ .vmem, ⟨29, _⟩ => ⟨S4000x32, .f32⟩
  | .local _ .vmem, ⟨30, _⟩ => ⟨S288x128, .f32⟩
  | .local _ .vmem, ⟨31, _⟩ => ⟨S1x128, .f32⟩
  | .local _ .vmem, ⟨32, _⟩ => ⟨S288x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | _, _ => ⟨S32000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v5 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v6 : Ref sig .tc := ⟨.hbm, 91, rfl⟩
abbrev main_v7 : Ref sig .tc := ⟨.hbm, 92, rfl⟩
abbrev main_v8 : Ref sig .tc := ⟨.hbm, 93, rfl⟩
abbrev main_v9 : Ref sig .tc := ⟨.hbm, 94, rfl⟩
abbrev main_cst : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_call3_cst : Ref sig .tc := ⟨.hbm, 100, rfl⟩
abbrev main_call3_v0 : Ref sig .tc := ⟨.hbm, 101, rfl⟩
abbrev main_v14 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_call4_cst : Ref sig .tc := ⟨.hbm, 123, rfl⟩
abbrev main_call4_v15 : Ref sig .tc := ⟨.hbm, 124, rfl⟩
abbrev main_v15 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_v14 : Ref sig .tc := ⟨.hbm, 145, rfl⟩
abbrev main_call5_cst : Ref sig .tc := ⟨.hbm, 146, rfl⟩
abbrev main_call5_v15 : Ref sig .tc := ⟨.hbm, 147, rfl⟩
abbrev main_v16 : Ref sig .tc := ⟨.hbm, 148, rfl⟩
abbrev main_v17 : Ref sig .tc := ⟨.hbm, 149, rfl⟩
abbrev main_v18 : Ref sig .tc := ⟨.hbm, 150, rfl⟩
abbrev main_v19 : Ref sig .tc := ⟨.hbm, 151, rfl⟩
abbrev main_cst_0 : Ref sig .tc := ⟨.hbm, 152, rfl⟩
abbrev main_v20 : Ref sig .tc := ⟨.hbm, 153, rfl⟩
abbrev main_v21 : Ref sig .tc := ⟨.hbm, 154, rfl⟩
abbrev main_v22 : Ref sig .tc := ⟨.hbm, 155, rfl⟩
abbrev main_v23 : Ref sig .tc := ⟨.hbm, 156, rfl⟩
abbrev main_call6_cst : Ref sig .tc := ⟨.hbm, 157, rfl⟩
abbrev main_call6_v0 : Ref sig .tc := ⟨.hbm, 158, rfl⟩
abbrev main_v24 : Ref sig .tc := ⟨.hbm, 159, rfl⟩
abbrev main_call7_c : Ref sig .tc := ⟨.hbm, 160, rfl⟩
abbrev main_call7_v0 : Ref sig .tc := ⟨.hbm, 161, rfl⟩
abbrev main_call7_v1 : Ref sig .tc := ⟨.hbm, 162, rfl⟩
abbrev main_call7_c_0 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_call7_v5 : Ref sig .tc := ⟨.hbm, 167, rfl⟩
abbrev main_call7_c_1 : Ref sig .tc := ⟨.hbm, 168, rfl⟩
abbrev main_call7_c_2 : Ref sig .tc := ⟨.hbm, 169, rfl⟩
abbrev main_call7_v6 : Ref sig .tc := ⟨.hbm, 170, rfl⟩
abbrev main_call7_v7 : Ref sig .tc := ⟨.hbm, 171, rfl⟩
abbrev main_call7_v8 : Ref sig .tc := ⟨.hbm, 172, rfl⟩
abbrev main_call7_v9 : Ref sig .tc := ⟨.hbm, 173, rfl⟩
abbrev main_call7_v10 : Ref sig .tc := ⟨.hbm, 174, rfl⟩
abbrev main_call7_v11 : Ref sig .tc := ⟨.hbm, 175, rfl⟩
abbrev main_call7_c_3 : Ref sig .tc := ⟨.hbm, 176, rfl⟩
abbrev main_call7_v12 : Ref sig .tc := ⟨.hbm, 177, rfl⟩
abbrev main_call7_v13 : Ref sig .tc := ⟨.hbm, 178, rfl⟩
abbrev main_call7_v14 : Ref sig .tc := ⟨.hbm, 179, rfl⟩
abbrev main_call7_cst : Ref sig .tc := ⟨.hbm, 180, rfl⟩
abbrev main_call7_v15 : Ref sig .tc := ⟨.hbm, 181, rfl⟩
abbrev main_v25 : Ref sig .tc := ⟨.hbm, 182, rfl⟩
abbrev main_call8_c : Ref sig .tc := ⟨.hbm, 183, rfl⟩
abbrev main_call8_v0 : Ref sig .tc := ⟨.hbm, 184, rfl⟩
abbrev main_call8_v1 : Ref sig .tc := ⟨.hbm, 185, rfl⟩
abbrev main_call8_c_0 : Ref sig .tc := ⟨.hbm, 186, rfl⟩
abbrev main_call8_v2 : Ref sig .tc := ⟨.hbm, 187, rfl⟩
abbrev main_call8_v3 : Ref sig .tc := ⟨.hbm, 188, rfl⟩
abbrev main_call8_v4 : Ref sig .tc := ⟨.hbm, 189, rfl⟩
abbrev main_call8_v5 : Ref sig .tc := ⟨.hbm, 190, rfl⟩
abbrev main_call8_c_1 : Ref sig .tc := ⟨.hbm, 191, rfl⟩
abbrev main_call8_c_2 : Ref sig .tc := ⟨.hbm, 192, rfl⟩
abbrev main_call8_v6 : Ref sig .tc := ⟨.hbm, 193, rfl⟩
abbrev main_call8_v7 : Ref sig .tc := ⟨.hbm, 194, rfl⟩
abbrev main_call8_v8 : Ref sig .tc := ⟨.hbm, 195, rfl⟩
abbrev main_call8_v9 : Ref sig .tc := ⟨.hbm, 196, rfl⟩
abbrev main_call8_v10 : Ref sig .tc := ⟨.hbm, 197, rfl⟩
abbrev main_call8_v11 : Ref sig .tc := ⟨.hbm, 198, rfl⟩
abbrev main_call8_c_3 : Ref sig .tc := ⟨.hbm, 199, rfl⟩
abbrev main_call8_v12 : Ref sig .tc := ⟨.hbm, 200, rfl⟩
abbrev main_call8_v13 : Ref sig .tc := ⟨.hbm, 201, rfl⟩
abbrev main_call8_v14 : Ref sig .tc := ⟨.hbm, 202, rfl⟩
abbrev main_call8_cst : Ref sig .tc := ⟨.hbm, 203, rfl⟩
abbrev main_call8_v15 : Ref sig .tc := ⟨.hbm, 204, rfl⟩
abbrev main_v26 : Ref sig .tc := ⟨.hbm, 205, rfl⟩
abbrev main_v27 : Ref sig .tc := ⟨.hbm, 206, rfl⟩
abbrev main_v28 : Ref sig .tc := ⟨.hbm, 207, rfl⟩
abbrev main_v29 : Ref sig .tc := ⟨.hbm, 208, rfl⟩
abbrev main_cst_1 : Ref sig .tc := ⟨.hbm, 209, rfl⟩
abbrev main_v30 : Ref sig .tc := ⟨.hbm, 210, rfl⟩
abbrev main_v31 : Ref sig .tc := ⟨.hbm, 211, rfl⟩
abbrev main_v32 : Ref sig .tc := ⟨.hbm, 212, rfl⟩
abbrev main_v33 : Ref sig .tc := ⟨.hbm, 213, rfl⟩
abbrev main_call9_cst : Ref sig .tc := ⟨.hbm, 214, rfl⟩
abbrev main_call9_v0 : Ref sig .tc := ⟨.hbm, 215, rfl⟩
abbrev main_v34 : Ref sig .tc := ⟨.hbm, 216, rfl⟩
abbrev main_cst_2 : Ref sig .tc := ⟨.hbm, 217, rfl⟩
abbrev main_v35 : Ref sig .tc := ⟨.hbm, 218, rfl⟩
abbrev main_v36 : Ref sig .tc := ⟨.hbm, 219, rfl⟩
abbrev main_v37 : Ref sig .tc := ⟨.hbm, 220, rfl⟩
abbrev main_cst_3 : Ref sig .tc := ⟨.hbm, 221, rfl⟩
abbrev main_v38 : Ref sig .tc := ⟨.hbm, 222, rfl⟩
abbrev main_cst_4 : Ref sig .tc := ⟨.hbm, 223, rfl⟩
abbrev main_v39 : Ref sig .tc := ⟨.hbm, 224, rfl⟩
abbrev main_v40 : Ref sig .tc := ⟨.hbm, 225, rfl⟩
abbrev main_v41 : Ref sig .tc := ⟨.hbm, 226, rfl⟩
abbrev main_cst_5 : Ref sig .tc := ⟨.hbm, 227, rfl⟩
abbrev main_v42 : Ref sig .tc := ⟨.hbm, 228, rfl⟩
abbrev main_v43 : Ref sig .tc := ⟨.hbm, 229, rfl⟩
abbrev main_v44 : Ref sig .tc := ⟨.hbm, 230, rfl⟩
abbrev main_v45 : Ref sig .tc := ⟨.hbm, 231, rfl⟩
abbrev main_v46 : Ref sig .tc := ⟨.hbm, 232, rfl⟩
abbrev main_v47 : Ref sig .tc := ⟨.hbm, 233, rfl⟩
abbrev main_v48 : Ref sig .tc := ⟨.hbm, 234, rfl⟩
abbrev main_v49 : Ref sig .tc := ⟨.hbm, 235, rfl⟩
abbrev main_v50 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S288x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S288x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S288x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S288x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S32000 : S_.BroadcastsInDim S32000 (![] : Fin 0 → Fin S32000.rank)
  bcast_S32000_S32000x1_0 : S32000.BroadcastsInDim S32000x1 (![0] : Fin 1 → Fin S32000x1.rank)
  bcast_S_S32000x1 : S_.BroadcastsInDim S32000x1 (![] : Fin 0 → Fin S32000x1.rank)
  bcast_S1_S1x1_1 : S1.BroadcastsInDim S1x1 (![1] : Fin 1 → Fin S1x1.rank)
  bcast_S1x1_S32000x1_0_1 : S1x1.BroadcastsInDim S32000x1 (![0, 1] : Fin 2 → Fin S32000x1.rank)
  reducesTo_S32000x1_S32000_d1 : S32000x1.ReducesTo [1] S32000
  h_S_ : 0 < S_.numel
  bcast_S32000_S32000x128_0 : S32000.BroadcastsInDim S32000x128 (![0] : Fin 1 → Fin S32000x128.rank)
  bcast_S_S32000x128 : S_.BroadcastsInDim S32000x128 (![] : Fin 0 → Fin S32000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x32_S4000x32_0_0 : ∀ a, (![0, 0] : Fin 2 → Nat) a + S4000x32.size a ≤ S4000x32.size a
  h_S4000x32 : 0 < S4000x32.numel
  concatenates_S4000x128_S4000x128_S4000x32_S4000x288_d1 : Shape.Concatenates [S4000x128, S4000x128, S4000x32] S4000x288 1
  inb_S288x128_S288x128_0_0 : ∀ a, (![0, 0] : Fin 2 → Nat) a + S288x128.size a ≤ S288x128.size a
  h_S288x128 : 0 < S288x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S1600x128 : S_.BroadcastsInDim S1600x128 (![] : Fin 0 → Fin S1600x128.rank)
  bcast_S_S1600 : S_.BroadcastsInDim S1600 (![] : Fin 0 → Fin S1600.rank)
  bcast_S1600_S1600x1_0 : S1600.BroadcastsInDim S1600x1 (![0] : Fin 1 → Fin S1600x1.rank)
  bcast_S1600x1_S1600x128_0_1 : S1600x1.BroadcastsInDim S1600x128 (![0, 1] : Fin 2 → Fin S1600x128.rank)
  bcast_S128_S1x128_1 : S128.BroadcastsInDim S1x128 (![1] : Fin 1 → Fin S1x128.rank)
  bcast_S1x128_S1600x128_0_1 : S1x128.BroadcastsInDim S1600x128 (![0, 1] : Fin 2 → Fin S1600x128.rank)
  gather_S100x128_S32000x1_S32000x128_1_0_n_n_0_1_1128_wf : GatherDims.WF S100x128 S32000x1 S32000x128 [1] [0] [] [0] [] 1 ![1, 128]
  gather_S32000x128_S320000x1_S320000x128_1_0_n_n_0_1_1128_wf : GatherDims.WF S32000x128 S320000x1 S320000x128 [1] [0] [] [0] [] 1 ![1, 128]
  dot_S4000x288_S288x128_S4000x128_1_0_0_1_n_n_wf : DotDims.WF S4000x288 S288x128 S4000x128 [1] [0] [0] [1] [] []
  scatter_S32000x128_S320000x1_S320000x128_1_0_0_1_wf : ScatterDims.WF S32000x128 S320000x1 S320000x128 [1] [0] [0] 1
  scatter_S1600x128_S32000x1_S32000x128_1_0_0_1_wf : ScatterDims.WF S1600x128 S32000x1 S32000x128 [1] [0] [0] 1
  scatter_S1600_S32000x1_S32000_n_0_0_1_wf : ScatterDims.WF S1600 S32000x1 S32000 [] [0] [0] 1
  dot_S1600x128_S128x128_S1600x128_1_0_0_1_n_n_wf : DotDims.WF S1600x128 S128x128 S1600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S320000x128.size a
  hwx0_1 : ∀ i : grid0.Coords, EltTy.bits .f32 = 32 ∨ (Rect.block (s := S320000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S320000x32.size a
  hwx0_2 : ∀ i : grid0.Coords, EltTy.bits .f32 = 32 ∨ (Rect.block (s := S320000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x128.size a ≤ S288x128.size a
  hwx0_3 : ∀ i : grid0.Coords, EltTy.bits .f32 = 32 ∨ (Rect.block (s := S288x128) S288x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S288x128.size a ≤ S288x128.size a
  hwx0_5 : ∀ i : grid0.Coords, EltTy.bits .f32 = 32 ∨ (Rect.block (s := S288x128) S288x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S320000x128.size a
  hwx0_7 : ∀ i : grid0.Coords, EltTy.bits .f32 = 32 ∨ (Rect.block (s := S320000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S320000x128.size a
  hwx1_0 : ∀ i : grid1.Coords, EltTy.bits .f32 = 32 ∨ (Rect.block (s := S320000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S320000x128.size a
  hwx1_1 : ∀ i : grid1.Coords, EltTy.bits .f32 = 32 ∨ (Rect.block (s := S320000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S320000x32.size a
  hwx1_2 : ∀ i : grid1.Coords, EltTy.bits .f32 = 32 ∨ (Rect.block (s := S320000x32) S4000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S288x128.size a ≤ S288x128.size a
  hwx1_3 : ∀ i : grid1.Coords, EltTy.bits .f32 = 32 ∨ (Rect.block (s := S288x128) S288x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S288x128.size a ≤ S288x128.size a
  hwx1_5 : ∀ i : grid1.Coords, EltTy.bits .f32 = 32 ∨ (Rect.block (s := S288x128) S288x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S320000x128.size a
  hwx1_7 : ∀ i : grid1.Coords, EltTy.bits .f32 = 32 ∨ (Rect.block (s := S320000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S320000x128.size a
  hwx2_0 : ∀ i : grid2.Coords, EltTy.bits .f32 = 32 ∨ (Rect.block (s := S320000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S320000x128.size a
  hwx2_1 : ∀ i : grid2.Coords, EltTy.bits .f32 = 32 ∨ (Rect.block (s := S320000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S320000x32.size a
  hwx2_2 : ∀ i : grid2.Coords, EltTy.bits .f32 = 32 ∨ (Rect.block (s := S320000x32) S4000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S288x128.size a ≤ S288x128.size a
  hwx2_3 : ∀ i : grid2.Coords, EltTy.bits .f32 = 32 ∨ (Rect.block (s := S288x128) S288x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S288x128.size a ≤ S288x128.size a
  hwx2_5 : ∀ i : grid2.Coords, EltTy.bits .f32 = 32 ∨ (Rect.block (s := S288x128) S288x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S320000x128.size a
  hwx2_7 : ∀ i : grid2.Coords, EltTy.bits .f32 = 32 ∨ (Rect.block (s := S320000x128) S4000x128.size (cc2_transform_7 i) (hinb2_7 i)).WholeWords (EltTy.packing .f32)

variable [Facts₀]

def gather_S100x128_S32000x1_S32000x128_1_0_n_n_0_1_1128 : GatherDims S100x128 S32000x1 S32000x128 where
  offsetDims := [1]
  collapsedSliceDims := [0]
  operandBatchingDims := []
  startIndicesBatchingDims := []
  startIndexMap := [0]
  indexVectorDim := 1
  sliceSizes := ![1, 128]
  wf := gather_S100x128_S32000x1_S32000x128_1_0_n_n_0_1_1128_wf
def gather_S32000x128_S320000x1_S320000x128_1_0_n_n_0_1_1128 : GatherDims S32000x128 S320000x1 S320000x128 where
  offsetDims := [1]
  collapsedSliceDims := [0]
  operandBatchingDims := []
  startIndicesBatchingDims := []
  startIndexMap := [0]
  indexVectorDim := 1
  sliceSizes := ![1, 128]
  wf := gather_S32000x128_S320000x1_S320000x128_1_0_n_n_0_1_1128_wf
def dot_S4000x288_S288x128_S4000x128_1_0_0_1_n_n : DotDims S4000x288 S288x128 S4000x128 where
  lhsContracting := [1]
  rhsContracting := [0]
  lhsNonContracting := [0]
  rhsNonContracting := [1]
  lhsBatch := []
  rhsBatch := []
  wf := dot_S4000x288_S288x128_S4000x128_1_0_0_1_n_n_wf
def scatter_S32000x128_S320000x1_S320000x128_1_0_0_1 : ScatterDims S32000x128 S320000x1 S320000x128 where
  updateWindowDims := [1]
  insertedWindowDims := [0]
  scatterDimsToOperandDims := [0]
  indexVectorDim := 1
  wf := scatter_S32000x128_S320000x1_S320000x128_1_0_0_1_wf
def scatter_S1600x128_S32000x1_S32000x128_1_0_0_1 : ScatterDims S1600x128 S32000x1 S32000x128 where
  updateWindowDims := [1]
  insertedWindowDims := [0]
  scatterDimsToOperandDims := [0]
  indexVectorDim := 1
  wf := scatter_S1600x128_S32000x1_S32000x128_1_0_0_1_wf
def scatter_S1600_S32000x1_S32000_n_0_0_1 : ScatterDims S1600 S32000x1 S32000 where
  updateWindowDims := []
  insertedWindowDims := [0]
  scatterDimsToOperandDims := [0]
  indexVectorDim := 1
  wf := scatter_S1600_S32000x1_S32000_n_0_0_1_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf

abbrev win0_0 : Pipeline.Window sig grid0 :=
  Pipeline.Window.ofSpec (Memref.whole main_v5) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S288x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S288x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S288x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S288x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v25) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S4000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S288x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S288x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S32000 : Shape := ⟨1, ![32000]⟩
abbrev S2x320000 : Shape := ⟨2, ![2, 320000]⟩
abbrev S320000x32 : Shape := ⟨2, ![320000, 32]⟩
abbrev S100x128 : Shape := ⟨2, ![100, 128]⟩
abbrev S288x128 : Shape := ⟨2, ![288, 128]⟩
abbrev S128 : Shape := ⟨1, ![128]⟩
abbrev S128x128 : Shape := ⟨2, ![128, 128]⟩
abbrev S1x320000 : Shape := ⟨2, ![1, 320000]⟩
abbrev S320000 : Shape := ⟨1, ![320000]⟩
abbrev S_ : Shape := ⟨0, ![]⟩
abbrev S32000x1 : Shape := ⟨2, ![32000, 1]⟩
abbrev S32000x128 : Shape := ⟨2, ![32000, 128]⟩
abbrev S320000x1 : Shape := ⟨2, ![320000, 1]⟩
abbrev S320000x128 : Shape := ⟨2, ![320000, 128]⟩
abbrev S320000x288 : Shape := ⟨2, ![320000, 288]⟩
abbrev S1x128 : Shape := ⟨2, ![1, 128]⟩
abbrev S1600x128 : Shape := ⟨2, ![1600, 128]⟩
abbrev S1600 : Shape := ⟨1, ![1600]⟩
abbrev S1600x1 : Shape := ⟨2, ![1600, 1]⟩

abbrev nBuf : Space → Nat
  | .hbm => 226
  | .vmem => 0
  | .smem => 0
  | _ => 0

abbrev hbmTy0_0 (i : Nat) : BufTy := match i % 128 with
  | 0 => ⟨S32000, .i32⟩
  | 1 => ⟨S2x320000, .i32⟩
  | 2 => ⟨S320000x32, .f32⟩
  | 3 => ⟨S32000, .i32⟩
  | 4 => ⟨S100x128, .f32⟩
  | 5 => ⟨S288x128, .f32⟩
  | 6 => ⟨S128, .f32⟩
  | 7 => ⟨S288x128, .f32⟩
  | 8 => ⟨S128, .f32⟩
  | 9 => ⟨S288x128, .f32⟩
  | 10 => ⟨S128, .f32⟩
  | 11 => ⟨S288x128, .f32⟩
  | 12 => ⟨S128, .f32⟩
  | 13 => ⟨S288x128, .f32⟩
  | 14 => ⟨S128, .f32⟩
  | 15 => ⟨S288x128, .f32⟩
  | 16 => ⟨S128, .f32⟩
  | 17 => ⟨S128x128, .f32⟩
  | 18 => ⟨S128, .f32⟩
  | 19 => ⟨S1x320000, .i32⟩
  | 20 => ⟨S320000, .i32⟩
  | 21 => ⟨S1x320000, .i32⟩
  | 22 => ⟨S320000, .i32⟩
  | 23 => ⟨S_, .i32⟩
  | 24 => ⟨S32000, .i32⟩
  | 25 => ⟨S32000, .i1⟩
  | 26 => ⟨S_, .i32⟩
  | 27 => ⟨S32000, .i32⟩
  | 28 => ⟨S32000, .i32⟩
  | 29 => ⟨S32000, .i32⟩
  | 30 => ⟨S32000x1, .i32⟩
  | 31 => ⟨S32000x128, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x128, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x128, .f32⟩
  | 50 => ⟨S320000x288, .f32⟩
  | 51 => ⟨S320000x128, .f32⟩
  | 52 => ⟨S1x128, .f32⟩
  | 53 => ⟨S320000x128, .f32⟩
  | 54 => ⟨S320000x128, .f32⟩
  | 55 => ⟨S320000x128, .f32⟩
  | 56 => ⟨S320000x128, .f32⟩
  | 57 => ⟨S_, .f32⟩
  | 58 => ⟨S320000x128, .f32⟩
  | 59 => ⟨S320000x128, .f32⟩
  | 60 => ⟨S_, .f32⟩
  | 61 => ⟨S320000x128, .f32⟩
  | 62 => ⟨S320000x128, .f32⟩
  | 63 => ⟨S320000x128, .f32⟩
  | 64 => ⟨S1x128, .f32⟩
  | 65 => ⟨S320000x128, .f32⟩
  | 66 => ⟨S320000x128, .f32⟩
  | 67 => ⟨S_, .f32⟩
  | 68 => ⟨S320000x128, .f32⟩
  | 69 => ⟨S320000x128, .f32⟩
  | 70 => ⟨S320000x128, .f32⟩
  | 71 => ⟨S320000x128, .f32⟩
  | 72 => ⟨S320000x128, .i1⟩
  | 73 => ⟨S320000x128, .f32⟩
  | 74 => ⟨S320000x128, .f32⟩
  | 75 => ⟨S320000x128, .f32⟩
  | 76 => ⟨S320000x128, .f32⟩
  | 77 => ⟨S320000x128, .f32⟩
  | 78 => ⟨S320000x128, .f32⟩
  | 79 => ⟨S320000x128, .f32⟩
  | 80 => ⟨S320000x128, .f32⟩
  | 81 => ⟨S320000x128, .f32⟩
  | 82 => ⟨S_, .f32⟩
  | 83 => ⟨S32000x128, .f32⟩
  | 84 => ⟨S320000x1, .i32⟩
  | 85 => ⟨S32000x128, .f32⟩
  | 86 => ⟨S32000x128, .f32⟩
  | 87 => ⟨S_, .f32⟩
  | 88 => ⟨S32000x128, .f32⟩
  | 89 => ⟨S32000x128, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000x128, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x128, .f32⟩
  | 108 => ⟨S320000x288, .f32⟩
  | 109 => ⟨S320000x128, .f32⟩
  | 110 => ⟨S1x128, .f32⟩
  | 111 => ⟨S320000x128, .f32⟩
  | 112 => ⟨S320000x128, .f32⟩
  | 113 => ⟨S320000x128, .f32⟩
  | 114 => ⟨S320000x128, .f32⟩
  | 115 => ⟨S_, .f32⟩
  | 116 => ⟨S320000x128, .f32⟩
  | 117 => ⟨S320000x128, .f32⟩
  | 118 => ⟨S_, .f32⟩
  | 119 => ⟨S320000x128, .f32⟩
  | 120 => ⟨S320000x128, .f32⟩
  | 121 => ⟨S320000x128, .f32⟩
  | 122 => ⟨S1x128, .f32⟩
  | 123 => ⟨S320000x128, .f32⟩
  | 124 => ⟨S320000x128, .f32⟩
  | 125 => ⟨S_, .f32⟩
  | 126 => ⟨S320000x128, .f32⟩
  | 127 => ⟨S320000x128, .f32⟩
  | _ => ⟨S32000, .i32⟩

abbrev hbmTy0_1 (i : Nat) : BufTy := match i % 128 with
  | 0 => ⟨S320000x128, .f32⟩
  | 1 => ⟨S320000x128, .f32⟩
  | 2 => ⟨S320000x128, .i1⟩
  | 3 => ⟨S320000x128, .f32⟩
  | 4 => ⟨S320000x128, .f32⟩
  | 5 => ⟨S320000x128, .f32⟩
  | 6 => ⟨S320000x128, .f32⟩
  | 7 => ⟨S320000x128, .f32⟩
  | 8 => ⟨S320000x128, .f32⟩
  | 9 => ⟨S320000x128, .f32⟩
  | 10 => ⟨S320000x128, .f32⟩
  | 11 => ⟨S320000x128, .f32⟩
  | 12 => ⟨S_, .f32⟩
  | 13 => ⟨S32000x128, .f32⟩
  | 14 => ⟨S320000x1, .i32⟩
  | 15 => ⟨S32000x128, .f32⟩
  | 16 => ⟨S32000x128, .f32⟩
  | 17 => ⟨S_, .f32⟩
  | 18 => ⟨S32000x128, .f32⟩
  | 19 => ⟨S32000x128, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x128, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x128, .f32⟩
  | 38 => ⟨S320000x288, .f32⟩
  | 39 => ⟨S320000x128, .f32⟩
  | 40 => ⟨S1x128, .f32⟩
  | 41 => ⟨S320000x128, .f32⟩
  | 42 => ⟨S320000x128, .f32⟩
  | 43 => ⟨S320000x128, .f32⟩
  | 44 => ⟨S320000x128, .f32⟩
  | 45 => ⟨S_, .f32⟩
  | 46 => ⟨S320000x128, .f32⟩
  | 47 => ⟨S320000x128, .f32⟩
  | 48 => ⟨S_, .f32⟩
  | 49 => ⟨S320000x128, .f32⟩
  | 50 => ⟨S320000x128, .f32⟩
  | 51 => ⟨S320000x128, .f32⟩
  | 52 => ⟨S1x128, .f32⟩
  | 53 => ⟨S320000x128, .f32⟩
  | 54 => ⟨S320000x128, .f32⟩
  | 55 => ⟨S_, .f32⟩
  | 56 => ⟨S320000x128, .f32⟩
  | 57 => ⟨S320000x128, .f32⟩
  | 58 => ⟨S320000x128, .f32⟩
  | 59 => ⟨S320000x128, .f32⟩
  | 60 => ⟨S320000x128, .i1⟩
  | 61 => ⟨S320000x128, .f32⟩
  | 62 => ⟨S320000x128, .f32⟩
  | 63 => ⟨S320000x128, .f32⟩
  | 64 => ⟨S320000x128, .f32⟩
  | 65 => ⟨S320000x128, .f32⟩
  | 66 => ⟨S320000x128, .f32⟩
  | 67 => ⟨S320000x128, .f32⟩
  | 68 => ⟨S320000x128, .f32⟩
  | 69 => ⟨S320000x128, .f32⟩
  | 70 => ⟨S_, .f32⟩
  | 71 => ⟨S32000x128, .f32⟩
  | 72 => ⟨S320000x1, .i32⟩
  | 73 => ⟨S32000x128, .f32⟩
  | 74 => ⟨S32000x128, .f32⟩
  | 75 => ⟨S_, .f32⟩
  | 76 => ⟨S32000x128, .f32⟩
  | 77 => ⟨S32000x128, .f32⟩
  | 78 => ⟨S_, .f32⟩
  | 79 => ⟨S1600x128, .f32⟩
  | 80 => ⟨S32000x1, .i32⟩
  | 81 => ⟨S1600x128, .f32⟩
  | 82 => ⟨S_, .f32⟩
  | 83 => ⟨S32000, .f32⟩
  | 84 => ⟨S_, .f32⟩
  | 85 => ⟨S1600, .f32⟩
  | 86 => ⟨S32000x1, .i32⟩
  | 87 => ⟨S1600, .f32⟩
  | 88 => ⟨S_, .f32⟩
  | 89 => ⟨S1600, .f32⟩
  | 90 => ⟨S1600, .f32⟩
  | 91 => ⟨S1600x1, .f32⟩
  | 92 => ⟨S1600x128, .f32⟩
  | 93 => ⟨S1600x128, .f32⟩
  | 94 => ⟨S1600x128, .f32⟩
  | 95 => ⟨S1x128, .f32⟩
  | 96 => ⟨S1600x128, .f32⟩
  | 97 => ⟨S1600x128, .f32⟩
  | _ => ⟨S32000, .i32⟩

abbrev hbmTy (i : Nat) : BufTy := match i / 128 with
  | 0 => hbmTy0_0 i
  | 1 => hbmTy0_1 i
  | _ => ⟨S32000, .i32⟩

abbrev bufTy : (tb : Table) → Fin (tcTables nBuf tb) → BufTy
  | .hbm, ⟨i, _⟩ => hbmTy i
  | _, _ => ⟨S32000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_v40 : Ref sig .tc := ⟨.hbm, 80, rfl⟩
abbrev main_v41 : Ref sig .tc := ⟨.hbm, 81, rfl⟩
abbrev main_cst_6 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_c_7 : Ref sig .tc := ⟨.hbm, 90, rfl⟩
abbrev main_v47 : Ref sig .tc := ⟨.hbm, 91, rfl⟩
abbrev main_v48 : Ref sig .tc := ⟨.hbm, 92, rfl⟩
abbrev main_c_8 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_9 : Ref sig .tc := ⟨.hbm, 99, rfl⟩
abbrev main_v54 : Ref sig .tc := ⟨.hbm, 100, rfl⟩
abbrev main_v55 : Ref sig .tc := ⟨.hbm, 101, rfl⟩
abbrev main_c_10 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_11 : Ref sig .tc := ⟨.hbm, 115, rfl⟩
abbrev main_v68 : Ref sig .tc := ⟨.hbm, 116, rfl⟩
abbrev main_v69 : Ref sig .tc := ⟨.hbm, 117, rfl⟩
abbrev main_cst_12 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_v76 : Ref sig .tc := ⟨.hbm, 138, rfl⟩
abbrev main_v77 : Ref sig .tc := ⟨.hbm, 139, rfl⟩
abbrev main_cst_13 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_call3_cst : Ref sig .tc := ⟨.hbm, 145, rfl⟩
abbrev main_call3_v0 : Ref sig .tc := ⟨.hbm, 146, rfl⟩
abbrev main_v82 : Ref sig .tc := ⟨.hbm, 147, rfl⟩
abbrev main_c_14 : Ref sig .tc := ⟨.hbm, 148, rfl⟩
abbrev main_v83 : Ref sig .tc := ⟨.hbm, 149, rfl⟩
abbrev main_v84 : Ref sig .tc := ⟨.hbm, 150, rfl⟩
abbrev main_c_15 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_c_16 : Ref sig .tc := ⟨.hbm, 157, rfl⟩
abbrev main_v90 : Ref sig .tc := ⟨.hbm, 158, rfl⟩
abbrev main_v91 : Ref sig .tc := ⟨.hbm, 159, rfl⟩
abbrev main_c_17 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_cst_18 : Ref sig .tc := ⟨.hbm, 173, rfl⟩
abbrev main_v104 : Ref sig .tc := ⟨.hbm, 174, rfl⟩
abbrev main_v105 : Ref sig .tc := ⟨.hbm, 175, rfl⟩
abbrev main_cst_19 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_call4_cst : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_v8 : Ref sig .tc := ⟨.hbm, 192, rfl⟩
abbrev main_call4_v9 : Ref sig .tc := ⟨.hbm, 193, rfl⟩
abbrev main_call4_v10 : Ref sig .tc := ⟨.hbm, 194, rfl⟩
abbrev main_call4_v11 : Ref sig .tc := ⟨.hbm, 195, rfl⟩
abbrev main_v112 : Ref sig .tc := ⟨.hbm, 196, rfl⟩
abbrev main_v113 : Ref sig .tc := ⟨.hbm, 197, rfl⟩
abbrev main_cst_20 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_call5_cst : Ref sig .tc := ⟨.hbm, 203, rfl⟩
abbrev main_call5_v0 : Ref sig .tc := ⟨.hbm, 204, rfl⟩
abbrev main_v118 : Ref sig .tc := ⟨.hbm, 205, rfl⟩
abbrev main_cst_21 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_cst_22 : Ref sig .tc := ⟨.hbm, 210, rfl⟩
abbrev main_v122 : Ref sig .tc := ⟨.hbm, 211, rfl⟩
abbrev main_cst_23 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_cst_24 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S32000 : S_.BroadcastsInDim S32000 (![] : Fin 0 → Fin S32000.rank)
  bcast_S32000_S32000x1_0 : S32000.BroadcastsInDim S32000x1 (![0] : Fin 1 → Fin S32000x1.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x32_S320000x288_d1 : Shape.Concatenates [S320000x128, S320000x128, S320000x32] S320000x288 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S32000x128 : S_.BroadcastsInDim S32000x128 (![] : Fin 0 → Fin S32000x128.rank)
  bcast_S_S1600x128 : S_.BroadcastsInDim S1600x128 (![] : Fin 0 → Fin S1600x128.rank)
  bcast_S_S1600 : S_.BroadcastsInDim S1600 (![] : Fin 0 → Fin S1600.rank)
  bcast_S1600_S1600x1_0 : S1600.BroadcastsInDim S1600x1 (![0] : Fin 1 → Fin S1600x1.rank)
  bcast_S1600x1_S1600x128_0_1 : S1600x1.BroadcastsInDim S1600x128 (![0, 1] : Fin 2 → Fin S1600x128.rank)
  bcast_S1x128_S1600x128_0_1 : S1x128.BroadcastsInDim S1600x128 (![0, 1] : Fin 2 → Fin S1600x128.rank)
  gather_S100x128_S32000x1_S32000x128_1_0_n_n_0_1_1128_wf : GatherDims.WF S100x128 S32000x1 S32000x128 [1] [0] [] [0] [] 1 ![1, 128]
  gather_S32000x128_S320000x1_S320000x128_1_0_n_n_0_1_1128_wf : GatherDims.WF S32000x128 S320000x1 S320000x128 [1] [0] [] [0] [] 1 ![1, 128]
  dot_S320000x288_S288x128_S320000x128_1_0_0_1_n_n_wf : DotDims.WF S320000x288 S288x128 S320000x128 [1] [0] [0] [1] [] []
  scatter_S32000x128_S320000x1_S320000x128_1_0_0_1_wf : ScatterDims.WF S32000x128 S320000x1 S320000x128 [1] [0] [0] 1
  scatter_S1600x128_S32000x1_S32000x128_1_0_0_1_wf : ScatterDims.WF S1600x128 S32000x1 S32000x128 [1] [0] [0] 1
  scatter_S1600_S32000x1_S32000_n_0_0_1_wf : ScatterDims.WF S1600 S32000x1 S32000 [] [0] [0] 1
  dot_S1600x128_S128x128_S1600x128_1_0_0_1_n_n_wf : DotDims.WF S1600x128 S128x128 S1600x128 [1] [0] [0] [1] [] []

variable [Facts₀]

def gather_S100x128_S32000x1_S32000x128_1_0_n_n_0_1_1128 : GatherDims S100x128 S32000x1 S32000x128 where
  offsetDims := [1]
  collapsedSliceDims := [0]
  operandBatchingDims := []
  startIndicesBatchingDims := []
  startIndexMap := [0]
  indexVectorDim := 1
  sliceSizes := ![1, 128]
  wf := gather_S100x128_S32000x1_S32000x128_1_0_n_n_0_1_1128_wf
def gather_S32000x128_S320000x1_S320000x128_1_0_n_n_0_1_1128 : GatherDims S32000x128 S320000x1 S320000x128 where
  offsetDims := [1]
  collapsedSliceDims := [0]
  operandBatchingDims := []
  startIndicesBatchingDims := []
  startIndexMap := [0]
  indexVectorDim := 1
  sliceSizes := ![1, 128]
  wf := gather_S32000x128_S320000x1_S320000x128_1_0_n_n_0_1_1128_wf
def dot_S320000x288_S288x128_S320000x128_1_0_0_1_n_n : DotDims S320000x288 S288x128 S320000x128 where
  lhsContracting := [1]
  rhsContracting := [0]
  lhsNonContracting := [0]
  rhsNonContracting := [1]
  lhsBatch := []
  rhsBatch := []
  wf := dot_S320000x288_S288x128_S320000x128_1_0_0_1_n_n_wf
def scatter_S32000x128_S320000x1_S320000x128_1_0_0_1 : ScatterDims S32000x128 S320000x1 S320000x128 where
  updateWindowDims := [1]
  insertedWindowDims := [0]
  scatterDimsToOperandDims := [0]
  indexVectorDim := 1
  wf := scatter_S32000x128_S320000x1_S320000x128_1_0_0_1_wf
def scatter_S1600x128_S32000x1_S32000x128_1_0_0_1 : ScatterDims S1600x128 S32000x1 S32000x128 where
  updateWindowDims := [1]
  insertedWindowDims := [0]
  scatterDimsToOperandDims := [0]
  indexVectorDim := 1
  wf := scatter_S1600x128_S32000x1_S32000x128_1_0_0_1_wf
def scatter_S1600_S32000x1_S32000_n_0_0_1 : ScatterDims S1600 S32000x1 S32000 where
  updateWindowDims := []
  insertedWindowDims := [0]
  scatterDimsToOperandDims := [0]
  indexVectorDim := 1
  wf := scatter_S1600_S32000x1_S32000_n_0_0_1_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf

class Facts : Prop extends Facts₀ where

variable [Facts]
-- ==== Proof.RefFold.lean ====
/-
  The reference's result buffer after its 207 operations is the last stage of the stage-by-stage reading of the program.

  The run module names the result as the fold of the operation list over the launch contents, read at the result buffer.
  The program is in single-assignment form: every operation writes one buffer that no other operation writes, and
  reads only arguments, which nothing writes, and buffers written earlier. For such a line the contents at the END
  satisfy every operation's own equation — the result buffer holds the operation's function of what its operand buffers
  hold at the end — because a buffer keeps, from the operation that writes it onwards, what that operation left there
  (`after_eq_take`, `after_at`, the `fix_*` lemmas: general facts about a fold of operations whose written references are
  listed). The equations are then read in program order, each rewritten with the stages already named for its
  operands and closed by the definition of its own stage, so that no stage's term is ever written out twice:
  after the last of them the result buffer holds `val_main_v134` of the nineteen arguments.
-/
import proofs.«419282_j17575006175633_1_alg».proof.Proof.RefRead

noncomputable section

namespace Cert.ReferenceIdeal.Fold

open Cert.ReferenceIdeal Cert.ReferenceIdeal.Gen Idealize.ShloMosaic Idealize.ShloMosaic.TcCoe Idealize.SL.Sem Idealize.ShloMosaic.StableHlo

/-! ## A fold of operations that each write one listed reference -/

section General

variable {τ : Topo} {sig : RefSig} {Val : EltTy → Type}

/-- Two lines run one after the other: the fold of the second over the fold of the first. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- The line's operations write, in order, exactly the buffers of the references `ys`, one each. -/
def WritesAre (l : List (HloOp τ sig Val)) (ys : List (Ref sig .tc)) : Prop :=
  l.map (fun op => op.writes) = ys.map fun y => ({Proc.devRef .tc y} : Finset (DevRef τ sig))

/-- A reference none of the operations from position `n` on writes holds at the end what it held after the first `n`. -/
theorem after_eq_take {l : List (HloOp τ sig Val)} {ys : List (Ref sig .tc)} (h : WritesAre l ys) (V : Valuation τ sig Val)
    (n : Nat) {r : Ref sig .tc} (hr : r ∉ ys.drop n) :
    after l V (Proc.devRef .tc r) = after (l.take n) V (Proc.devRef .tc r) := by
  conv_lhs => rw [← List.take_append_drop n l]
  rw [after_app]
  refine after_of_forall_not_mem _ _ fun op hop hmem => hr ?_
  have hw : op.writes ∈ (ys.drop n).map fun y => ({Proc.devRef .tc y} : Finset (DevRef τ sig)) := by
    have h' : l.map (fun op => op.writes) = ys.map fun y => ({Proc.devRef .tc y} : Finset (DevRef τ sig)) := h
    rw [List.map_drop, ← h', ← List.map_drop]
    exact List.mem_map_of_mem hop
  obtain ⟨y, hy, e⟩ := List.mem_map.1 hw
  rw [← e, Finset.mem_singleton] at hmem
  exact Proc.devRef_injective _ hmem ▸ hy

/-- The reference the operation at position `n` writes, if no later one writes it, holds at the end that operation's result
    over what the first `n` operations left. -/
theorem after_at {l : List (HloOp τ sig Val)} {ys : List (Ref sig .tc)} (h : WritesAre l ys) (V : Valuation τ sig Val)
    (n : Nat) {op : HloOp τ sig Val} (hop : l[n]? = some op) {y : Ref sig .tc} (hy : y ∉ ys.drop (n + 1)) :
    after l V (Proc.devRef .tc y) = op.result (after (l.take n) V) (Proc.devRef .tc y) := by
  rw [after_eq_take h V (n + 1) hy]
  have e : l.take (n + 1) = l.take n ++ [op] := by rw [List.take_succ, hop]; rfl
  rw [e, after_app]; rfl

variable {l : List (HloOp τ sig Val)} {ys : List (Ref sig .tc)} {V W : Valuation τ sig Val}

/-- A reference no operation writes holds at the end what it held at the start. -/
theorem fix_arg (h : WritesAre l ys) (hW : W = after l V) {r : Ref sig .tc} (hr : r ∉ ys) :
    W (Proc.devRef .tc r) = V (Proc.devRef .tc r) := by
  subst hW; exact after_eq_take h V 0 (by simpa using hr)

/-! In a line where every buffer is written once and read only later, the contents at the END satisfy each operation's
    own equation: the result buffer holds the operation's function of what the operand buffers hold at the end. -/

theorem fix_nullary (h : WritesAre l ys) (hW : W = after l V) (n : Nat) {y : Ref sig .tc} {v : y.ty.Contents Val} {hy}
    (hop : l[n]? = some (nullary y v hy)) (hs : y ∉ ys.drop (n + 1)) :
    W (Proc.devRef .tc y) = v := by
  subst hW; rw [after_at h V n hop hs, nullary_result]

theorem fix_unary (h : WritesAre l ys) (hW : W = after l V) (n : Nat) {x y : Ref sig .tc} {f : x.ty.Contents Val → y.ty.Contents Val} {hx hy}
    (hop : l[n]? = some (unary x y f hx hy)) (hs : y ∉ ys.drop (n + 1) ∧ x ∉ ys.drop n) :
    W (Proc.devRef .tc y) = f (W (Proc.devRef .tc x)) := by
  subst hW; rw [after_at h V n hop hs.1, unary_result, ← after_eq_take h V n hs.2]

theorem fix_reshape (h : WritesAre l ys) (hW : W = after l V) (n : Nat) {x y : Ref sig .tc} {he hn hx hy}
    (hop : l[n]? = some (reshape x y he hn hx hy)) (hs : y ∉ ys.drop (n + 1) ∧ x ∉ ys.drop n) :
    W (Proc.devRef .tc y) = fun i => he ▸ shapeCast y.ty.shape (W (Proc.devRef .tc x)) hn i := by
  subst hW; rw [after_at h V n hop hs.1, reshape_result, ← after_eq_take h V n hs.2]

theorem fix_binary (h : WritesAre l ys) (hW : W = after l V) (n : Nat) {a b y : Ref sig .tc}
    {f : a.ty.Contents Val → b.ty.Contents Val → y.ty.Contents Val} {ha hb hy}
    (hop : l[n]? = some (binary a b y f ha hb hy)) (hs : y ∉ ys.drop (n + 1) ∧ a ∉ ys.drop n ∧ b ∉ ys.drop n) :
    W (Proc.devRef .tc y) = f (W (Proc.devRef .tc a)) (W (Proc.devRef .tc b)) := by
  subst hW; rw [after_at h V n hop hs.1, binary_result, ← after_eq_take h V n hs.2.1, ← after_eq_take h V n hs.2.2]

theorem fix_ternary (h : WritesAre l ys) (hW : W = after l V) (n : Nat) {c a b y : Ref sig .tc}
    {f : c.ty.Contents Val → a.ty.Contents Val → b.ty.Contents Val → y.ty.Contents Val} {hc ha hb hy}
    (hop : l[n]? = some (ternary c a b y f hc ha hb hy))
    (hs : y ∉ ys.drop (n + 1) ∧ c ∉ ys.drop n ∧ a ∉ ys.drop n ∧ b ∉ ys.drop n) :
    W (Proc.devRef .tc y) = f (W (Proc.devRef .tc c)) (W (Proc.devRef .tc a)) (W (Proc.devRef .tc b)) := by
  subst hW
  rw [after_at h V n hop hs.1, ternary_result, ← after_eq_take h V n hs.2.1, ← after_eq_take h V n hs.2.2.1,
    ← after_eq_take h V n hs.2.2.2]

/-- An operation of three operands given as a literal family (a concatenate of three pieces): its result with each
    operand's contents at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem fix_nary3 (h : WritesAre l ys) (hW : W = after l V) (n : Nat) {x a b y : Ref sig .tc}
    {f : ((k : Fin 3) → ((![x, a, b] : Fin 3 → Ref sig .tc) k).ty.Contents Val) → y.ty.Contents Val} {hxs hy}
    (hop : l[n]? = some (nary ![x, a, b] y f hxs hy))
    (hs : y ∉ ys.drop (n + 1) ∧ x ∉ ys.drop n ∧ a ∉ ys.drop n ∧ b ∉ ys.drop n) :
    W (Proc.devRef .tc y)
      = f (Fin.cons (W (Proc.devRef .tc x)) (Fin.cons (W (Proc.devRef .tc a)) (Fin.cons (W (Proc.devRef .tc b)) (fun i => i.elim0)))) := by
  subst hW
  rw [after_at h V n hop hs.1, nary3_result, ← after_eq_take h V n hs.2.1, ← after_eq_take h V n hs.2.2.1,
    ← after_eq_take h V n hs.2.2.2]

end General

/-! ## This program -/

open Cert.ReferenceIdeal.RunFold Cert.ReferenceIdeal.Stages

/-- The references the 207 operations write, in program order. -/
def ys : List (Ref sig .tc) :=
  [main_v0, main_v1, main_v2, main_v3, main_c, main_v4, main_v5, main_c_0, main_v6, main_v7, main_v8, main_v9, main_v10,
   main_c_1, main_v11, main_v12, main_c_2, main_v13, main_v14, main_v15, main_v16, main_v17,
   main_c_3, main_v18, main_v19, main_c_4, main_v20, main_v21, main_v22, main_v23, main_v24, main_v25,
   main_v26, main_v27, main_v28, main_v29, main_v30, main_v31, main_cst, main_v32, main_v33, main_cst_5, main_v34, main_v35,
   main_v36, main_v37, main_v38, main_v39,
   main_call0_cst, main_call0_v0, main_call0_v1, main_call0_v2, main_call0_v3, main_call0_v4, main_call0_v5, main_call0_v6,
   main_call0_v7, main_call0_v8, main_call0_v9, main_call0_v10, main_call0_v11, main_v40,
   main_v41, main_cst_6, main_v42, main_v43, main_v44, main_v45, main_call1_cst, main_call1_v0, main_v46,
   main_c_7, main_v47, main_v48, main_c_8, main_v49, main_v50, main_v51, main_v52, main_v53,
   main_c_9, main_v54, main_v55, main_c_10, main_v56, main_v57, main_v58, main_v59, main_v60, main_v61,
   main_v62, main_v63, main_v64, main_v65, main_v66, main_v67, main_cst_11, main_v68, main_v69, main_cst_12, main_v70, main_v71,
   main_v72, main_v73, main_v74, main_v75,
   main_call2_cst, main_call2_v0, main_call2_v1, main_call2_v2, main_call2_v3, main_call2_v4, main_call2_v5, main_call2_v6,
   main_call2_v7, main_call2_v8, main_call2_v9, main_call2_v10, main_call2_v11, main_v76,
   main_v77, main_cst_13, main_v78, main_v79, main_v80, main_v81, main_call3_cst, main_call3_v0, main_v82,
   main_c_14, main_v83, main_v84, main_c_15, main_v85, main_v86, main_v87, main_v88, main_v89,
   main_c_16, main_v90, main_v91, main_c_17, main_v92, main_v93, main_v94, main_v95, main_v96, main_v97,
   main_v98, main_v99, main_v100, main_v101, main_v102, main_v103, main_cst_18, main_v104, main_v105, main_cst_19, main_v106, main_v107,
   main_v108, main_v109, main_v110, main_v111,
   main_call4_cst, main_call4_v0, main_call4_v1, main_call4_v2, main_call4_v3, main_call4_v4, main_call4_v5, main_call4_v6,
   main_call4_v7, main_call4_v8, main_call4_v9, main_call4_v10, main_call4_v11, main_v112,
   main_v113, main_cst_20, main_v114, main_v115, main_v116, main_v117, main_call5_cst, main_call5_v0, main_v118,
   main_cst_21, main_v119, main_v120, main_v121, main_cst_22, main_v122, main_cst_23, main_v123, main_v124, main_v125,
   main_cst_24, main_v126, main_v127, main_v128, main_v129, main_v130, main_v131, main_v132, main_v133, main_v134]

section Chain

variable {F : FTy → Type} [FloatOps F]

set_option maxRecDepth 8192 in
/-- Operation k of the list writes reference k of `ys`, and nothing else. -/
theorem ops_writes : WritesAre (ops (F := F)) ys := rfl

variable {V W : Valuation τ sig (Elt F)} (hW : W = after (ops (F := F)) V)
variable (x0 : (⟨S32000, .i32⟩ : BufTy).Contents (Elt F)) (x1 : (⟨S2x320000, .i32⟩ : BufTy).Contents (Elt F))
  (x2 : (⟨S320000x32, .f32⟩ : BufTy).Contents (Elt F)) (x3 : (⟨S32000, .i32⟩ : BufTy).Contents (Elt F))
  (x4 : (⟨S100x128, .f32⟩ : BufTy).Contents (Elt F)) (x5 : (⟨S288x128, .f32⟩ : BufTy).Contents (Elt F))
  (x6 : (⟨S128, .f32⟩ : BufTy).Contents (Elt F)) (x7 : (⟨S288x128, .f32⟩ : BufTy).Contents (Elt F))
  (x8 : (⟨S128, .f32⟩ : BufTy).Contents (Elt F)) (x9 : (⟨S288x128, .f32⟩ : BufTy).Contents (Elt F))
  (x10 : (⟨S128, .f32⟩ : BufTy).Contents (Elt F)) (x11 : (⟨S288x128, .f32⟩ : BufTy).Contents (Elt F))
  (x12 : (⟨S128, .f32⟩ : BufTy).Contents (Elt F)) (x13 : (⟨S288x128, .f32⟩ : BufTy).Contents (Elt F))
  (x14 : (⟨S128, .f32⟩ : BufTy).Contents (Elt F)) (x15 : (⟨S288x128, .f32⟩ : BufTy).Contents (Elt F))
  (x16 : (⟨S128, .f32⟩ : BufTy).Contents (Elt F)) (x17 : (⟨S128x128, .f32⟩ : BufTy).Contents (Elt F))
  (x18 : (⟨S128, .f32⟩ : BufTy).Contents (Elt F))

-- a stage applied to the arguments it depends on
local notation:max "Z⟦" f "⟧" => f (F := F)
local notation:max "Q0⟦" f "⟧" => f (F := F) x0
local notation:max "Q1⟦" f "⟧" => f (F := F) x1
local notation:max "Q3⟦" f "⟧" => f (F := F) x3
local notation:max "Q6⟦" f "⟧" => f (F := F) x6
local notation:max "Q8⟦" f "⟧" => f (F := F) x8
local notation:max "Q10⟦" f "⟧" => f (F := F) x10
local notation:max "Q12⟦" f "⟧" => f (F := F) x12
local notation:max "Q14⟦" f "⟧" => f (F := F) x14
local notation:max "Q16⟦" f "⟧" => f (F := F) x16
local notation:max "Q18⟦" f "⟧" => f (F := F) x18
local notation:max "Qa⟦" f "⟧" => f (F := F) x0 x4
local notation:max "Qb⟦" f "⟧" => f (F := F) x0 x1 x4
local notation:max "Qc⟦" f "⟧" => f (F := F) x0 x1 x2 x4
local notation:max "Qd⟦" f "⟧" => f (F := F) x0 x1 x2 x4 x5
local notation:max "Qe⟦" f "⟧" => f (F := F) x0 x1 x2 x4 x5 x6
local notation:max "Qf⟦" f "⟧" => f (F := F) x0 x1 x2 x4 x7
local notation:max "Qg⟦" f "⟧" => f (F := F) x0 x1 x2 x4 x7 x8
local notation:max "L1⟦" f "⟧" => f (F := F) x0 x1 x2 x4 x5 x6 x7 x8
local notation:max "L1a⟦" f "⟧" => f (F := F) x0 x1 x2 x4 x5 x6 x7 x8 x9
local notation:max "L1b⟦" f "⟧" => f (F := F) x0 x1 x2 x4 x5 x6 x7 x8 x9 x10
local notation:max "L1c⟦" f "⟧" => f (F := F) x0 x1 x2 x4 x5 x6 x7 x8 x11
local notation:max "L1d⟦" f "⟧" => f (F := F) x0 x1 x2 x4 x5 x6 x7 x8 x11 x12
local notation:max "L2⟦" f "⟧" => f (F := F) x0 x1 x2 x4 x5 x6 x7 x8 x9 x10 x11 x12
local notation:max "L2a⟦" f "⟧" => f (F := F) x0 x1 x2 x4 x5 x6 x7 x8 x9 x10 x11 x12 x13
local notation:max "L2b⟦" f "⟧" => f (F := F) x0 x1 x2 x4 x5 x6 x7 x8 x9 x10 x11 x12 x13 x14
local notation:max "L2c⟦" f "⟧" => f (F := F) x0 x1 x2 x4 x5 x6 x7 x8 x9 x10 x11 x12 x15
local notation:max "L2d⟦" f "⟧" => f (F := F) x0 x1 x2 x4 x5 x6 x7 x8 x9 x10 x11 x12 x15 x16
local notation:max "L3⟦" f "⟧" => f (F := F) x0 x1 x2 x4 x5 x6 x7 x8 x9 x10 x11 x12 x13 x14 x15 x16
local notation:max "P⟦" f "⟧" => f (F := F) x0 x1 x2 x3 x4 x5 x6 x7 x8 x9 x10 x11 x12 x13 x14 x15 x16
local notation:max "Pa⟦" f "⟧" => f (F := F) x0 x1 x2 x3 x4 x5 x6 x7 x8 x9 x10 x11 x12 x13 x14 x15 x16 x17
local notation:max "Pb⟦" f "⟧" => f (F := F) x0 x1 x2 x3 x4 x5 x6 x7 x8 x9 x10 x11 x12 x13 x14 x15 x16 x17 x18

-- the equation of the operation at position i, by its kind
local notation:max "𝐧" i:max => fix_nullary ops_writes hW i rfl (by decide)
local notation:max "𝐮" i:max => fix_unary ops_writes hW i rfl (by decide)
local notation:max "𝐫" i:max => fix_reshape ops_writes hW i rfl (by decide)
local notation:max "𝐛" i:max => fix_binary ops_writes hW i rfl (by decide)
local notation:max "𝐭" i:max => fix_ternary ops_writes hW i rfl (by decide)
local notation:max "𝐜" i:max => fix_nary3 ops_writes hW i rfl (by decide)

include hW in
set_option maxHeartbeats 2000000 in
/-- THE STAGES, IN PROGRAM ORDER. If `W` is what the buffers hold after the 207 operations from contents `V`, and `V` holds
    `x0 … x18` at the nineteen arguments, then every operation's buffer holds its stage, and the result buffer the last. -/
theorem stage_chain
    (e0 : V main_arg0 = x0) (e1 : V main_arg1 = x1) (e2 : V main_arg2 = x2) (e3 : V main_arg3 = x3) (e4 : V main_arg4 = x4)
    (e5 : V main_arg5 = x5) (e6 : V main_arg6 = x6) (e7 : V main_arg7 = x7) (e8 : V main_arg8 = x8) (e9 : V main_arg9 = x9)
    (e10 : V main_arg10 = x10) (e11 : V main_arg11 = x11) (e12 : V main_arg12 = x12) (e13 : V main_arg13 = x13)
    (e14 : V main_arg14 = x14) (e15 : V main_arg15 = x15) (e16 : V main_arg16 = x16) (e17 : V main_arg17 = x17)
    (e18 : V main_arg18 = x18) :
    W main_v134 = Pb⟦val_main_v134⟧ := by
  -- the arguments: nothing writes them
  have a0 : W main_arg0 = x0 := (fix_arg ops_writes hW (by decide)).trans e0
  have a1 : W main_arg1 = x1 := (fix_arg ops_writes hW (by decide)).trans e1
  have a2 : W main_arg2 = x2 := (fix_arg ops_writes hW (by decide)).trans e2
  have a3 : W main_arg3 = x3 := (fix_arg ops_writes hW (by decide)).trans e3
  have a4 : W main_arg4 = x4 := (fix_arg ops_writes hW (by decide)).trans e4
  have a5 : W main_arg5 = x5 := (fix_arg ops_writes hW (by decide)).trans e5
  have a6 : W main_arg6 = x6 := (fix_arg ops_writes hW (by decide)).trans e6
  have a7 : W main_arg7 = x7 := (fix_arg ops_writes hW (by decide)).trans e7
  have a8 : W main_arg8 = x8 := (fix_arg ops_writes hW (by decide)).trans e8
  have a9 : W main_arg9 = x9 := (fix_arg ops_writes hW (by decide)).trans e9
  have a10 : W main_arg10 = x10 := (fix_arg ops_writes hW (by decide)).trans e10
  have a11 : W main_arg11 = x11 := (fix_arg ops_writes hW (by decide)).trans e11
  have a12 : W main_arg12 = x12 := (fix_arg ops_writes hW (by decide)).trans e12
  have a13 : W main_arg13 = x13 := (fix_arg ops_writes hW (by decide)).trans e13
  have a14 : W main_arg14 = x14 := (fix_arg ops_writes hW (by decide)).trans e14
  have a15 : W main_arg15 = x15 := (fix_arg ops_writes hW (by decide)).trans e15
  have a16 : W main_arg16 = x16 := (fix_arg ops_writes hW (by decide)).trans e16
  have a17 : W main_arg17 = x17 := (fix_arg ops_writes hW (by decide)).trans e17
  have a18 : W main_arg18 = x18 := (fix_arg ops_writes hW (by decide)).trans e18
  -- the two rows of the edge table, as vectors
  have h0 : W main_v0 = Q1⟦val_main_v0⟧ := (𝐮 0).trans (by rw [a1]; rfl)
  have h1 : W main_v1 = Q1⟦val_main_v1⟧ := (𝐫 1).trans (by rw [h0]; rfl)
  have h2 : W main_v2 = Q1⟦val_main_v2⟧ := (𝐮 2).trans (by rw [a1]; rfl)
  have h3 : W main_v3 = Q1⟦val_main_v3⟧ := (𝐫 3).trans (by rw [h2]; rfl)
  -- the embedding rows of the nodes' element numbers
  have hc : W main_c = Z⟦val_main_c⟧ := 𝐧 4
  have h4 : W main_v4 = Z⟦val_main_v4⟧ := (𝐮 5).trans (by rw [hc]; rfl)
  have h5 : W main_v5 = Q0⟦val_main_v5⟧ := (𝐛 6).trans (by rw [a0, h4]; rfl)
  have hc0 : W main_c_0 = Z⟦val_main_c_0⟧ := 𝐧 7
  have h6 : W main_v6 = Z⟦val_main_v6⟧ := (𝐮 8).trans (by rw [hc0]; rfl)
  have h7 : W main_v7 = Q0⟦val_main_v7⟧ := (𝐛 9).trans (by rw [a0, h6]; rfl)
  have h8 : W main_v8 = Q0⟦val_main_v8⟧ := (𝐭 10).trans (by rw [h5, h7, a0]; rfl)
  have h9 : W main_v9 = Q0⟦val_main_v9⟧ := (𝐮 11).trans (by rw [h8]; rfl)
  have h10 : W main_v10 = Qa⟦val_main_v10⟧ := (𝐛 12).trans (by rw [a4, h9]; rfl)
  -- layer 1: the rows of the two end nodes of every edge, and the edge's own features beside them
  have hc1 : W main_c_1 = Z⟦val_main_c_1⟧ := 𝐧 13
  have h11 : W main_v11 = Z⟦val_main_v11⟧ := (𝐮 14).trans (by rw [hc1]; rfl)
  have h12 : W main_v12 = Q1⟦val_main_v12⟧ := (𝐛 15).trans (by rw [h3, h11]; rfl)
  have hc2 : W main_c_2 = Z⟦val_main_c_2⟧ := 𝐧 16
  have h13 : W main_v13 = Z⟦val_main_v13⟧ := (𝐮 17).trans (by rw [hc2]; rfl)
  have h14 : W main_v14 = Q1⟦val_main_v14⟧ := (𝐛 18).trans (by rw [h3, h13]; rfl)
  have h15 : W main_v15 = Q1⟦val_main_v15⟧ := (𝐭 19).trans (by rw [h12, h14, h3]; rfl)
  have h16 : W main_v16 = Q1⟦val_main_v16⟧ := (𝐮 20).trans (by rw [h15]; rfl)
  have h17 : W main_v17 = Qb⟦val_main_v17⟧ := (𝐛 21).trans (by rw [h10, h16]; rfl)
  have hc3 : W main_c_3 = Z⟦val_main_c_3⟧ := 𝐧 22
  have h18 : W main_v18 = Z⟦val_main_v18⟧ := (𝐮 23).trans (by rw [hc3]; rfl)
  have h19 : W main_v19 = Q1⟦val_main_v19⟧ := (𝐛 24).trans (by rw [h1, h18]; rfl)
  have hc4 : W main_c_4 = Z⟦val_main_c_4⟧ := 𝐧 25
  have h20 : W main_v20 = Z⟦val_main_v20⟧ := (𝐮 26).trans (by rw [hc4]; rfl)
  have h21 : W main_v21 = Q1⟦val_main_v21⟧ := (𝐛 27).trans (by rw [h1, h20]; rfl)
  have h22 : W main_v22 = Q1⟦val_main_v22⟧ := (𝐭 28).trans (by rw [h19, h21, h1]; rfl)
  have h23 : W main_v23 = Q1⟦val_main_v23⟧ := (𝐮 29).trans (by rw [h22]; rfl)
  have h24 : W main_v24 = Qb⟦val_main_v24⟧ := (𝐛 30).trans (by rw [h10, h23]; rfl)
  have h25 : W main_v25 = Qc⟦val_main_v25⟧ := (𝐜 31).trans (by rw [h17, h24, a2]; rfl)
  -- layer 1: the gate (a logistic of the first affine map of the row of 288)
  have h26 : W main_v26 = Qd⟦val_main_v26⟧ := (𝐛 32).trans (by rw [h25, a5]; rfl)
  have h27 : W main_v27 = Q6⟦val_main_v27⟧ := (𝐮 33).trans (by rw [a6]; rfl)
  have h28 : W main_v28 = Q6⟦val_main_v28⟧ := (𝐮 34).trans (by rw [h27]; rfl)
  have h29 : W main_v29 = Qe⟦val_main_v29⟧ := (𝐛 35).trans (by rw [h26, h28]; rfl)
  have h30 : W main_v30 = Qe⟦val_main_v30⟧ := (𝐮 36).trans (by rw [h29]; rfl)
  have h31 : W main_v31 = Qe⟦val_main_v31⟧ := (𝐮 37).trans (by rw [h30]; rfl)
  have hs : W main_cst = Z⟦val_main_cst⟧ := 𝐧 38
  have h32 : W main_v32 = Z⟦val_main_v32⟧ := (𝐮 39).trans (by rw [hs]; rfl)
  have h33 : W main_v33 = Qe⟦val_main_v33⟧ := (𝐛 40).trans (by rw [h32, h31]; rfl)
  have hs5 : W main_cst_5 = Z⟦val_main_cst_5⟧ := 𝐧 41
  have h34 : W main_v34 = Z⟦val_main_v34⟧ := (𝐮 42).trans (by rw [hs5]; rfl)
  have h35 : W main_v35 = Qe⟦val_main_v35⟧ := (𝐛 43).trans (by rw [h34, h33]; rfl)
  -- layer 1: the core (a softplus of the second affine map)
  have h36 : W main_v36 = Qf⟦val_main_v36⟧ := (𝐛 44).trans (by rw [h25, a7]; rfl)
  have h37 : W main_v37 = Q8⟦val_main_v37⟧ := (𝐮 45).trans (by rw [a8]; rfl)
  have h38 : W main_v38 = Q8⟦val_main_v38⟧ := (𝐮 46).trans (by rw [h37]; rfl)
  have h39 : W main_v39 = Qg⟦val_main_v39⟧ := (𝐛 47).trans (by rw [h36, h38]; rfl)
  have k0c : W main_call0_cst = Z⟦val_main_call0_cst⟧ := 𝐧 48
  have k0v0 : W main_call0_v0 = Z⟦val_main_call0_v0⟧ := (𝐮 49).trans (by rw [k0c]; rfl)
  have k0v1 : W main_call0_v1 = Qg⟦val_main_call0_v1⟧ := (𝐛 50).trans (by rw [h39, k0v0]; rfl)
  have k0v2 : W main_call0_v2 = Z⟦val_main_call0_v2⟧ := (𝐮 51).trans (by rw [k0c]; rfl)
  have k0v3 : W main_call0_v3 = Qg⟦val_main_call0_v3⟧ := (𝐛 52).trans (by rw [h39, k0v2]; rfl)
  have k0v4 : W main_call0_v4 = Qg⟦val_main_call0_v4⟧ := (𝐛 53).trans (by rw [k0v3]; rfl)
  have k0v5 : W main_call0_v5 = Z⟦val_main_call0_v5⟧ := (𝐮 54).trans (by rw [k0c]; rfl)
  have k0v6 : W main_call0_v6 = Qg⟦val_main_call0_v6⟧ := (𝐛 55).trans (by rw [h39, k0v5]; rfl)
  have k0v7 : W main_call0_v7 = Qg⟦val_main_call0_v7⟧ := (𝐮 56).trans (by rw [k0v3]; rfl)
  have k0v8 : W main_call0_v8 = Qg⟦val_main_call0_v8⟧ := (𝐮 57).trans (by rw [k0v7]; rfl)
  have k0v9 : W main_call0_v9 = Qg⟦val_main_call0_v9⟧ := (𝐮 58).trans (by rw [k0v8]; rfl)
  have k0v10 : W main_call0_v10 = Qg⟦val_main_call0_v10⟧ := (𝐮 59).trans (by rw [k0v9]; rfl)
  have k0v11 : W main_call0_v11 = Qg⟦val_main_call0_v11⟧ := (𝐛 60).trans (by rw [k0v1, k0v10]; rfl)
  have h40 : W main_v40 = Qg⟦val_main_v40⟧ := (𝐭 61).trans (by rw [k0v4, k0v6, k0v11]; rfl)
  -- layer 1: the messages, summed into their target nodes, added to the node rows, and the positive part
  have h41 : W main_v41 = L1⟦val_main_v41⟧ := (𝐛 62).trans (by rw [h35, h40]; rfl)
  have hs6 : W main_cst_6 = Z⟦val_main_cst_6⟧ := 𝐧 63
  have h42 : W main_v42 = Z⟦val_main_v42⟧ := (𝐮 64).trans (by rw [hs6]; rfl)
  have h43 : W main_v43 = Q1⟦val_main_v43⟧ := (𝐮 65).trans (by rw [h3]; rfl)
  have h44 : W main_v44 = L1⟦val_main_v44⟧ := (𝐭 66).trans (by rw [h42, h43, h41]; rfl)
  have h45 : W main_v45 = L1⟦val_main_v45⟧ := (𝐛 67).trans (by rw [h10, h44]; rfl)
  have k1c : W main_call1_cst = Z⟦val_main_call1_cst⟧ := 𝐧 68
  have k1v0 : W main_call1_v0 = Z⟦val_main_call1_v0⟧ := (𝐮 69).trans (by rw [k1c]; rfl)
  have h46 : W main_v46 = L1⟦val_main_v46⟧ := (𝐛 70).trans (by rw [h45, k1v0]; rfl)
  -- layer 2, the same over the rows layer 1 left
  have hc7 : W main_c_7 = Z⟦val_main_c_7⟧ := 𝐧 71
  have h47 : W main_v47 = Z⟦val_main_v47⟧ := (𝐮 72).trans (by rw [hc7]; rfl)
  have h48 : W main_v48 = Q1⟦val_main_v48⟧ := (𝐛 73).trans (by rw [h3, h47]; rfl)
  have hc8 : W main_c_8 = Z⟦val_main_c_8⟧ := 𝐧 74
  have h49 : W main_v49 = Z⟦val_main_v49⟧ := (𝐮 75).trans (by rw [hc8]; rfl)
  have h50 : W main_v50 = Q1⟦val_main_v50⟧ := (𝐛 76).trans (by rw [h3, h49]; rfl)
  have h51 : W main_v51 = Q1⟦val_main_v51⟧ := (𝐭 77).trans (by rw [h48, h50, h3]; rfl)
  have h52 : W main_v52 = Q1⟦val_main_v52⟧ := (𝐮 78).trans (by rw [h51]; rfl)
  have h53 : W main_v53 = L1⟦val_main_v53⟧ := (𝐛 79).trans (by rw [h46, h52]; rfl)
  have hc9 : W main_c_9 = Z⟦val_main_c_9⟧ := 𝐧 80
  have h54 : W main_v54 = Z⟦val_main_v54⟧ := (𝐮 81).trans (by rw [hc9]; rfl)
  have h55 : W main_v55 = Q1⟦val_main_v55⟧ := (𝐛 82).trans (by rw [h1, h54]; rfl)
  have hc10 : W main_c_10 = Z⟦val_main_c_10⟧ := 𝐧 83
  have h56 : W main_v56 = Z⟦val_main_v56⟧ := (𝐮 84).trans (by rw [hc10]; rfl)
  have h57 : W main_v57 = Q1⟦val_main_v57⟧ := (𝐛 85).trans (by rw [h1, h56]; rfl)
  have h58 : W main_v58 = Q1⟦val_main_v58⟧ := (𝐭 86).trans (by rw [h55, h57, h1]; rfl)
  have h59 : W main_v59 = Q1⟦val_main_v59⟧ := (𝐮 87).trans (by rw [h58]; rfl)
  have h60 : W main_v60 = L1⟦val_main_v60⟧ := (𝐛 88).trans (by rw [h46, h59]; rfl)
  have h61 : W main_v61 = L1⟦val_main_v61⟧ := (𝐜 89).trans (by rw [h53, h60, a2]; rfl)
  have h62 : W main_v62 = L1a⟦val_main_v62⟧ := (𝐛 90).trans (by rw [h61, a9]; rfl)
  have h63 : W main_v63 = Q10⟦val_main_v63⟧ := (𝐮 91).trans (by rw [a10]; rfl)
  have h64 : W main_v64 = Q10⟦val_main_v64⟧ := (𝐮 92).trans (by rw [h63]; rfl)
  have h65 : W main_v65 = L1b⟦val_main_v65⟧ := (𝐛 93).trans (by rw [h62, h64]; rfl)
  have h66 : W main_v66 = L1b⟦val_main_v66⟧ := (𝐮 94).trans (by rw [h65]; rfl)
  have h67 : W main_v67 = L1b⟦val_main_v67⟧ := (𝐮 95).trans (by rw [h66]; rfl)
  have hs11 : W main_cst_11 = Z⟦val_main_cst_11⟧ := 𝐧 96
  have h68 : W main_v68 = Z⟦val_main_v68⟧ := (𝐮 97).trans (by rw [hs11]; rfl)
  have h69 : W main_v69 = L1b⟦val_main_v69⟧ := (𝐛 98).trans (by rw [h68, h67]; rfl)
  have hs12 : W main_cst_12 = Z⟦val_main_cst_12⟧ := 𝐧 99
  have h70 : W main_v70 = Z⟦val_main_v70⟧ := (𝐮 100).trans (by rw [hs12]; rfl)
  have h71 : W main_v71 = L1b⟦val_main_v71⟧ := (𝐛 101).trans (by rw [h70, h69]; rfl)
  have h72 : W main_v72 = L1c⟦val_main_v72⟧ := (𝐛 102).trans (by rw [h61, a11]; rfl)
  have h73 : W main_v73 = Q12⟦val_main_v73⟧ := (𝐮 103).trans (by rw [a12]; rfl)
  have h74 : W main_v74 = Q12⟦val_main_v74⟧ := (𝐮 104).trans (by rw [h73]; rfl)
  have h75 : W main_v75 = L1d⟦val_main_v75⟧ := (𝐛 105).trans (by rw [h72, h74]; rfl)
  have k2c : W main_call2_cst = Z⟦val_main_call2_cst⟧ := 𝐧 106
  have k2v0 : W main_call2_v0 = Z⟦val_main_call2_v0⟧ := (𝐮 107).trans (by rw [k2c]; rfl)
  have k2v1 : W main_call2_v1 = L1d⟦val_main_call2_v1⟧ := (𝐛 108).trans (by rw [h75, k2v0]; rfl)
  have k2v2 : W main_call2_v2 = Z⟦val_main_call2_v2⟧ := (𝐮 109).trans (by rw [k2c]; rfl)
  have k2v3 : W main_call2_v3 = L1d⟦val_main_call2_v3⟧ := (𝐛 110).trans (by rw [h75, k2v2]; rfl)
  have k2v4 : W main_call2_v4 = L1d⟦val_main_call2_v4⟧ := (𝐛 111).trans (by rw [k2v3]; rfl)
  have k2v5 : W main_call2_v5 = Z⟦val_main_call2_v5⟧ := (𝐮 112).trans (by rw [k2c]; rfl)
  have k2v6 : W main_call2_v6 = L1d⟦val_main_call2_v6⟧ := (𝐛 113).trans (by rw [h75, k2v5]; rfl)
  have k2v7 : W main_call2_v7 = L1d⟦val_main_call2_v7⟧ := (𝐮 114).trans (by rw [k2v3]; rfl)
  have k2v8 : W main_call2_v8 = L1d⟦val_main_call2_v8⟧ := (𝐮 115).trans (by rw [k2v7]; rfl)
  have k2v9 : W main_call2_v9 = L1d⟦val_main_call2_v9⟧ := (𝐮 116).trans (by rw [k2v8]; rfl)
  have k2v10 : W main_call2_v10 = L1d⟦val_main_call2_v10⟧ := (𝐮 117).trans (by rw [k2v9]; rfl)
  have k2v11 : W main_call2_v11 = L1d⟦val_main_call2_v11⟧ := (𝐛 118).trans (by rw [k2v1, k2v10]; rfl)
  have h76 : W main_v76 = L1d⟦val_main_v76⟧ := (𝐭 119).trans (by rw [k2v4, k2v6, k2v11]; rfl)
  have h77 : W main_v77 = L2⟦val_main_v77⟧ := (𝐛 120).trans (by rw [h71, h76]; rfl)
  have hs13 : W main_cst_13 = Z⟦val_main_cst_13⟧ := 𝐧 121
  have h78 : W main_v78 = Z⟦val_main_v78⟧ := (𝐮 122).trans (by rw [hs13]; rfl)
  have h79 : W main_v79 = Q1⟦val_main_v79⟧ := (𝐮 123).trans (by rw [h3]; rfl)
  have h80 : W main_v80 = L2⟦val_main_v80⟧ := (𝐭 124).trans (by rw [h78, h79, h77]; rfl)
  have h81 : W main_v81 = L2⟦val_main_v81⟧ := (𝐛 125).trans (by rw [h46, h80]; rfl)
  have k3c : W main_call3_cst = Z⟦val_main_call3_cst⟧ := 𝐧 126
  have k3v0 : W main_call3_v0 = Z⟦val_main_call3_v0⟧ := (𝐮 127).trans (by rw [k3c]; rfl)
  have h82 : W main_v82 = L2⟦val_main_v82⟧ := (𝐛 128).trans (by rw [h81, k3v0]; rfl)
  -- layer 3, the same over the rows layer 2 left
  have hc14 : W main_c_14 = Z⟦val_main_c_14⟧ := 𝐧 129
  have h83 : W main_v83 = Z⟦val_main_v83⟧ := (𝐮 130).trans (by rw [hc14]; rfl)
  have h84 : W main_v84 = Q1⟦val_main_v84⟧ := (𝐛 131).trans (by rw [h3, h83]; rfl)
  have hc15 : W main_c_15 = Z⟦val_main_c_15⟧ := 𝐧 132
  have h85 : W main_v85 = Z⟦val_main_v85⟧ := (𝐮 133).trans (by rw [hc15]; rfl)
  have h86 : W main_v86 = Q1⟦val_main_v86⟧ := (𝐛 134).trans (by rw [h3, h85]; rfl)
  have h87 : W main_v87 = Q1⟦val_main_v87⟧ := (𝐭 135).trans (by rw [h84, h86, h3]; rfl)
  have h88 : W main_v88 = Q1⟦val_main_v88⟧ := (𝐮 136).trans (by rw [h87]; rfl)
  have h89 : W main_v89 = L2⟦val_main_v89⟧ := (𝐛 137).trans (by rw [h82, h88]; rfl)
  have hc16 : W main_c_16 = Z⟦val_main_c_16⟧ := 𝐧 138
  have h90 : W main_v90 = Z⟦val_main_v90⟧ := (𝐮 139).trans (by rw [hc16]; rfl)
  have h91 : W main_v91 = Q1⟦val_main_v91⟧ := (𝐛 140).trans (by rw [h1, h90]; rfl)
  have hc17 : W main_c_17 = Z⟦val_main_c_17⟧ := 𝐧 141
  have h92 : W main_v92 = Z⟦val_main_v92⟧ := (𝐮 142).trans (by rw [hc17]; rfl)
  have h93 : W main_v93 = Q1⟦val_main_v93⟧ := (𝐛 143).trans (by rw [h1, h92]; rfl)
  have h94 : W main_v94 = Q1⟦val_main_v94⟧ := (𝐭 144).trans (by rw [h91, h93, h1]; rfl)
  have h95 : W main_v95 = Q1⟦val_main_v95⟧ := (𝐮 145).trans (by rw [h94]; rfl)
  have h96 : W main_v96 = L2⟦val_main_v96⟧ := (𝐛 146).trans (by rw [h82, h95]; rfl)
  have h97 : W main_v97 = L2⟦val_main_v97⟧ := (𝐜 147).trans (by rw [h89, h96, a2]; rfl)
  have h98 : W main_v98 = L2a⟦val_main_v98⟧ := (𝐛 148).trans (by rw [h97, a13]; rfl)
  have h99 : W main_v99 = Q14⟦val_main_v99⟧ := (𝐮 149).trans (by rw [a14]; rfl)
  have h100 : W main_v100 = Q14⟦val_main_v100⟧ := (𝐮 150).trans (by rw [h99]; rfl)
  have h101 : W main_v101 = L2b⟦val_main_v101⟧ := (𝐛 151).trans (by rw [h98, h100]; rfl)
  have h102 : W main_v102 = L2b⟦val_main_v102⟧ := (𝐮 152).trans (by rw [h101]; rfl)
  have h103 : W main_v103 = L2b⟦val_main_v103⟧ := (𝐮 153).trans (by rw [h102]; rfl)
  have hs18 : W main_cst_18 = Z⟦val_main_cst_18⟧ := 𝐧 154
  have h104 : W main_v104 = Z⟦val_main_v104⟧ := (𝐮 155).trans (by rw [hs18]; rfl)
  have h105 : W main_v105 = L2b⟦val_main_v105⟧ := (𝐛 156).trans (by rw [h104, h103]; rfl)
  have hs19 : W main_cst_19 = Z⟦val_main_cst_19⟧ := 𝐧 157
  have h106 : W main_v106 = Z⟦val_main_v106⟧ := (𝐮 158).trans (by rw [hs19]; rfl)
  have h107 : W main_v107 = L2b⟦val_main_v107⟧ := (𝐛 159).trans (by rw [h106, h105]; rfl)
  have h108 : W main_v108 = L2c⟦val_main_v108⟧ := (𝐛 160).trans (by rw [h97, a15]; rfl)
  have h109 : W main_v109 = Q16⟦val_main_v109⟧ := (𝐮 161).trans (by rw [a16]; rfl)
  have h110 : W main_v110 = Q16⟦val_main_v110⟧ := (𝐮 162).trans (by rw [h109]; rfl)
  have h111 : W main_v111 = L2d⟦val_main_v111⟧ := (𝐛 163).trans (by rw [h108, h110]; rfl)
  have k4c : W main_call4_cst = Z⟦val_main_call4_cst⟧ := 𝐧 164
  have k4v0 : W main_call4_v0 = Z⟦val_main_call4_v0⟧ := (𝐮 165).trans (by rw [k4c]; rfl)
  have k4v1 : W main_call4_v1 = L2d⟦val_main_call4_v1⟧ := (𝐛 166).trans (by rw [h111, k4v0]; rfl)
  have k4v2 : W main_call4_v2 = Z⟦val_main_call4_v2⟧ := (𝐮 167).trans (by rw [k4c]; rfl)
  have k4v3 : W main_call4_v3 = L2d⟦val_main_call4_v3⟧ := (𝐛 168).trans (by rw [h111, k4v2]; rfl)
  have k4v4 : W main_call4_v4 = L2d⟦val_main_call4_v4⟧ := (𝐛 169).trans (by rw [k4v3]; rfl)
  have k4v5 : W main_call4_v5 = Z⟦val_main_call4_v5⟧ := (𝐮 170).trans (by rw [k4c]; rfl)
  have k4v6 : W main_call4_v6 = L2d⟦val_main_call4_v6⟧ := (𝐛 171).trans (by rw [h111, k4v5]; rfl)
  have k4v7 : W main_call4_v7 = L2d⟦val_main_call4_v7⟧ := (𝐮 172).trans (by rw [k4v3]; rfl)
  have k4v8 : W main_call4_v8 = L2d⟦val_main_call4_v8⟧ := (𝐮 173).trans (by rw [k4v7]; rfl)
  have k4v9 : W main_call4_v9 = L2d⟦val_main_call4_v9⟧ := (𝐮 174).trans (by rw [k4v8]; rfl)
  have k4v10 : W main_call4_v10 = L2d⟦val_main_call4_v10⟧ := (𝐮 175).trans (by rw [k4v9]; rfl)
  have k4v11 : W main_call4_v11 = L2d⟦val_main_call4_v11⟧ := (𝐛 176).trans (by rw [k4v1, k4v10]; rfl)
  have h112 : W main_v112 = L2d⟦val_main_v112⟧ := (𝐭 177).trans (by rw [k4v4, k4v6, k4v11]; rfl)
  have h113 : W main_v113 = L3⟦val_main_v113⟧ := (𝐛 178).trans (by rw [h107, h112]; rfl)
  have hs20 : W main_cst_20 = Z⟦val_main_cst_20⟧ := 𝐧 179
  have h114 : W main_v114 = Z⟦val_main_v114⟧ := (𝐮 180).trans (by rw [hs20]; rfl)
  have h115 : W main_v115 = Q1⟦val_main_v115⟧ := (𝐮 181).trans (by rw [h3]; rfl)
  have h116 : W main_v116 = L3⟦val_main_v116⟧ := (𝐭 182).trans (by rw [h114, h115, h113]; rfl)
  have h117 : W main_v117 = L3⟦val_main_v117⟧ := (𝐛 183).trans (by rw [h82, h116]; rfl)
  have k5c : W main_call5_cst = Z⟦val_main_call5_cst⟧ := 𝐧 184
  have k5v0 : W main_call5_v0 = Z⟦val_main_call5_v0⟧ := (𝐮 185).trans (by rw [k5c]; rfl)
  have h118 : W main_v118 = L3⟦val_main_v118⟧ := (𝐛 186).trans (by rw [h117, k5v0]; rfl)
  -- the mean of the node rows over each crystal, and the last affine map
  have hs21 : W main_cst_21 = Z⟦val_main_cst_21⟧ := 𝐧 187
  have h119 : W main_v119 = Z⟦val_main_v119⟧ := (𝐮 188).trans (by rw [hs21]; rfl)
  have h120 : W main_v120 = Q3⟦val_main_v120⟧ := (𝐮 189).trans (by rw [a3]; rfl)
  have h121 : W main_v121 = P⟦val_main_v121⟧ := (𝐭 190).trans (by rw [h119, h120, h118]; rfl)
  have hs22 : W main_cst_22 = Z⟦val_main_cst_22⟧ := 𝐧 191
  have h122 : W main_v122 = Z⟦val_main_v122⟧ := (𝐮 192).trans (by rw [hs22]; rfl)
  have hs23 : W main_cst_23 = Z⟦val_main_cst_23⟧ := 𝐧 193
  have h123 : W main_v123 = Z⟦val_main_v123⟧ := (𝐮 194).trans (by rw [hs23]; rfl)
  have h124 : W main_v124 = Q3⟦val_main_v124⟧ := (𝐮 195).trans (by rw [a3]; rfl)
  have h125 : W main_v125 = Q3⟦val_main_v125⟧ := (𝐭 196).trans (by rw [h123, h124, h122]; rfl)
  have hs24 : W main_cst_24 = Z⟦val_main_cst_24⟧ := 𝐧 197
  have h126 : W main_v126 = Z⟦val_main_v126⟧ := (𝐮 198).trans (by rw [hs24]; rfl)
  have h127 : W main_v127 = Q3⟦val_main_v127⟧ := (𝐛 199).trans (by rw [h125, h126]; rfl)
  have h128 : W main_v128 = Q3⟦val_main_v128⟧ := (𝐮 200).trans (by rw [h127]; rfl)
  have h129 : W main_v129 = Q3⟦val_main_v129⟧ := (𝐮 201).trans (by rw [h128]; rfl)
  have h130 : W main_v130 = P⟦val_main_v130⟧ := (𝐛 202).trans (by rw [h121, h129]; rfl)
  have h131 : W main_v131 = Pa⟦val_main_v131⟧ := (𝐛 203).trans (by rw [h130, a17]; rfl)
  have h132 : W main_v132 = Q18⟦val_main_v132⟧ := (𝐮 204).trans (by rw [a18]; rfl)
  have h133 : W main_v133 = Q18⟦val_main_v133⟧ := (𝐮 205).trans (by rw [h132]; rfl)
  have h134 : W main_v134 = Pb⟦val_main_v134⟧ := (𝐛 206).trans (by rw [h131, h133]; rfl)
  exact h134

/-- THE RESULT IS THE LAST STAGE: what the result buffer holds after the 207 operations is `val_main_v134` of the
    nineteen arguments' launch contents. -/
theorem res_eq_stage (m : (ℓ : Loc nD τ sig) → Buf (Elt F) ℓ) (c : Dev nD) :
    RunFold.res_main_v134 (F := F) m c = Stages.val_main_v134 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  stage_chain (V := launchContents m c) (W := after (ops (F := F)) (launchContents m c)) rfl _ _ _ _ _ _ _ _ _ _ _ _ _ _ _ _ _ _ _
    rfl rfl rfl rfl rfl rfl rfl rfl rfl rfl rfl rfl rfl rfl rfl rfl rfl rfl rfl

end Chain

end Cert.ReferenceIdeal.Fold

end
-- ==== Proof.IndexRanges.lean ====
/-
  The two index arrays the precondition constrains are in range.

  The precondition is one bit: sixteen finiteness tests of the real-valued arrays, and with them two range tests of the
  integer arrays, "every x[i] is at least 0 and below 100" and "every entry of the 2 × 320000 edge table is at least 0 and
  below 32000". Each range test is a conjunction over all indices of two signed comparisons of the entry against a
  constant laid over the whole array. When the bit is 1 each of its conjuncts is 1; a conjunction over all indices
  that is 1 is 1 at every index; and a signed comparison that is 1 says the signed order of its two words. The
  finiteness tests are split off as one conjunct and never read.
-/
import proofs.«419282_j17575006175633_1_alg».proof.Pre_finite_inputs
import Idealize.ShloMosaic.Lib.StableHlo.Predicate
import Idealize.ShloMosaic.Lib.ReduceAll
import Idealize.ShloMosaic.PureOps.Ideal
import Idealize.ShloMosaic.Lib.ValueIdx

noncomputable section

namespace Cert.Ranges

open Idealize.ShloMosaic Idealize.ShloMosaic.ValueIdx
open Cert.Pre_finite_inputs

/-- A conjunction of two bit arrays, read at one index, is 1 exactly when both bits there are 1. -/
theorem andi_apply_eq_one {s : Shape} (x y : IVec s 1) (i : s.Idx) :
    andi x y i = 1#1 ↔ x i = 1#1 ∧ y i = 1#1 := IntOp.andi_eq_one

/-- ONE RANGE TEST READ BACK. "Every entry of x is at least lo and below hi", as the conjunction over all indices of the
    two signed comparisons against the constants laid over the array: when the scalar it reduces to is 1, every
    entry lies in [lo, hi) as a signed number. -/
theorem range_of_all {s : Shape} {axes : List (Fin s.rank)} (x : IVec s 32) (lo hi : BitVec 32)
    (hb : S_.BroadcastsInDim s (![] : Fin 0 → Fin s.rank)) (hr : s.ReducesTo axes S_) (h0 : 0 < S_.numel)
    (e : Host.reduce IntOp.andi
          (andi (cmpi .sge x (broadcastInDim s ![] hb (constantI S_ 32 lo)))
            (cmpi .slt x (broadcastInDim s ![] hb (constantI S_ 32 hi))))
          (constantI S_ 1 1#1) hr h0 ix0 = 1#1)
    (i : s.Idx) : lo.toInt ≤ (x i).toInt ∧ (x i).toInt < hi.toInt := by
  -- the scalar result has one index, so the reduction runs over every index of x
  haveI : Subsingleton S_.Idx := ⟨fun a b => funext fun d => d.elim0⟩
  have ei := Host.reduce_andi_all _ _ hr h0 ix0 e i
  obtain ⟨e1, e2⟩ := (andi_apply_eq_one _ _ i).1 ei
  -- at index i each comparison is the comparison of the word x i with the constant itself
  have c1 : IntOp.cmpi .sge (x i) lo = 1#1 := e1
  have c2 : IntOp.cmpi .slt (x i) hi = 1#1 := e2
  exact ⟨IntOp.cmpi_sge.1 c1, IntOp.cmpi_slt.1 c2⟩

variable [Facts]

/-- THE PRECONDITION SPLIT. When the precondition's bit is 1, so is each of its two range tests (the third conjunct, the
    sixteen finiteness tests together, is dropped unread). -/
theorem range_tests
    (a0 : IVec S32000 32) (a1 : IVec S2x320000 32) (a2 : FVec Ideal S320000x32 .f32) (a3 : IVec S32000 32)
    (a4 : FVec Ideal S100x128 .f32) (a5 : FVec Ideal S288x128 .f32) (a6 : FVec Ideal S128 .f32)
    (a7 : FVec Ideal S288x128 .f32) (a8 : FVec Ideal S128 .f32) (a9 : FVec Ideal S288x128 .f32)
    (a10 : FVec Ideal S128 .f32) (a11 : FVec Ideal S288x128 .f32) (a12 : FVec Ideal S128 .f32)
    (a13 : FVec Ideal S288x128 .f32) (a14 : FVec Ideal S128 .f32) (a15 : FVec Ideal S288x128 .f32)
    (a16 : FVec Ideal S128 .f32) (a17 : FVec Ideal S128x128 .f32) (a18 : FVec Ideal S128 .f32)
    (h : fn (F := Ideal) a0 a1 a2 a3 a4 a5 a6 a7 a8 a9 a10 a11 a12 a13 a14 a15 a16 a17 a18 = fun _ => 1#1) :
    Host.reduce IntOp.andi
        (andi (cmpi .sge a0 (broadcastInDim S32000 ![] Facts.bcast_S_S32000 (constantI S_ 32 0#32)))
          (cmpi .slt a0 (broadcastInDim S32000 ![] Facts.bcast_S_S32000 (constantI S_ 32 100#32))))
        (constantI S_ 1 1#1) Facts.reducesTo_S32000_S_d0 Facts.h_S_ ix0 = 1#1
    ∧ Host.reduce IntOp.andi
        (andi (cmpi .sge a1 (broadcastInDim S2x320000 ![] Facts.bcast_S_S2x320000 (constantI S_ 32 0#32)))
          (cmpi .slt a1 (broadcastInDim S2x320000 ![] Facts.bcast_S_S2x320000 (constantI S_ 32 32000#32))))
        (constantI S_ 1 1#1) Facts.reducesTo_S2x320000_S_d0_1 Facts.h_S_ ix0 = 1#1 := by
  have e := congrFun h ix0
  dsimp only [fn, fn_part1, fn_part2, fn_part3, fn_part4, fn_part5] at e
  obtain ⟨e85, e91⟩ := (andi_apply_eq_one _ _ ix0).1 e
  obtain ⟨-, e84⟩ := (andi_apply_eq_one _ _ ix0).1 e85
  exact ⟨e84, e91⟩

/-- Every x[i] is an element number: at least 0 and below 100. -/
theorem x_range
    (a0 : IVec S32000 32) (a1 : IVec S2x320000 32) (a2 : FVec Ideal S320000x32 .f32) (a3 : IVec S32000 32)
    (a4 : FVec Ideal S100x128 .f32) (a5 : FVec Ideal S288x128 .f32) (a6 : FVec Ideal S128 .f32)
    (a7 : FVec Ideal S288x128 .f32) (a8 : FVec Ideal S128 .f32) (a9 : FVec Ideal S288x128 .f32)
    (a10 : FVec Ideal S128 .f32) (a11 : FVec Ideal S288x128 .f32) (a12 : FVec Ideal S128 .f32)
    (a13 : FVec Ideal S288x128 .f32) (a14 : FVec Ideal S128 .f32) (a15 : FVec Ideal S288x128 .f32)
    (a16 : FVec Ideal S128 .f32) (a17 : FVec Ideal S128x128 .f32) (a18 : FVec Ideal S128 .f32)
    (h : fn (F := Ideal) a0 a1 a2 a3 a4 a5 a6 a7 a8 a9 a10 a11 a12 a13 a14 a15 a16 a17 a18 = fun _ => 1#1)
    (i : S32000.Idx) : 0 ≤ (a0 i).toInt ∧ (a0 i).toInt < 100 := by
  have r := range_of_all a0 0#32 100#32 Facts.bcast_S_S32000 Facts.reducesTo_S32000_S_d0 Facts.h_S_
    (range_tests a0 a1 a2 a3 a4 a5 a6 a7 a8 a9 a10 a11 a12 a13 a14 a15 a16 a17 a18 h).1 i
  rw [show (0#32 : BitVec 32).toInt = 0 from StableHlo.Predicate.toInt_ofNat_small 0 (by decide),
    show (100#32 : BitVec 32).toInt = 100 from StableHlo.Predicate.toInt_ofNat_small 100 (by decide)] at r
  exact r

/-- Every entry of the edge table is a node number: at least 0 and below 32000. -/
theorem edge_range
    (a0 : IVec S32000 32) (a1 : IVec S2x320000 32) (a2 : FVec Ideal S320000x32 .f32) (a3 : IVec S32000 32)
    (a4 : FVec Ideal S100x128 .f32) (a5 : FVec Ideal S288x128 .f32) (a6 : FVec Ideal S128 .f32)
    (a7 : FVec Ideal S288x128 .f32) (a8 : FVec Ideal S128 .f32) (a9 : FVec Ideal S288x128 .f32)
    (a10 : FVec Ideal S128 .f32) (a11 : FVec Ideal S288x128 .f32) (a12 : FVec Ideal S128 .f32)
    (a13 : FVec Ideal S288x128 .f32) (a14 : FVec Ideal S128 .f32) (a15 : FVec Ideal S288x128 .f32)
    (a16 : FVec Ideal S128 .f32) (a17 : FVec Ideal S128x128 .f32) (a18 : FVec Ideal S128 .f32)
    (h : fn (F := Ideal) a0 a1 a2 a3 a4 a5 a6 a7 a8 a9 a10 a11 a12 a13 a14 a15 a16 a17 a18 = fun _ => 1#1)
    (j : S2x320000.Idx) : 0 ≤ (a1 j).toInt ∧ (a1 j).toInt < 32000 := by
  have r := range_of_all a1 0#32 32000#32 Facts.bcast_S_S2x320000 Facts.reducesTo_S2x320000_S_d0_1 Facts.h_S_
    (range_tests a0 a1 a2 a3 a4 a5 a6 a7 a8 a9 a10 a11 a12 a13 a14 a15 a16 a17 a18 h).2 j
  rw [show (0#32 : BitVec 32).toInt = 0 from StableHlo.Predicate.toInt_ofNat_small 0 (by decide),
    show (32000#32 : BitVec 32).toInt = 32000 from StableHlo.Predicate.toInt_ofNat_small 32000 (by decide)] at r
  exact r

end Cert.Ranges

end
-- ==== Proof.FoldCarries.lean ====
import proofs.«419282_j17575006175633_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]

/-! ## What each stretch of host operations writes -/

/-- The buffers the operations of this stretch write, in order. -/
abbrev wr_hostOps0 : List (Ref sig .tc) := [main_v0, main_v1, main_v2, main_v3]
set_option maxHeartbeats 1000000 in
/-- Every operation of the stretch writes one buffer of that list. -/
theorem writes_hostOps0 : (hostOps0 (F := F)).Forall fun op => op.writes ⊆ ((wr_hostOps0).map (Proc.devRef (τ := τ) .tc)).toFinset := by
  simp only [hostOps0, wr_hostOps0, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
set_option maxHeartbeats 1000000 in
/-- Every operation of the stretch writes one buffer of that list. -/
theorem writes_hostOps0_1 : (hostOps0_1 (F := F)).Forall fun op => op.writes ⊆ ((wr_hostOps0_1).map (Proc.devRef (τ := τ) .tc)).toFinset := by
  simp only [hostOps0_1, wr_hostOps0_1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps0_2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
set_option maxHeartbeats 1000000 in
/-- Every operation of the stretch writes one buffer of that list. -/
theorem writes_hostOps0_2 : (hostOps0_2 (F := F)).Forall fun op => op.writes ⊆ ((wr_hostOps0_2).map (Proc.devRef (τ := τ) .tc)).toFinset := by
  simp only [hostOps0_2, wr_hostOps0_2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps0_3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
set_option maxHeartbeats 1000000 in
/-- Every operation of the stretch writes one buffer of that list. -/
theorem writes_hostOps0_3 : (hostOps0_3 (F := F)).Forall fun op => op.writes ⊆ ((wr_hostOps0_3).map (Proc.devRef (τ := τ) .tc)).toFinset := by
  simp only [hostOps0_3, wr_hostOps0_3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps0_4 : List (Ref sig .tc) := [main_v7, main_v8]
set_option maxHeartbeats 1000000 in
/-- Every operation of the stretch writes one buffer of that list. -/
theorem writes_hostOps0_4 : (hostOps0_4 (F := F)).Forall fun op => op.writes ⊆ ((wr_hostOps0_4).map (Proc.devRef (τ := τ) .tc)).toFinset := by
  simp only [hostOps0_4, wr_hostOps0_4, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps1 : List (Ref sig .tc) := [main_cst, main_v10, main_v11, main_v12, main_v13]
set_option maxHeartbeats 1000000 in
/-- Every operation of the stretch writes one buffer of that list. -/
theorem writes_hostOps1 : (hostOps1 (F := F)).Forall fun op => op.writes ⊆ ((wr_hostOps1).map (Proc.devRef (τ := τ) .tc)).toFinset := by
  simp only [hostOps1, wr_hostOps1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps1_1 : List (Ref sig .tc) := [main_call3_cst, main_call3_v0, main_v14]
set_option maxHeartbeats 1000000 in
/-- Every operation of the stretch writes one buffer of that list. -/
theorem writes_hostOps1_1 : (hostOps1_1 (F := F)).Forall fun op => op.writes ⊆ ((wr_hostOps1_1).map (Proc.devRef (τ := τ) .tc)).toFinset := by
  simp only [hostOps1_1, wr_hostOps1_1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps1_2 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v15]
set_option maxHeartbeats 1000000 in
/-- Every operation of the stretch writes one buffer of that list. -/
theorem writes_hostOps1_2 : (hostOps1_2 (F := F)).Forall fun op => op.writes ⊆ ((wr_hostOps1_2).map (Proc.devRef (τ := τ) .tc)).toFinset := by
  simp only [hostOps1_2, wr_hostOps1_2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps1_3 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v16]
set_option maxHeartbeats 1000000 in
/-- Every operation of the stretch writes one buffer of that list. -/
theorem writes_hostOps1_3 : (hostOps1_3 (F := F)).Forall fun op => op.writes ⊆ ((wr_hostOps1_3).map (Proc.devRef (τ := τ) .tc)).toFinset := by
  simp only [hostOps1_3, wr_hostOps1_3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps1_4 : List (Ref sig .tc) := [main_v17, main_v18]
set_option maxHeartbeats 1000000 in
/-- Every operation of the stretch writes one buffer of that list. -/
theorem writes_hostOps1_4 : (hostOps1_4 (F := F)).Forall fun op => op.writes ⊆ ((wr_hostOps1_4).map (Proc.devRef (τ := τ) .tc)).toFinset := by
  simp only [hostOps1_4, wr_hostOps1_4, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps2 : List (Ref sig .tc) := [main_cst_0, main_v20, main_v21, main_v22, main_v23]
set_option maxHeartbeats 1000000 in
/-- Every operation of the stretch writes one buffer of that list. -/
theorem writes_hostOps2 : (hostOps2 (F := F)).Forall fun op => op.writes ⊆ ((wr_hostOps2).map (Proc.devRef (τ := τ) .tc)).toFinset := by
  simp only [hostOps2, wr_hostOps2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps2_1 : List (Ref sig .tc) := [main_call6_cst, main_call6_v0, main_v24]
set_option maxHeartbeats 1000000 in
/-- Every operation of the stretch writes one buffer of that list. -/
theorem writes_hostOps2_1 : (hostOps2_1 (F := F)).Forall fun op => op.writes ⊆ ((wr_hostOps2_1).map (Proc.devRef (τ := τ) .tc)).toFinset := by
  simp only [hostOps2_1, wr_hostOps2_1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps2_2 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v25]
set_option maxHeartbeats 1000000 in
/-- Every operation of the stretch writes one buffer of that list. -/
theorem writes_hostOps2_2 : (hostOps2_2 (F := F)).Forall fun op => op.writes ⊆ ((wr_hostOps2_2).map (Proc.devRef (τ := τ) .tc)).toFinset := by
  simp only [hostOps2_2, wr_hostOps2_2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps2_3 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v26]
set_option maxHeartbeats 1000000 in
/-- Every operation of the stretch writes one buffer of that list. -/
theorem writes_hostOps2_3 : (hostOps2_3 (F := F)).Forall fun op => op.writes ⊆ ((wr_hostOps2_3).map (Proc.devRef (τ := τ) .tc)).toFinset := by
  simp only [hostOps2_3, wr_hostOps2_3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps2_4 : List (Ref sig .tc) := [main_v27, main_v28]
set_option maxHeartbeats 1000000 in
/-- Every operation of the stretch writes one buffer of that list. -/
theorem writes_hostOps2_4 : (hostOps2_4 (F := F)).Forall fun op => op.writes ⊆ ((wr_hostOps2_4).map (Proc.devRef (τ := τ) .tc)).toFinset := by
  simp only [hostOps2_4, wr_hostOps2_4, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps3 : List (Ref sig .tc) := [main_cst_1, main_v30, main_v31, main_v32, main_v33]
set_option maxHeartbeats 1000000 in
/-- Every operation of the stretch writes one buffer of that list. -/
theorem writes_hostOps3 : (hostOps3 (F := F)).Forall fun op => op.writes ⊆ ((wr_hostOps3).map (Proc.devRef (τ := τ) .tc)).toFinset := by
  simp only [hostOps3, wr_hostOps3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps3_1 : List (Ref sig .tc) := [main_call9_cst, main_call9_v0, main_v34]
set_option maxHeartbeats 1000000 in
/-- Every operation of the stretch writes one buffer of that list. -/
theorem writes_hostOps3_1 : (hostOps3_1 (F := F)).Forall fun op => op.writes ⊆ ((wr_hostOps3_1).map (Proc.devRef (τ := τ) .tc)).toFinset := by
  simp only [hostOps3_1, wr_hostOps3_1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the operations of this stretch write, in order. -/
abbrev wr_hostOps3_2 : List (Ref sig .tc) := [main_cst_2, main_v35, main_v36, main_v37, main_cst_3, main_v38, main_cst_4, main_v39, main_v40, main_v41, main_cst_5, main_v42, main_v43, main_v44, main_v45, main_v46, main_v47, main_v48, main_v49, main_v50]
set_option maxHeartbeats 1000000 in
/-- Every operation of the stretch writes one buffer of that list. -/
theorem writes_hostOps3_2 : (hostOps3_2 (F := F)).Forall fun op => op.writes ⊆ ((wr_hostOps3_2).map (Proc.devRef (τ := τ) .tc)).toFinset := by
  simp only [hostOps3_2, wr_hostOps3_2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-! ## The contents at each boundary, one segment at a time -/

variable (m : (ℓ : Loc nD τ sig) → Buf (Elt F) ℓ) (ρ : Dev nD → PrngReg)

/-- The contents after this stretch are its operations' results over the contents before it. -/
theorem W1_def (c : Dev nD) : W1 m ρ c = StableHlo.after (hostOps0 (F := F)) (W0 m ρ c) := rfl
/-- A buffer the stretch does not write is as before it. -/
theorem W1_carry (c : Dev nD) (r : Ref sig .tc) (hr : r ∉ wr_hostOps0) :
    W1 m ρ c (Proc.devRef .tc r) = W0 m ρ c (Proc.devRef .tc r) :=
  StableHlo.after_of_writes_sub _ (W0 m ρ c) writes_hostOps0 hr

/-- The contents after this stretch are its operations' results over the contents before it. -/
theorem W2_def (c : Dev nD) : W2 m ρ c = StableHlo.after (hostOps0_1 (F := F)) (W1 m ρ c) := rfl
/-- A buffer the stretch does not write is as before it. -/
theorem W2_carry (c : Dev nD) (r : Ref sig .tc) (hr : r ∉ wr_hostOps0_1) :
    W2 m ρ c (Proc.devRef .tc r) = W1 m ρ c (Proc.devRef .tc r) :=
  StableHlo.after_of_writes_sub _ (W1 m ρ c) writes_hostOps0_1 hr

/-- The contents after this stretch are its operations' results over the contents before it. -/
theorem W3_def (c : Dev nD) : W3 m ρ c = StableHlo.after (hostOps0_2 (F := F)) (W2 m ρ c) := rfl
/-- A buffer the stretch does not write is as before it. -/
theorem W3_carry (c : Dev nD) (r : Ref sig .tc) (hr : r ∉ wr_hostOps0_2) :
    W3 m ρ c (Proc.devRef .tc r) = W2 m ρ c (Proc.devRef .tc r) :=
  StableHlo.after_of_writes_sub _ (W2 m ρ c) writes_hostOps0_2 hr

/-- The contents after this stretch are its operations' results over the contents before it. -/
theorem W4_def (c : Dev nD) : W4 m ρ c = StableHlo.after (hostOps0_3 (F := F)) (W3 m ρ c) := rfl
/-- A buffer the stretch does not write is as before it. -/
theorem W4_carry (c : Dev nD) (r : Ref sig .tc) (hr : r ∉ wr_hostOps0_3) :
    W4 m ρ c (Proc.devRef .tc r) = W3 m ρ c (Proc.devRef .tc r) :=
  StableHlo.after_of_writes_sub _ (W3 m ρ c) writes_hostOps0_3 hr

/-- The contents after this stretch are its operations' results over the contents before it. -/
theorem W5_def (c : Dev nD) : W5 m ρ c = StableHlo.after (hostOps0_4 (F := F)) (W4 m ρ c) := rfl
/-- A buffer the stretch does not write is as before it. -/
theorem W5_carry (c : Dev nD) (r : Ref sig .tc) (hr : r ∉ wr_hostOps0_4) :
    W5 m ρ c (Proc.devRef .tc r) = W4 m ρ c (Proc.devRef .tc r) :=
  StableHlo.after_of_writes_sub _ (W4 m ρ c) writes_hostOps0_4 hr

/-- A buffer that is none of this call's arrays is as before the call. -/
theorem W6_carry (c : Dev nD) (r : Ref sig .tc) (hr : ∀ w, Pipeline.arrRef spec0 w ≠ r) :
    W6 m ρ c (Proc.devRef .tc r) = W5 m ρ c (Proc.devRef .tc r) :=
  W6_of_ne m ρ c r hr

/-- The contents after this stretch are its operations' results over the contents before it. -/
theorem W7_def (c : Dev nD) : W7 m ρ c = StableHlo.after (hostOps1 (F := F)) (W6 m ρ c) := rfl
/-- A buffer the stretch does not write is as before it. -/
theorem W7_carry (c : Dev nD) (r : Ref sig .tc) (hr : r ∉ wr_hostOps1) :
    W7 m ρ c (Proc.devRef .tc r) = W6 m ρ c (Proc.devRef .tc r) :=
  StableHlo.after_of_writes_sub _ (W6 m ρ c) writes_hostOps1 hr

/-- The contents after this stretch are its operations' results over the contents before it. -/
theorem W8_def (c : Dev nD) : W8 m ρ c = StableHlo.after (hostOps1_1 (F := F)) (W7 m ρ c) := rfl
/-- A buffer the stretch does not write is as before it. -/
theorem W8_carry (c : Dev nD) (r : Ref sig .tc) (hr : r ∉ wr_hostOps1_1) :
    W8 m ρ c (Proc.devRef .tc r) = W7 m ρ c (Proc.devRef .tc r) :=
  StableHlo.after_of_writes_sub _ (W7 m ρ c) writes_hostOps1_1 hr

/-- The contents after this stretch are its operations' results over the contents before it. -/
theorem W9_def (c : Dev nD) : W9 m ρ c = StableHlo.after (hostOps1_2 (F := F)) (W8 m ρ c) := rfl
/-- A buffer the stretch does not write is as before it. -/
theorem W9_carry (c : Dev nD) (r : Ref sig .tc) (hr : r ∉ wr_hostOps1_2) :
    W9 m ρ c (Proc.devRef .tc r) = W8 m ρ c (Proc.devRef .tc r) :=
  StableHlo.after_of_writes_sub _ (W8 m ρ c) writes_hostOps1_2 hr

/-- The contents after this stretch are its operations' results over the contents before it. -/
theorem W10_def (c : Dev nD) : W10 m ρ c = StableHlo.after (hostOps1_3 (F := F)) (W9 m ρ c) := rfl
/-- A buffer the stretch does not write is as before it. -/
theorem W10_carry (c : Dev nD) (r : Ref sig .tc) (hr : r ∉ wr_hostOps1_3) :
    W10 m ρ c (Proc.devRef .tc r) = W9 m ρ c (Proc.devRef .tc r) :=
  StableHlo.after_of_writes_sub _ (W9 m ρ c) writes_hostOps1_3 hr

/-- The contents after this stretch are its operations' results over the contents before it. -/
theorem W11_def (c : Dev nD) : W11 m ρ c = StableHlo.after (hostOps1_4 (F := F)) (W10 m ρ c) := rfl
/-- A buffer the stretch does not write is as before it. -/
theorem W11_carry (c : Dev nD) (r : Ref sig .tc) (hr : r ∉ wr_hostOps1_4) :
    W11 m ρ c (Proc.devRef .tc r) = W10 m ρ c (Proc.devRef .tc r) :=
  StableHlo.after_of_writes_sub _ (W10 m ρ c) writes_hostOps1_4 hr

/-- A buffer that is none of this call's arrays is as before the call. -/
theorem W12_carry (c : Dev nD) (r : Ref sig .tc) (hr : ∀ w, Pipeline.arrRef spec1 w ≠ r) :
    W12 m ρ c (Proc.devRef .tc r) = W11 m ρ c (Proc.devRef .tc r) :=
  W12_of_ne m ρ c r hr

/-- The contents after this stretch are its operations' results over the contents before it. -/
theorem W13_def (c : Dev nD) : W13 m ρ c = StableHlo.after (hostOps2 (F := F)) (W12 m ρ c) := rfl
/-- A buffer the stretch does not write is as before it. -/
theorem W13_carry (c : Dev nD) (r : Ref sig .tc) (hr : r ∉ wr_hostOps2) :
    W13 m ρ c (Proc.devRef .tc r) = W12 m ρ c (Proc.devRef .tc r) :=
  StableHlo.after_of_writes_sub _ (W12 m ρ c) writes_hostOps2 hr

/-- The contents after this stretch are its operations' results over the contents before it. -/
theorem W14_def (c : Dev nD) : W14 m ρ c = StableHlo.after (hostOps2_1 (F := F)) (W13 m ρ c) := rfl
/-- A buffer the stretch does not write is as before it. -/
theorem W14_carry (c : Dev nD) (r : Ref sig .tc) (hr : r ∉ wr_hostOps2_1) :
    W14 m ρ c (Proc.devRef .tc r) = W13 m ρ c (Proc.devRef .tc r) :=
  StableHlo.after_of_writes_sub _ (W13 m ρ c) writes_hostOps2_1 hr

/-- The contents after this stretch are its operations' results over the contents before it. -/
theorem W15_def (c : Dev nD) : W15 m ρ c = StableHlo.after (hostOps2_2 (F := F)) (W14 m ρ c) := rfl
/-- A buffer the stretch does not write is as before it. -/
theorem W15_carry (c : Dev nD) (r : Ref sig .tc) (hr : r ∉ wr_hostOps2_2) :
    W15 m ρ c (Proc.devRef .tc r) = W14 m ρ c (Proc.devRef .tc r) :=
  StableHlo.after_of_writes_sub _ (W14 m ρ c) writes_hostOps2_2 hr

/-- The contents after this stretch are its operations' results over the contents before it. -/
theorem W16_def (c : Dev nD) : W16 m ρ c = StableHlo.after (hostOps2_3 (F := F)) (W15 m ρ c) := rfl
/-- A buffer the stretch does not write is as before it. -/
theorem W16_carry (c : Dev nD) (r : Ref sig .tc) (hr : r ∉ wr_hostOps2_3) :
    W16 m ρ c (Proc.devRef .tc r) = W15 m ρ c (Proc.devRef .tc r) :=
  StableHlo.after_of_writes_sub _ (W15 m ρ c) writes_hostOps2_3 hr

/-- The contents after this stretch are its operations' results over the contents before it. -/
theorem W17_def (c : Dev nD) : W17 m ρ c = StableHlo.after (hostOps2_4 (F := F)) (W16 m ρ c) := rfl
/-- A buffer the stretch does not write is as before it. -/
theorem W17_carry (c : Dev nD) (r : Ref sig .tc) (hr : r ∉ wr_hostOps2_4) :
    W17 m ρ c (Proc.devRef .tc r) = W16 m ρ c (Proc.devRef .tc r) :=
  StableHlo.after_of_writes_sub _ (W16 m ρ c) writes_hostOps2_4 hr

/-- A buffer that is none of this call's arrays is as before the call. -/
theorem W18_carry (c : Dev nD) (r : Ref sig .tc) (hr : ∀ w, Pipeline.arrRef spec2 w ≠ r) :
    W18 m ρ c (Proc.devRef .tc r) = W17 m ρ c (Proc.devRef .tc r) :=
  W18_of_ne m ρ c r hr

/-- The contents after this stretch are its operations' results over the contents before it. -/
theorem W19_def (c : Dev nD) : W19 m ρ c = StableHlo.after (hostOps3 (F := F)) (W18 m ρ c) := rfl
/-- A buffer the stretch does not write is as before it. -/
theorem W19_carry (c : Dev nD) (r : Ref sig .tc) (hr : r ∉ wr_hostOps3) :
    W19 m ρ c (Proc.devRef .tc r) = W18 m ρ c (Proc.devRef .tc r) :=
  StableHlo.after_of_writes_sub _ (W18 m ρ c) writes_hostOps3 hr

/-- The contents after this stretch are its operations' results over the contents before it. -/
theorem W20_def (c : Dev nD) : W20 m ρ c = StableHlo.after (hostOps3_1 (F := F)) (W19 m ρ c) := rfl
/-- A buffer the stretch does not write is as before it. -/
theorem W20_carry (c : Dev nD) (r : Ref sig .tc) (hr : r ∉ wr_hostOps3_1) :
    W20 m ρ c (Proc.devRef .tc r) = W19 m ρ c (Proc.devRef .tc r) :=
  StableHlo.after_of_writes_sub _ (W19 m ρ c) writes_hostOps3_1 hr

/-- The contents after this stretch are its operations' results over the contents before it. -/
theorem W21_def (c : Dev nD) : W21 m ρ c = StableHlo.after (hostOps3_2 (F := F)) (W20 m ρ c) := rfl
/-- A buffer the stretch does not write is as before it. -/
theorem W21_carry (c : Dev nD) (r : Ref sig .tc) (hr : r ∉ wr_hostOps3_2) :
    W21 m ρ c (Proc.devRef .tc r) = W20 m ρ c (Proc.devRef .tc r) :=
  StableHlo.after_of_writes_sub _ (W20 m ρ c) writes_hostOps3_2 hr

/-- Before the first segment a buffer holds what the launch memory has there. -/
theorem W0_at (c : Dev nD) (r : Ref sig .tc) : W0 m ρ c (Proc.devRef .tc r) = m ((c : Thread nD τ).loc r) := rfl

end Cert.KernelIdeal.Fold

end
-- ==== Proof.FoldKeeps.lean ====
import proofs.«419282_j17575006175633_1_alg».proof.Proof.FoldCarries

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg) (c : Dev nD)

/-! ## An argument array: nothing writes it, so at every boundary it holds the launch memory's contents -/
theorem W1_keep_arg0 : W1 m ρ c (Proc.devRef .tc main_arg0) = m ((c : Thread nD τ).loc main_arg0) :=
  (W1_carry m ρ c main_arg0 (by decide)).trans (W0_at m ρ c main_arg0)
theorem W1_keep_arg4 : W1 m ρ c (Proc.devRef .tc main_arg4) = m ((c : Thread nD τ).loc main_arg4) :=
  (W1_carry m ρ c main_arg4 (by decide)).trans (W0_at m ρ c main_arg4)
theorem W1_keep_arg2 : W1 m ρ c (Proc.devRef .tc main_arg2) = m ((c : Thread nD τ).loc main_arg2) :=
  (W1_carry m ρ c main_arg2 (by decide)).trans (W0_at m ρ c main_arg2)
theorem W2_keep_arg2 : W2 m ρ c (Proc.devRef .tc main_arg2) = m ((c : Thread nD τ).loc main_arg2) :=
  (W2_carry m ρ c main_arg2 (by decide)).trans (W1_keep_arg2 m ρ c)
theorem W3_keep_arg2 : W3 m ρ c (Proc.devRef .tc main_arg2) = m ((c : Thread nD τ).loc main_arg2) :=
  (W3_carry m ρ c main_arg2 (by decide)).trans (W2_keep_arg2 m ρ c)
theorem W4_keep_arg2 : W4 m ρ c (Proc.devRef .tc main_arg2) = m ((c : Thread nD τ).loc main_arg2) :=
  (W4_carry m ρ c main_arg2 (by decide)).trans (W3_keep_arg2 m ρ c)
theorem W5_keep_arg2 : W5 m ρ c (Proc.devRef .tc main_arg2) = m ((c : Thread nD τ).loc main_arg2) :=
  (W5_carry m ρ c main_arg2 (by decide)).trans (W4_keep_arg2 m ρ c)
theorem W6_keep_arg2 : W6 m ρ c (Proc.devRef .tc main_arg2) = m ((c : Thread nD τ).loc main_arg2) :=
  ((W6_arr m ρ c 2).trans (((dat0 (V5 m ρ) c).arrAt_in 2 rfl _).trans (A_eq0 (V5 m ρ) c 2))).trans (W5_keep_arg2 m ρ c)
theorem W7_keep_arg2 : W7 m ρ c (Proc.devRef .tc main_arg2) = m ((c : Thread nD τ).loc main_arg2) :=
  (W7_carry m ρ c main_arg2 (by decide)).trans (W6_keep_arg2 m ρ c)
theorem W8_keep_arg2 : W8 m ρ c (Proc.devRef .tc main_arg2) = m ((c : Thread nD τ).loc main_arg2) :=
  (W8_carry m ρ c main_arg2 (by decide)).trans (W7_keep_arg2 m ρ c)
theorem W9_keep_arg2 : W9 m ρ c (Proc.devRef .tc main_arg2) = m ((c : Thread nD τ).loc main_arg2) :=
  (W9_carry m ρ c main_arg2 (by decide)).trans (W8_keep_arg2 m ρ c)
theorem W10_keep_arg2 : W10 m ρ c (Proc.devRef .tc main_arg2) = m ((c : Thread nD τ).loc main_arg2) :=
  (W10_carry m ρ c main_arg2 (by decide)).trans (W9_keep_arg2 m ρ c)
theorem W11_keep_arg2 : W11 m ρ c (Proc.devRef .tc main_arg2) = m ((c : Thread nD τ).loc main_arg2) :=
  (W11_carry m ρ c main_arg2 (by decide)).trans (W10_keep_arg2 m ρ c)
theorem W12_keep_arg2 : W12 m ρ c (Proc.devRef .tc main_arg2) = m ((c : Thread nD τ).loc main_arg2) :=
  ((W12_arr m ρ c 2).trans (((dat1 (V11 m ρ) c).arrAt_in 2 rfl _).trans (A_eq1 (V11 m ρ) c 2))).trans (W11_keep_arg2 m ρ c)
theorem W13_keep_arg2 : W13 m ρ c (Proc.devRef .tc main_arg2) = m ((c : Thread nD τ).loc main_arg2) :=
  (W13_carry m ρ c main_arg2 (by decide)).trans (W12_keep_arg2 m ρ c)
theorem W14_keep_arg2 : W14 m ρ c (Proc.devRef .tc main_arg2) = m ((c : Thread nD τ).loc main_arg2) :=
  (W14_carry m ρ c main_arg2 (by decide)).trans (W13_keep_arg2 m ρ c)
theorem W15_keep_arg2 : W15 m ρ c (Proc.devRef .tc main_arg2) = m ((c : Thread nD τ).loc main_arg2) :=
  (W15_carry m ρ c main_arg2 (by decide)).trans (W14_keep_arg2 m ρ c)
theorem W16_keep_arg2 : W16 m ρ c (Proc.devRef .tc main_arg2) = m ((c : Thread nD τ).loc main_arg2) :=
  (W16_carry m ρ c main_arg2 (by decide)).trans (W15_keep_arg2 m ρ c)
theorem W17_keep_arg2 : W17 m ρ c (Proc.devRef .tc main_arg2) = m ((c : Thread nD τ).loc main_arg2) :=
  (W17_carry m ρ c main_arg2 (by decide)).trans (W16_keep_arg2 m ρ c)
theorem W1_keep_arg5 : W1 m ρ c (Proc.devRef .tc main_arg5) = m ((c : Thread nD τ).loc main_arg5) :=
  (W1_carry m ρ c main_arg5 (by decide)).trans (W0_at m ρ c main_arg5)
theorem W2_keep_arg5 : W2 m ρ c (Proc.devRef .tc main_arg5) = m ((c : Thread nD τ).loc main_arg5) :=
  (W2_carry m ρ c main_arg5 (by decide)).trans (W1_keep_arg5 m ρ c)
theorem W3_keep_arg5 : W3 m ρ c (Proc.devRef .tc main_arg5) = m ((c : Thread nD τ).loc main_arg5) :=
  (W3_carry m ρ c main_arg5 (by decide)).trans (W2_keep_arg5 m ρ c)
theorem W4_keep_arg5 : W4 m ρ c (Proc.devRef .tc main_arg5) = m ((c : Thread nD τ).loc main_arg5) :=
  (W4_carry m ρ c main_arg5 (by decide)).trans (W3_keep_arg5 m ρ c)
theorem W5_keep_arg5 : W5 m ρ c (Proc.devRef .tc main_arg5) = m ((c : Thread nD τ).loc main_arg5) :=
  (W5_carry m ρ c main_arg5 (by decide)).trans (W4_keep_arg5 m ρ c)
theorem W1_keep_arg7 : W1 m ρ c (Proc.devRef .tc main_arg7) = m ((c : Thread nD τ).loc main_arg7) :=
  (W1_carry m ρ c main_arg7 (by decide)).trans (W0_at m ρ c main_arg7)
theorem W2_keep_arg7 : W2 m ρ c (Proc.devRef .tc main_arg7) = m ((c : Thread nD τ).loc main_arg7) :=
  (W2_carry m ρ c main_arg7 (by decide)).trans (W1_keep_arg7 m ρ c)
theorem W3_keep_arg7 : W3 m ρ c (Proc.devRef .tc main_arg7) = m ((c : Thread nD τ).loc main_arg7) :=
  (W3_carry m ρ c main_arg7 (by decide)).trans (W2_keep_arg7 m ρ c)
theorem W4_keep_arg7 : W4 m ρ c (Proc.devRef .tc main_arg7) = m ((c : Thread nD τ).loc main_arg7) :=
  (W4_carry m ρ c main_arg7 (by decide)).trans (W3_keep_arg7 m ρ c)
theorem W5_keep_arg7 : W5 m ρ c (Proc.devRef .tc main_arg7) = m ((c : Thread nD τ).loc main_arg7) :=
  (W5_carry m ρ c main_arg7 (by decide)).trans (W4_keep_arg7 m ρ c)
theorem W1_keep_arg6 : W1 m ρ c (Proc.devRef .tc main_arg6) = m ((c : Thread nD τ).loc main_arg6) :=
  (W1_carry m ρ c main_arg6 (by decide)).trans (W0_at m ρ c main_arg6)
theorem W2_keep_arg6 : W2 m ρ c (Proc.devRef .tc main_arg6) = m ((c : Thread nD τ).loc main_arg6) :=
  (W2_carry m ρ c main_arg6 (by decide)).trans (W1_keep_arg6 m ρ c)
theorem W3_keep_arg6 : W3 m ρ c (Proc.devRef .tc main_arg6) = m ((c : Thread nD τ).loc main_arg6) :=
  (W3_carry m ρ c main_arg6 (by decide)).trans (W2_keep_arg6 m ρ c)
theorem W4_keep_arg6 : W4 m ρ c (Proc.devRef .tc main_arg6) = m ((c : Thread nD τ).loc main_arg6) :=
  (W4_carry m ρ c main_arg6 (by decide)).trans (W3_keep_arg6 m ρ c)
theorem W1_keep_arg8 : W1 m ρ c (Proc.devRef .tc main_arg8) = m ((c : Thread nD τ).loc main_arg8) :=
  (W1_carry m ρ c main_arg8 (by decide)).trans (W0_at m ρ c main_arg8)
theorem W2_keep_arg8 : W2 m ρ c (Proc.devRef .tc main_arg8) = m ((c : Thread nD τ).loc main_arg8) :=
  (W2_carry m ρ c main_arg8 (by decide)).trans (W1_keep_arg8 m ρ c)
theorem W3_keep_arg8 : W3 m ρ c (Proc.devRef .tc main_arg8) = m ((c : Thread nD τ).loc main_arg8) :=
  (W3_carry m ρ c main_arg8 (by decide)).trans (W2_keep_arg8 m ρ c)
theorem W4_keep_arg8 : W4 m ρ c (Proc.devRef .tc main_arg8) = m ((c : Thread nD τ).loc main_arg8) :=
  (W4_carry m ρ c main_arg8 (by decide)).trans (W3_keep_arg8 m ρ c)
theorem W1_keep_arg9 : W1 m ρ c (Proc.devRef .tc main_arg9) = m ((c : Thread nD τ).loc main_arg9) :=
  (W1_carry m ρ c main_arg9 (by decide)).trans (W0_at m ρ c main_arg9)
theorem W2_keep_arg9 : W2 m ρ c (Proc.devRef .tc main_arg9) = m ((c : Thread nD τ).loc main_arg9) :=
  (W2_carry m ρ c main_arg9 (by decide)).trans (W1_keep_arg9 m ρ c)
theorem W3_keep_arg9 : W3 m ρ c (Proc.devRef .tc main_arg9) = m ((c : Thread nD τ).loc main_arg9) :=
  (W3_carry m ρ c main_arg9 (by decide)).trans (W2_keep_arg9 m ρ c)
theorem W4_keep_arg9 : W4 m ρ c (Proc.devRef .tc main_arg9) = m ((c : Thread nD τ).loc main_arg9) :=
  (W4_carry m ρ c main_arg9 (by decide)).trans (W3_keep_arg9 m ρ c)
theorem W5_keep_arg9 : W5 m ρ c (Proc.devRef .tc main_arg9) = m ((c : Thread nD τ).loc main_arg9) :=
  (W5_carry m ρ c main_arg9 (by decide)).trans (W4_keep_arg9 m ρ c)
theorem W6_keep_arg9 : W6 m ρ c (Proc.devRef .tc main_arg9) = m ((c : Thread nD τ).loc main_arg9) :=
  (W6_carry m ρ c main_arg9 (by decide)).trans (W5_keep_arg9 m ρ c)
theorem W7_keep_arg9 : W7 m ρ c (Proc.devRef .tc main_arg9) = m ((c : Thread nD τ).loc main_arg9) :=
  (W7_carry m ρ c main_arg9 (by decide)).trans (W6_keep_arg9 m ρ c)
theorem W8_keep_arg9 : W8 m ρ c (Proc.devRef .tc main_arg9) = m ((c : Thread nD τ).loc main_arg9) :=
  (W8_carry m ρ c main_arg9 (by decide)).trans (W7_keep_arg9 m ρ c)
theorem W9_keep_arg9 : W9 m ρ c (Proc.devRef .tc main_arg9) = m ((c : Thread nD τ).loc main_arg9) :=
  (W9_carry m ρ c main_arg9 (by decide)).trans (W8_keep_arg9 m ρ c)
theorem W10_keep_arg9 : W10 m ρ c (Proc.devRef .tc main_arg9) = m ((c : Thread nD τ).loc main_arg9) :=
  (W10_carry m ρ c main_arg9 (by decide)).trans (W9_keep_arg9 m ρ c)
theorem W11_keep_arg9 : W11 m ρ c (Proc.devRef .tc main_arg9) = m ((c : Thread nD τ).loc main_arg9) :=
  (W11_carry m ρ c main_arg9 (by decide)).trans (W10_keep_arg9 m ρ c)
theorem W1_keep_arg11 : W1 m ρ c (Proc.devRef .tc main_arg11) = m ((c : Thread nD τ).loc main_arg11) :=
  (W1_carry m ρ c main_arg11 (by decide)).trans (W0_at m ρ c main_arg11)
theorem W2_keep_arg11 : W2 m ρ c (Proc.devRef .tc main_arg11) = m ((c : Thread nD τ).loc main_arg11) :=
  (W2_carry m ρ c main_arg11 (by decide)).trans (W1_keep_arg11 m ρ c)
theorem W3_keep_arg11 : W3 m ρ c (Proc.devRef .tc main_arg11) = m ((c : Thread nD τ).loc main_arg11) :=
  (W3_carry m ρ c main_arg11 (by decide)).trans (W2_keep_arg11 m ρ c)
theorem W4_keep_arg11 : W4 m ρ c (Proc.devRef .tc main_arg11) = m ((c : Thread nD τ).loc main_arg11) :=
  (W4_carry m ρ c main_arg11 (by decide)).trans (W3_keep_arg11 m ρ c)
theorem W5_keep_arg11 : W5 m ρ c (Proc.devRef .tc main_arg11) = m ((c : Thread nD τ).loc main_arg11) :=
  (W5_carry m ρ c main_arg11 (by decide)).trans (W4_keep_arg11 m ρ c)
theorem W6_keep_arg11 : W6 m ρ c (Proc.devRef .tc main_arg11) = m ((c : Thread nD τ).loc main_arg11) :=
  (W6_carry m ρ c main_arg11 (by decide)).trans (W5_keep_arg11 m ρ c)
theorem W7_keep_arg11 : W7 m ρ c (Proc.devRef .tc main_arg11) = m ((c : Thread nD τ).loc main_arg11) :=
  (W7_carry m ρ c main_arg11 (by decide)).trans (W6_keep_arg11 m ρ c)
theorem W8_keep_arg11 : W8 m ρ c (Proc.devRef .tc main_arg11) = m ((c : Thread nD τ).loc main_arg11) :=
  (W8_carry m ρ c main_arg11 (by decide)).trans (W7_keep_arg11 m ρ c)
theorem W9_keep_arg11 : W9 m ρ c (Proc.devRef .tc main_arg11) = m ((c : Thread nD τ).loc main_arg11) :=
  (W9_carry m ρ c main_arg11 (by decide)).trans (W8_keep_arg11 m ρ c)
theorem W10_keep_arg11 : W10 m ρ c (Proc.devRef .tc main_arg11) = m ((c : Thread nD τ).loc main_arg11) :=
  (W10_carry m ρ c main_arg11 (by decide)).trans (W9_keep_arg11 m ρ c)
theorem W11_keep_arg11 : W11 m ρ c (Proc.devRef .tc main_arg11) = m ((c : Thread nD τ).loc main_arg11) :=
  (W11_carry m ρ c main_arg11 (by decide)).trans (W10_keep_arg11 m ρ c)
theorem W1_keep_arg10 : W1 m ρ c (Proc.devRef .tc main_arg10) = m ((c : Thread nD τ).loc main_arg10) :=
  (W1_carry m ρ c main_arg10 (by decide)).trans (W0_at m ρ c main_arg10)
theorem W2_keep_arg10 : W2 m ρ c (Proc.devRef .tc main_arg10) = m ((c : Thread nD τ).loc main_arg10) :=
  (W2_carry m ρ c main_arg10 (by decide)).trans (W1_keep_arg10 m ρ c)
theorem W3_keep_arg10 : W3 m ρ c (Proc.devRef .tc main_arg10) = m ((c : Thread nD τ).loc main_arg10) :=
  (W3_carry m ρ c main_arg10 (by decide)).trans (W2_keep_arg10 m ρ c)
theorem W4_keep_arg10 : W4 m ρ c (Proc.devRef .tc main_arg10) = m ((c : Thread nD τ).loc main_arg10) :=
  (W4_carry m ρ c main_arg10 (by decide)).trans (W3_keep_arg10 m ρ c)
theorem W5_keep_arg10 : W5 m ρ c (Proc.devRef .tc main_arg10) = m ((c : Thread nD τ).loc main_arg10) :=
  (W5_carry m ρ c main_arg10 (by decide)).trans (W4_keep_arg10 m ρ c)
theorem W6_keep_arg10 : W6 m ρ c (Proc.devRef .tc main_arg10) = m ((c : Thread nD τ).loc main_arg10) :=
  (W6_carry m ρ c main_arg10 (by decide)).trans (W5_keep_arg10 m ρ c)
theorem W7_keep_arg10 : W7 m ρ c (Proc.devRef .tc main_arg10) = m ((c : Thread nD τ).loc main_arg10) :=
  (W7_carry m ρ c main_arg10 (by decide)).trans (W6_keep_arg10 m ρ c)
theorem W8_keep_arg10 : W8 m ρ c (Proc.devRef .tc main_arg10) = m ((c : Thread nD τ).loc main_arg10) :=
  (W8_carry m ρ c main_arg10 (by decide)).trans (W7_keep_arg10 m ρ c)
theorem W9_keep_arg10 : W9 m ρ c (Proc.devRef .tc main_arg10) = m ((c : Thread nD τ).loc main_arg10) :=
  (W9_carry m ρ c main_arg10 (by decide)).trans (W8_keep_arg10 m ρ c)
theorem W10_keep_arg10 : W10 m ρ c (Proc.devRef .tc main_arg10) = m ((c : Thread nD τ).loc main_arg10) :=
  (W10_carry m ρ c main_arg10 (by decide)).trans (W9_keep_arg10 m ρ c)
theorem W1_keep_arg12 : W1 m ρ c (Proc.devRef .tc main_arg12) = m ((c : Thread nD τ).loc main_arg12) :=
  (W1_carry m ρ c main_arg12 (by decide)).trans (W0_at m ρ c main_arg12)
theorem W2_keep_arg12 : W2 m ρ c (Proc.devRef .tc main_arg12) = m ((c : Thread nD τ).loc main_arg12) :=
  (W2_carry m ρ c main_arg12 (by decide)).trans (W1_keep_arg12 m ρ c)
theorem W3_keep_arg12 : W3 m ρ c (Proc.devRef .tc main_arg12) = m ((c : Thread nD τ).loc main_arg12) :=
  (W3_carry m ρ c main_arg12 (by decide)).trans (W2_keep_arg12 m ρ c)
theorem W4_keep_arg12 : W4 m ρ c (Proc.devRef .tc main_arg12) = m ((c : Thread nD τ).loc main_arg12) :=
  (W4_carry m ρ c main_arg12 (by decide)).trans (W3_keep_arg12 m ρ c)
theorem W5_keep_arg12 : W5 m ρ c (Proc.devRef .tc main_arg12) = m ((c : Thread nD τ).loc main_arg12) :=
  (W5_carry m ρ c main_arg12 (by decide)).trans (W4_keep_arg12 m ρ c)
theorem W6_keep_arg12 : W6 m ρ c (Proc.devRef .tc main_arg12) = m ((c : Thread nD τ).loc main_arg12) :=
  (W6_carry m ρ c main_arg12 (by decide)).trans (W5_keep_arg12 m ρ c)
theorem W7_keep_arg12 : W7 m ρ c (Proc.devRef .tc main_arg12) = m ((c : Thread nD τ).loc main_arg12) :=
  (W7_carry m ρ c main_arg12 (by decide)).trans (W6_keep_arg12 m ρ c)
theorem W8_keep_arg12 : W8 m ρ c (Proc.devRef .tc main_arg12) = m ((c : Thread nD τ).loc main_arg12) :=
  (W8_carry m ρ c main_arg12 (by decide)).trans (W7_keep_arg12 m ρ c)
theorem W9_keep_arg12 : W9 m ρ c (Proc.devRef .tc main_arg12) = m ((c : Thread nD τ).loc main_arg12) :=
  (W9_carry m ρ c main_arg12 (by decide)).trans (W8_keep_arg12 m ρ c)
theorem W10_keep_arg12 : W10 m ρ c (Proc.devRef .tc main_arg12) = m ((c : Thread nD τ).loc main_arg12) :=
  (W10_carry m ρ c main_arg12 (by decide)).trans (W9_keep_arg12 m ρ c)
theorem W1_keep_arg13 : W1 m ρ c (Proc.devRef .tc main_arg13) = m ((c : Thread nD τ).loc main_arg13) :=
  (W1_carry m ρ c main_arg13 (by decide)).trans (W0_at m ρ c main_arg13)
theorem W2_keep_arg13 : W2 m ρ c (Proc.devRef .tc main_arg13) = m ((c : Thread nD τ).loc main_arg13) :=
  (W2_carry m ρ c main_arg13 (by decide)).trans (W1_keep_arg13 m ρ c)
theorem W3_keep_arg13 : W3 m ρ c (Proc.devRef .tc main_arg13) = m ((c : Thread nD τ).loc main_arg13) :=
  (W3_carry m ρ c main_arg13 (by decide)).trans (W2_keep_arg13 m ρ c)
theorem W4_keep_arg13 : W4 m ρ c (Proc.devRef .tc main_arg13) = m ((c : Thread nD τ).loc main_arg13) :=
  (W4_carry m ρ c main_arg13 (by decide)).trans (W3_keep_arg13 m ρ c)
theorem W5_keep_arg13 : W5 m ρ c (Proc.devRef .tc main_arg13) = m ((c : Thread nD τ).loc main_arg13) :=
  (W5_carry m ρ c main_arg13 (by decide)).trans (W4_keep_arg13 m ρ c)
theorem W6_keep_arg13 : W6 m ρ c (Proc.devRef .tc main_arg13) = m ((c : Thread nD τ).loc main_arg13) :=
  (W6_carry m ρ c main_arg13 (by decide)).trans (W5_keep_arg13 m ρ c)
theorem W7_keep_arg13 : W7 m ρ c (Proc.devRef .tc main_arg13) = m ((c : Thread nD τ).loc main_arg13) :=
  (W7_carry m ρ c main_arg13 (by decide)).trans (W6_keep_arg13 m ρ c)
theorem W8_keep_arg13 : W8 m ρ c (Proc.devRef .tc main_arg13) = m ((c : Thread nD τ).loc main_arg13) :=
  (W8_carry m ρ c main_arg13 (by decide)).trans (W7_keep_arg13 m ρ c)
theorem W9_keep_arg13 : W9 m ρ c (Proc.devRef .tc main_arg13) = m ((c : Thread nD τ).loc main_arg13) :=
  (W9_carry m ρ c main_arg13 (by decide)).trans (W8_keep_arg13 m ρ c)
theorem W10_keep_arg13 : W10 m ρ c (Proc.devRef .tc main_arg13) = m ((c : Thread nD τ).loc main_arg13) :=
  (W10_carry m ρ c main_arg13 (by decide)).trans (W9_keep_arg13 m ρ c)
theorem W11_keep_arg13 : W11 m ρ c (Proc.devRef .tc main_arg13) = m ((c : Thread nD τ).loc main_arg13) :=
  (W11_carry m ρ c main_arg13 (by decide)).trans (W10_keep_arg13 m ρ c)
theorem W12_keep_arg13 : W12 m ρ c (Proc.devRef .tc main_arg13) = m ((c : Thread nD τ).loc main_arg13) :=
  (W12_carry m ρ c main_arg13 (by decide)).trans (W11_keep_arg13 m ρ c)
theorem W13_keep_arg13 : W13 m ρ c (Proc.devRef .tc main_arg13) = m ((c : Thread nD τ).loc main_arg13) :=
  (W13_carry m ρ c main_arg13 (by decide)).trans (W12_keep_arg13 m ρ c)
theorem W14_keep_arg13 : W14 m ρ c (Proc.devRef .tc main_arg13) = m ((c : Thread nD τ).loc main_arg13) :=
  (W14_carry m ρ c main_arg13 (by decide)).trans (W13_keep_arg13 m ρ c)
theorem W15_keep_arg13 : W15 m ρ c (Proc.devRef .tc main_arg13) = m ((c : Thread nD τ).loc main_arg13) :=
  (W15_carry m ρ c main_arg13 (by decide)).trans (W14_keep_arg13 m ρ c)
theorem W16_keep_arg13 : W16 m ρ c (Proc.devRef .tc main_arg13) = m ((c : Thread nD τ).loc main_arg13) :=
  (W16_carry m ρ c main_arg13 (by decide)).trans (W15_keep_arg13 m ρ c)
theorem W17_keep_arg13 : W17 m ρ c (Proc.devRef .tc main_arg13) = m ((c : Thread nD τ).loc main_arg13) :=
  (W17_carry m ρ c main_arg13 (by decide)).trans (W16_keep_arg13 m ρ c)
theorem W1_keep_arg15 : W1 m ρ c (Proc.devRef .tc main_arg15) = m ((c : Thread nD τ).loc main_arg15) :=
  (W1_carry m ρ c main_arg15 (by decide)).trans (W0_at m ρ c main_arg15)
theorem W2_keep_arg15 : W2 m ρ c (Proc.devRef .tc main_arg15) = m ((c : Thread nD τ).loc main_arg15) :=
  (W2_carry m ρ c main_arg15 (by decide)).trans (W1_keep_arg15 m ρ c)
theorem W3_keep_arg15 : W3 m ρ c (Proc.devRef .tc main_arg15) = m ((c : Thread nD τ).loc main_arg15) :=
  (W3_carry m ρ c main_arg15 (by decide)).trans (W2_keep_arg15 m ρ c)
theorem W4_keep_arg15 : W4 m ρ c (Proc.devRef .tc main_arg15) = m ((c : Thread nD τ).loc main_arg15) :=
  (W4_carry m ρ c main_arg15 (by decide)).trans (W3_keep_arg15 m ρ c)
theorem W5_keep_arg15 : W5 m ρ c (Proc.devRef .tc main_arg15) = m ((c : Thread nD τ).loc main_arg15) :=
  (W5_carry m ρ c main_arg15 (by decide)).trans (W4_keep_arg15 m ρ c)
theorem W6_keep_arg15 : W6 m ρ c (Proc.devRef .tc main_arg15) = m ((c : Thread nD τ).loc main_arg15) :=
  (W6_carry m ρ c main_arg15 (by decide)).trans (W5_keep_arg15 m ρ c)
theorem W7_keep_arg15 : W7 m ρ c (Proc.devRef .tc main_arg15) = m ((c : Thread nD τ).loc main_arg15) :=
  (W7_carry m ρ c main_arg15 (by decide)).trans (W6_keep_arg15 m ρ c)
theorem W8_keep_arg15 : W8 m ρ c (Proc.devRef .tc main_arg15) = m ((c : Thread nD τ).loc main_arg15) :=
  (W8_carry m ρ c main_arg15 (by decide)).trans (W7_keep_arg15 m ρ c)
theorem W9_keep_arg15 : W9 m ρ c (Proc.devRef .tc main_arg15) = m ((c : Thread nD τ).loc main_arg15) :=
  (W9_carry m ρ c main_arg15 (by decide)).trans (W8_keep_arg15 m ρ c)
theorem W10_keep_arg15 : W10 m ρ c (Proc.devRef .tc main_arg15) = m ((c : Thread nD τ).loc main_arg15) :=
  (W10_carry m ρ c main_arg15 (by decide)).trans (W9_keep_arg15 m ρ c)
theorem W11_keep_arg15 : W11 m ρ c (Proc.devRef .tc main_arg15) = m ((c : Thread nD τ).loc main_arg15) :=
  (W11_carry m ρ c main_arg15 (by decide)).trans (W10_keep_arg15 m ρ c)
theorem W12_keep_arg15 : W12 m ρ c (Proc.devRef .tc main_arg15) = m ((c : Thread nD τ).loc main_arg15) :=
  (W12_carry m ρ c main_arg15 (by decide)).trans (W11_keep_arg15 m ρ c)
theorem W13_keep_arg15 : W13 m ρ c (Proc.devRef .tc main_arg15) = m ((c : Thread nD τ).loc main_arg15) :=
  (W13_carry m ρ c main_arg15 (by decide)).trans (W12_keep_arg15 m ρ c)
theorem W14_keep_arg15 : W14 m ρ c (Proc.devRef .tc main_arg15) = m ((c : Thread nD τ).loc main_arg15) :=
  (W14_carry m ρ c main_arg15 (by decide)).trans (W13_keep_arg15 m ρ c)
theorem W15_keep_arg15 : W15 m ρ c (Proc.devRef .tc main_arg15) = m ((c : Thread nD τ).loc main_arg15) :=
  (W15_carry m ρ c main_arg15 (by decide)).trans (W14_keep_arg15 m ρ c)
theorem W16_keep_arg15 : W16 m ρ c (Proc.devRef .tc main_arg15) = m ((c : Thread nD τ).loc main_arg15) :=
  (W16_carry m ρ c main_arg15 (by decide)).trans (W15_keep_arg15 m ρ c)
theorem W17_keep_arg15 : W17 m ρ c (Proc.devRef .tc main_arg15) = m ((c : Thread nD τ).loc main_arg15) :=
  (W17_carry m ρ c main_arg15 (by decide)).trans (W16_keep_arg15 m ρ c)
theorem W1_keep_arg14 : W1 m ρ c (Proc.devRef .tc main_arg14) = m ((c : Thread nD τ).loc main_arg14) :=
  (W1_carry m ρ c main_arg14 (by decide)).trans (W0_at m ρ c main_arg14)
theorem W2_keep_arg14 : W2 m ρ c (Proc.devRef .tc main_arg14) = m ((c : Thread nD τ).loc main_arg14) :=
  (W2_carry m ρ c main_arg14 (by decide)).trans (W1_keep_arg14 m ρ c)
theorem W3_keep_arg14 : W3 m ρ c (Proc.devRef .tc main_arg14) = m ((c : Thread nD τ).loc main_arg14) :=
  (W3_carry m ρ c main_arg14 (by decide)).trans (W2_keep_arg14 m ρ c)
theorem W4_keep_arg14 : W4 m ρ c (Proc.devRef .tc main_arg14) = m ((c : Thread nD τ).loc main_arg14) :=
  (W4_carry m ρ c main_arg14 (by decide)).trans (W3_keep_arg14 m ρ c)
theorem W5_keep_arg14 : W5 m ρ c (Proc.devRef .tc main_arg14) = m ((c : Thread nD τ).loc main_arg14) :=
  (W5_carry m ρ c main_arg14 (by decide)).trans (W4_keep_arg14 m ρ c)
theorem W6_keep_arg14 : W6 m ρ c (Proc.devRef .tc main_arg14) = m ((c : Thread nD τ).loc main_arg14) :=
  (W6_carry m ρ c main_arg14 (by decide)).trans (W5_keep_arg14 m ρ c)
theorem W7_keep_arg14 : W7 m ρ c (Proc.devRef .tc main_arg14) = m ((c : Thread nD τ).loc main_arg14) :=
  (W7_carry m ρ c main_arg14 (by decide)).trans (W6_keep_arg14 m ρ c)
theorem W8_keep_arg14 : W8 m ρ c (Proc.devRef .tc main_arg14) = m ((c : Thread nD τ).loc main_arg14) :=
  (W8_carry m ρ c main_arg14 (by decide)).trans (W7_keep_arg14 m ρ c)
theorem W9_keep_arg14 : W9 m ρ c (Proc.devRef .tc main_arg14) = m ((c : Thread nD τ).loc main_arg14) :=
  (W9_carry m ρ c main_arg14 (by decide)).trans (W8_keep_arg14 m ρ c)
theorem W10_keep_arg14 : W10 m ρ c (Proc.devRef .tc main_arg14) = m ((c : Thread nD τ).loc main_arg14) :=
  (W10_carry m ρ c main_arg14 (by decide)).trans (W9_keep_arg14 m ρ c)
theorem W11_keep_arg14 : W11 m ρ c (Proc.devRef .tc main_arg14) = m ((c : Thread nD τ).loc main_arg14) :=
  (W11_carry m ρ c main_arg14 (by decide)).trans (W10_keep_arg14 m ρ c)
theorem W12_keep_arg14 : W12 m ρ c (Proc.devRef .tc main_arg14) = m ((c : Thread nD τ).loc main_arg14) :=
  (W12_carry m ρ c main_arg14 (by decide)).trans (W11_keep_arg14 m ρ c)
theorem W13_keep_arg14 : W13 m ρ c (Proc.devRef .tc main_arg14) = m ((c : Thread nD τ).loc main_arg14) :=
  (W13_carry m ρ c main_arg14 (by decide)).trans (W12_keep_arg14 m ρ c)
theorem W14_keep_arg14 : W14 m ρ c (Proc.devRef .tc main_arg14) = m ((c : Thread nD τ).loc main_arg14) :=
  (W14_carry m ρ c main_arg14 (by decide)).trans (W13_keep_arg14 m ρ c)
theorem W15_keep_arg14 : W15 m ρ c (Proc.devRef .tc main_arg14) = m ((c : Thread nD τ).loc main_arg14) :=
  (W15_carry m ρ c main_arg14 (by decide)).trans (W14_keep_arg14 m ρ c)
theorem W16_keep_arg14 : W16 m ρ c (Proc.devRef .tc main_arg14) = m ((c : Thread nD τ).loc main_arg14) :=
  (W16_carry m ρ c main_arg14 (by decide)).trans (W15_keep_arg14 m ρ c)
theorem W1_keep_arg16 : W1 m ρ c (Proc.devRef .tc main_arg16) = m ((c : Thread nD τ).loc main_arg16) :=
  (W1_carry m ρ c main_arg16 (by decide)).trans (W0_at m ρ c main_arg16)
theorem W2_keep_arg16 : W2 m ρ c (Proc.devRef .tc main_arg16) = m ((c : Thread nD τ).loc main_arg16) :=
  (W2_carry m ρ c main_arg16 (by decide)).trans (W1_keep_arg16 m ρ c)
theorem W3_keep_arg16 : W3 m ρ c (Proc.devRef .tc main_arg16) = m ((c : Thread nD τ).loc main_arg16) :=
  (W3_carry m ρ c main_arg16 (by decide)).trans (W2_keep_arg16 m ρ c)
theorem W4_keep_arg16 : W4 m ρ c (Proc.devRef .tc main_arg16) = m ((c : Thread nD τ).loc main_arg16) :=
  (W4_carry m ρ c main_arg16 (by decide)).trans (W3_keep_arg16 m ρ c)
theorem W5_keep_arg16 : W5 m ρ c (Proc.devRef .tc main_arg16) = m ((c : Thread nD τ).loc main_arg16) :=
  (W5_carry m ρ c main_arg16 (by decide)).trans (W4_keep_arg16 m ρ c)
theorem W6_keep_arg16 : W6 m ρ c (Proc.devRef .tc main_arg16) = m ((c : Thread nD τ).loc main_arg16) :=
  (W6_carry m ρ c main_arg16 (by decide)).trans (W5_keep_arg16 m ρ c)
theorem W7_keep_arg16 : W7 m ρ c (Proc.devRef .tc main_arg16) = m ((c : Thread nD τ).loc main_arg16) :=
  (W7_carry m ρ c main_arg16 (by decide)).trans (W6_keep_arg16 m ρ c)
theorem W8_keep_arg16 : W8 m ρ c (Proc.devRef .tc main_arg16) = m ((c : Thread nD τ).loc main_arg16) :=
  (W8_carry m ρ c main_arg16 (by decide)).trans (W7_keep_arg16 m ρ c)
theorem W9_keep_arg16 : W9 m ρ c (Proc.devRef .tc main_arg16) = m ((c : Thread nD τ).loc main_arg16) :=
  (W9_carry m ρ c main_arg16 (by decide)).trans (W8_keep_arg16 m ρ c)
theorem W10_keep_arg16 : W10 m ρ c (Proc.devRef .tc main_arg16) = m ((c : Thread nD τ).loc main_arg16) :=
  (W10_carry m ρ c main_arg16 (by decide)).trans (W9_keep_arg16 m ρ c)
theorem W11_keep_arg16 : W11 m ρ c (Proc.devRef .tc main_arg16) = m ((c : Thread nD τ).loc main_arg16) :=
  (W11_carry m ρ c main_arg16 (by decide)).trans (W10_keep_arg16 m ρ c)
theorem W12_keep_arg16 : W12 m ρ c (Proc.devRef .tc main_arg16) = m ((c : Thread nD τ).loc main_arg16) :=
  (W12_carry m ρ c main_arg16 (by decide)).trans (W11_keep_arg16 m ρ c)
theorem W13_keep_arg16 : W13 m ρ c (Proc.devRef .tc main_arg16) = m ((c : Thread nD τ).loc main_arg16) :=
  (W13_carry m ρ c main_arg16 (by decide)).trans (W12_keep_arg16 m ρ c)
theorem W14_keep_arg16 : W14 m ρ c (Proc.devRef .tc main_arg16) = m ((c : Thread nD τ).loc main_arg16) :=
  (W14_carry m ρ c main_arg16 (by decide)).trans (W13_keep_arg16 m ρ c)
theorem W15_keep_arg16 : W15 m ρ c (Proc.devRef .tc main_arg16) = m ((c : Thread nD τ).loc main_arg16) :=
  (W15_carry m ρ c main_arg16 (by decide)).trans (W14_keep_arg16 m ρ c)
theorem W16_keep_arg16 : W16 m ρ c (Proc.devRef .tc main_arg16) = m ((c : Thread nD τ).loc main_arg16) :=
  (W16_carry m ρ c main_arg16 (by decide)).trans (W15_keep_arg16 m ρ c)
theorem W1_keep_arg3 : W1 m ρ c (Proc.devRef .tc main_arg3) = m ((c : Thread nD τ).loc main_arg3) :=
  (W1_carry m ρ c main_arg3 (by decide)).trans (W0_at m ρ c main_arg3)
theorem W2_keep_arg3 : W2 m ρ c (Proc.devRef .tc main_arg3) = m ((c : Thread nD τ).loc main_arg3) :=
  (W2_carry m ρ c main_arg3 (by decide)).trans (W1_keep_arg3 m ρ c)
theorem W3_keep_arg3 : W3 m ρ c (Proc.devRef .tc main_arg3) = m ((c : Thread nD τ).loc main_arg3) :=
  (W3_carry m ρ c main_arg3 (by decide)).trans (W2_keep_arg3 m ρ c)
theorem W4_keep_arg3 : W4 m ρ c (Proc.devRef .tc main_arg3) = m ((c : Thread nD τ).loc main_arg3) :=
  (W4_carry m ρ c main_arg3 (by decide)).trans (W3_keep_arg3 m ρ c)
theorem W5_keep_arg3 : W5 m ρ c (Proc.devRef .tc main_arg3) = m ((c : Thread nD τ).loc main_arg3) :=
  (W5_carry m ρ c main_arg3 (by decide)).trans (W4_keep_arg3 m ρ c)
theorem W6_keep_arg3 : W6 m ρ c (Proc.devRef .tc main_arg3) = m ((c : Thread nD τ).loc main_arg3) :=
  (W6_carry m ρ c main_arg3 (by decide)).trans (W5_keep_arg3 m ρ c)
theorem W7_keep_arg3 : W7 m ρ c (Proc.devRef .tc main_arg3) = m ((c : Thread nD τ).loc main_arg3) :=
  (W7_carry m ρ c main_arg3 (by decide)).trans (W6_keep_arg3 m ρ c)
theorem W8_keep_arg3 : W8 m ρ c (Proc.devRef .tc main_arg3) = m ((c : Thread nD τ).loc main_arg3) :=
  (W8_carry m ρ c main_arg3 (by decide)).trans (W7_keep_arg3 m ρ c)
theorem W9_keep_arg3 : W9 m ρ c (Proc.devRef .tc main_arg3) = m ((c : Thread nD τ).loc main_arg3) :=
  (W9_carry m ρ c main_arg3 (by decide)).trans (W8_keep_arg3 m ρ c)
theorem W10_keep_arg3 : W10 m ρ c (Proc.devRef .tc main_arg3) = m ((c : Thread nD τ).loc main_arg3) :=
  (W10_carry m ρ c main_arg3 (by decide)).trans (W9_keep_arg3 m ρ c)
theorem W11_keep_arg3 : W11 m ρ c (Proc.devRef .tc main_arg3) = m ((c : Thread nD τ).loc main_arg3) :=
  (W11_carry m ρ c main_arg3 (by decide)).trans (W10_keep_arg3 m ρ c)
theorem W12_keep_arg3 : W12 m ρ c (Proc.devRef .tc main_arg3) = m ((c : Thread nD τ).loc main_arg3) :=
  (W12_carry m ρ c main_arg3 (by decide)).trans (W11_keep_arg3 m ρ c)
theorem W13_keep_arg3 : W13 m ρ c (Proc.devRef .tc main_arg3) = m ((c : Thread nD τ).loc main_arg3) :=
  (W13_carry m ρ c main_arg3 (by decide)).trans (W12_keep_arg3 m ρ c)
theorem W14_keep_arg3 : W14 m ρ c (Proc.devRef .tc main_arg3) = m ((c : Thread nD τ).loc main_arg3) :=
  (W14_carry m ρ c main_arg3 (by decide)).trans (W13_keep_arg3 m ρ c)
theorem W15_keep_arg3 : W15 m ρ c (Proc.devRef .tc main_arg3) = m ((c : Thread nD τ).loc main_arg3) :=
  (W15_carry m ρ c main_arg3 (by decide)).trans (W14_keep_arg3 m ρ c)
theorem W16_keep_arg3 : W16 m ρ c (Proc.devRef .tc main_arg3) = m ((c : Thread nD τ).loc main_arg3) :=
  (W16_carry m ρ c main_arg3 (by decide)).trans (W15_keep_arg3 m ρ c)
theorem W17_keep_arg3 : W17 m ρ c (Proc.devRef .tc main_arg3) = m ((c : Thread nD τ).loc main_arg3) :=
  (W17_carry m ρ c main_arg3 (by decide)).trans (W16_keep_arg3 m ρ c)
theorem W18_keep_arg3 : W18 m ρ c (Proc.devRef .tc main_arg3) = m ((c : Thread nD τ).loc main_arg3) :=
  (W18_carry m ρ c main_arg3 (by decide)).trans (W17_keep_arg3 m ρ c)
theorem W19_keep_arg3 : W19 m ρ c (Proc.devRef .tc main_arg3) = m ((c : Thread nD τ).loc main_arg3) :=
  (W19_carry m ρ c main_arg3 (by decide)).trans (W18_keep_arg3 m ρ c)
theorem W20_keep_arg3 : W20 m ρ c (Proc.devRef .tc main_arg3) = m ((c : Thread nD τ).loc main_arg3) :=
  (W20_carry m ρ c main_arg3 (by decide)).trans (W19_keep_arg3 m ρ c)
theorem W1_keep_arg17 : W1 m ρ c (Proc.devRef .tc main_arg17) = m ((c : Thread nD τ).loc main_arg17) :=
  (W1_carry m ρ c main_arg17 (by decide)).trans (W0_at m ρ c main_arg17)
theorem W2_keep_arg17 : W2 m ρ c (Proc.devRef .tc main_arg17) = m ((c : Thread nD τ).loc main_arg17) :=
  (W2_carry m ρ c main_arg17 (by decide)).trans (W1_keep_arg17 m ρ c)
theorem W3_keep_arg17 : W3 m ρ c (Proc.devRef .tc main_arg17) = m ((c : Thread nD τ).loc main_arg17) :=
  (W3_carry m ρ c main_arg17 (by decide)).trans (W2_keep_arg17 m ρ c)
theorem W4_keep_arg17 : W4 m ρ c (Proc.devRef .tc main_arg17) = m ((c : Thread nD τ).loc main_arg17) :=
  (W4_carry m ρ c main_arg17 (by decide)).trans (W3_keep_arg17 m ρ c)
theorem W5_keep_arg17 : W5 m ρ c (Proc.devRef .tc main_arg17) = m ((c : Thread nD τ).loc main_arg17) :=
  (W5_carry m ρ c main_arg17 (by decide)).trans (W4_keep_arg17 m ρ c)
theorem W6_keep_arg17 : W6 m ρ c (Proc.devRef .tc main_arg17) = m ((c : Thread nD τ).loc main_arg17) :=
  (W6_carry m ρ c main_arg17 (by decide)).trans (W5_keep_arg17 m ρ c)
theorem W7_keep_arg17 : W7 m ρ c (Proc.devRef .tc main_arg17) = m ((c : Thread nD τ).loc main_arg17) :=
  (W7_carry m ρ c main_arg17 (by decide)).trans (W6_keep_arg17 m ρ c)
theorem W8_keep_arg17 : W8 m ρ c (Proc.devRef .tc main_arg17) = m ((c : Thread nD τ).loc main_arg17) :=
  (W8_carry m ρ c main_arg17 (by decide)).trans (W7_keep_arg17 m ρ c)
theorem W9_keep_arg17 : W9 m ρ c (Proc.devRef .tc main_arg17) = m ((c : Thread nD τ).loc main_arg17) :=
  (W9_carry m ρ c main_arg17 (by decide)).trans (W8_keep_arg17 m ρ c)
theorem W10_keep_arg17 : W10 m ρ c (Proc.devRef .tc main_arg17) = m ((c : Thread nD τ).loc main_arg17) :=
  (W10_carry m ρ c main_arg17 (by decide)).trans (W9_keep_arg17 m ρ c)
theorem W11_keep_arg17 : W11 m ρ c (Proc.devRef .tc main_arg17) = m ((c : Thread nD τ).loc main_arg17) :=
  (W11_carry m ρ c main_arg17 (by decide)).trans (W10_keep_arg17 m ρ c)
theorem W12_keep_arg17 : W12 m ρ c (Proc.devRef .tc main_arg17) = m ((c : Thread nD τ).loc main_arg17) :=
  (W12_carry m ρ c main_arg17 (by decide)).trans (W11_keep_arg17 m ρ c)
theorem W13_keep_arg17 : W13 m ρ c (Proc.devRef .tc main_arg17) = m ((c : Thread nD τ).loc main_arg17) :=
  (W13_carry m ρ c main_arg17 (by decide)).trans (W12_keep_arg17 m ρ c)
theorem W14_keep_arg17 : W14 m ρ c (Proc.devRef .tc main_arg17) = m ((c : Thread nD τ).loc main_arg17) :=
  (W14_carry m ρ c main_arg17 (by decide)).trans (W13_keep_arg17 m ρ c)
theorem W15_keep_arg17 : W15 m ρ c (Proc.devRef .tc main_arg17) = m ((c : Thread nD τ).loc main_arg17) :=
  (W15_carry m ρ c main_arg17 (by decide)).trans (W14_keep_arg17 m ρ c)
theorem W16_keep_arg17 : W16 m ρ c (Proc.devRef .tc main_arg17) = m ((c : Thread nD τ).loc main_arg17) :=
  (W16_carry m ρ c main_arg17 (by decide)).trans (W15_keep_arg17 m ρ c)
theorem W17_keep_arg17 : W17 m ρ c (Proc.devRef .tc main_arg17) = m ((c : Thread nD τ).loc main_arg17) :=
  (W17_carry m ρ c main_arg17 (by decide)).trans (W16_keep_arg17 m ρ c)
theorem W18_keep_arg17 : W18 m ρ c (Proc.devRef .tc main_arg17) = m ((c : Thread nD τ).loc main_arg17) :=
  (W18_carry m ρ c main_arg17 (by decide)).trans (W17_keep_arg17 m ρ c)
theorem W19_keep_arg17 : W19 m ρ c (Proc.devRef .tc main_arg17) = m ((c : Thread nD τ).loc main_arg17) :=
  (W19_carry m ρ c main_arg17 (by decide)).trans (W18_keep_arg17 m ρ c)
theorem W20_keep_arg17 : W20 m ρ c (Proc.devRef .tc main_arg17) = m ((c : Thread nD τ).loc main_arg17) :=
  (W20_carry m ρ c main_arg17 (by decide)).trans (W19_keep_arg17 m ρ c)
theorem W1_keep_arg18 : W1 m ρ c (Proc.devRef .tc main_arg18) = m ((c : Thread nD τ).loc main_arg18) :=
  (W1_carry m ρ c main_arg18 (by decide)).trans (W0_at m ρ c main_arg18)
theorem W2_keep_arg18 : W2 m ρ c (Proc.devRef .tc main_arg18) = m ((c : Thread nD τ).loc main_arg18) :=
  (W2_carry m ρ c main_arg18 (by decide)).trans (W1_keep_arg18 m ρ c)
theorem W3_keep_arg18 : W3 m ρ c (Proc.devRef .tc main_arg18) = m ((c : Thread nD τ).loc main_arg18) :=
  (W3_carry m ρ c main_arg18 (by decide)).trans (W2_keep_arg18 m ρ c)
theorem W4_keep_arg18 : W4 m ρ c (Proc.devRef .tc main_arg18) = m ((c : Thread nD τ).loc main_arg18) :=
  (W4_carry m ρ c main_arg18 (by decide)).trans (W3_keep_arg18 m ρ c)
theorem W5_keep_arg18 : W5 m ρ c (Proc.devRef .tc main_arg18) = m ((c : Thread nD τ).loc main_arg18) :=
  (W5_carry m ρ c main_arg18 (by decide)).trans (W4_keep_arg18 m ρ c)
theorem W6_keep_arg18 : W6 m ρ c (Proc.devRef .tc main_arg18) = m ((c : Thread nD τ).loc main_arg18) :=
  (W6_carry m ρ c main_arg18 (by decide)).trans (W5_keep_arg18 m ρ c)
theorem W7_keep_arg18 : W7 m ρ c (Proc.devRef .tc main_arg18) = m ((c : Thread nD τ).loc main_arg18) :=
  (W7_carry m ρ c main_arg18 (by decide)).trans (W6_keep_arg18 m ρ c)
theorem W8_keep_arg18 : W8 m ρ c (Proc.devRef .tc main_arg18) = m ((c : Thread nD τ).loc main_arg18) :=
  (W8_carry m ρ c main_arg18 (by decide)).trans (W7_keep_arg18 m ρ c)
theorem W9_keep_arg18 : W9 m ρ c (Proc.devRef .tc main_arg18) = m ((c : Thread nD τ).loc main_arg18) :=
  (W9_carry m ρ c main_arg18 (by decide)).trans (W8_keep_arg18 m ρ c)
theorem W10_keep_arg18 : W10 m ρ c (Proc.devRef .tc main_arg18) = m ((c : Thread nD τ).loc main_arg18) :=
  (W10_carry m ρ c main_arg18 (by decide)).trans (W9_keep_arg18 m ρ c)
theorem W11_keep_arg18 : W11 m ρ c (Proc.devRef .tc main_arg18) = m ((c : Thread nD τ).loc main_arg18) :=
  (W11_carry m ρ c main_arg18 (by decide)).trans (W10_keep_arg18 m ρ c)
theorem W12_keep_arg18 : W12 m ρ c (Proc.devRef .tc main_arg18) = m ((c : Thread nD τ).loc main_arg18) :=
  (W12_carry m ρ c main_arg18 (by decide)).trans (W11_keep_arg18 m ρ c)
theorem W13_keep_arg18 : W13 m ρ c (Proc.devRef .tc main_arg18) = m ((c : Thread nD τ).loc main_arg18) :=
  (W13_carry m ρ c main_arg18 (by decide)).trans (W12_keep_arg18 m ρ c)
theorem W14_keep_arg18 : W14 m ρ c (Proc.devRef .tc main_arg18) = m ((c : Thread nD τ).loc main_arg18) :=
  (W14_carry m ρ c main_arg18 (by decide)).trans (W13_keep_arg18 m ρ c)
theorem W15_keep_arg18 : W15 m ρ c (Proc.devRef .tc main_arg18) = m ((c : Thread nD τ).loc main_arg18) :=
  (W15_carry m ρ c main_arg18 (by decide)).trans (W14_keep_arg18 m ρ c)
theorem W16_keep_arg18 : W16 m ρ c (Proc.devRef .tc main_arg18) = m ((c : Thread nD τ).loc main_arg18) :=
  (W16_carry m ρ c main_arg18 (by decide)).trans (W15_keep_arg18 m ρ c)
theorem W17_keep_arg18 : W17 m ρ c (Proc.devRef .tc main_arg18) = m ((c : Thread nD τ).loc main_arg18) :=
  (W17_carry m ρ c main_arg18 (by decide)).trans (W16_keep_arg18 m ρ c)
theorem W18_keep_arg18 : W18 m ρ c (Proc.devRef .tc main_arg18) = m ((c : Thread nD τ).loc main_arg18) :=
  (W18_carry m ρ c main_arg18 (by decide)).trans (W17_keep_arg18 m ρ c)
theorem W19_keep_arg18 : W19 m ρ c (Proc.devRef .tc main_arg18) = m ((c : Thread nD τ).loc main_arg18) :=
  (W19_carry m ρ c main_arg18 (by decide)).trans (W18_keep_arg18 m ρ c)
theorem W20_keep_arg18 : W20 m ρ c (Proc.devRef .tc main_arg18) = m ((c : Thread nD τ).loc main_arg18) :=
  (W20_carry m ρ c main_arg18 (by decide)).trans (W19_keep_arg18 m ρ c)

/-! ## A buffer one segment writes and later ones read -/
theorem W2_keep_v1 : W2 m ρ c (Proc.devRef .tc main_v1) = W1 m ρ c (Proc.devRef .tc main_v1) :=
  (W2_carry m ρ c main_v1 (by decide))
theorem W3_keep_v1 : W3 m ρ c (Proc.devRef .tc main_v1) = W1 m ρ c (Proc.devRef .tc main_v1) :=
  (W3_carry m ρ c main_v1 (by decide)).trans (W2_keep_v1 m ρ c)
theorem W4_keep_v1 : W4 m ρ c (Proc.devRef .tc main_v1) = W1 m ρ c (Proc.devRef .tc main_v1) :=
  (W4_carry m ρ c main_v1 (by decide)).trans (W3_keep_v1 m ρ c)
theorem W5_keep_v1 : W5 m ρ c (Proc.devRef .tc main_v1) = W1 m ρ c (Proc.devRef .tc main_v1) :=
  (W5_carry m ρ c main_v1 (by decide)).trans (W4_keep_v1 m ρ c)
theorem W6_keep_v1 : W6 m ρ c (Proc.devRef .tc main_v1) = W1 m ρ c (Proc.devRef .tc main_v1) :=
  (W6_carry m ρ c main_v1 (by decide)).trans (W5_keep_v1 m ρ c)
theorem W7_keep_v1 : W7 m ρ c (Proc.devRef .tc main_v1) = W1 m ρ c (Proc.devRef .tc main_v1) :=
  (W7_carry m ρ c main_v1 (by decide)).trans (W6_keep_v1 m ρ c)
theorem W8_keep_v1 : W8 m ρ c (Proc.devRef .tc main_v1) = W1 m ρ c (Proc.devRef .tc main_v1) :=
  (W8_carry m ρ c main_v1 (by decide)).trans (W7_keep_v1 m ρ c)
theorem W9_keep_v1 : W9 m ρ c (Proc.devRef .tc main_v1) = W1 m ρ c (Proc.devRef .tc main_v1) :=
  (W9_carry m ρ c main_v1 (by decide)).trans (W8_keep_v1 m ρ c)
theorem W10_keep_v1 : W10 m ρ c (Proc.devRef .tc main_v1) = W1 m ρ c (Proc.devRef .tc main_v1) :=
  (W10_carry m ρ c main_v1 (by decide)).trans (W9_keep_v1 m ρ c)
theorem W11_keep_v1 : W11 m ρ c (Proc.devRef .tc main_v1) = W1 m ρ c (Proc.devRef .tc main_v1) :=
  (W11_carry m ρ c main_v1 (by decide)).trans (W10_keep_v1 m ρ c)
theorem W12_keep_v1 : W12 m ρ c (Proc.devRef .tc main_v1) = W1 m ρ c (Proc.devRef .tc main_v1) :=
  (W12_carry m ρ c main_v1 (by decide)).trans (W11_keep_v1 m ρ c)
theorem W13_keep_v1 : W13 m ρ c (Proc.devRef .tc main_v1) = W1 m ρ c (Proc.devRef .tc main_v1) :=
  (W13_carry m ρ c main_v1 (by decide)).trans (W12_keep_v1 m ρ c)
theorem W14_keep_v1 : W14 m ρ c (Proc.devRef .tc main_v1) = W1 m ρ c (Proc.devRef .tc main_v1) :=
  (W14_carry m ρ c main_v1 (by decide)).trans (W13_keep_v1 m ρ c)
theorem W15_keep_v1 : W15 m ρ c (Proc.devRef .tc main_v1) = W1 m ρ c (Proc.devRef .tc main_v1) :=
  (W15_carry m ρ c main_v1 (by decide)).trans (W14_keep_v1 m ρ c)
theorem W16_keep_v1 : W16 m ρ c (Proc.devRef .tc main_v1) = W1 m ρ c (Proc.devRef .tc main_v1) :=
  (W16_carry m ρ c main_v1 (by decide)).trans (W15_keep_v1 m ρ c)
theorem W2_keep_v3 : W2 m ρ c (Proc.devRef .tc main_v3) = W1 m ρ c (Proc.devRef .tc main_v3) :=
  (W2_carry m ρ c main_v3 (by decide))
theorem W3_keep_v3 : W3 m ρ c (Proc.devRef .tc main_v3) = W1 m ρ c (Proc.devRef .tc main_v3) :=
  (W3_carry m ρ c main_v3 (by decide)).trans (W2_keep_v3 m ρ c)
theorem W4_keep_v3 : W4 m ρ c (Proc.devRef .tc main_v3) = W1 m ρ c (Proc.devRef .tc main_v3) :=
  (W4_carry m ρ c main_v3 (by decide)).trans (W3_keep_v3 m ρ c)
theorem W5_keep_v3 : W5 m ρ c (Proc.devRef .tc main_v3) = W1 m ρ c (Proc.devRef .tc main_v3) :=
  (W5_carry m ρ c main_v3 (by decide)).trans (W4_keep_v3 m ρ c)
theorem W6_keep_v3 : W6 m ρ c (Proc.devRef .tc main_v3) = W1 m ρ c (Proc.devRef .tc main_v3) :=
  (W6_carry m ρ c main_v3 (by decide)).trans (W5_keep_v3 m ρ c)
theorem W7_keep_v3 : W7 m ρ c (Proc.devRef .tc main_v3) = W1 m ρ c (Proc.devRef .tc main_v3) :=
  (W7_carry m ρ c main_v3 (by decide)).trans (W6_keep_v3 m ρ c)
theorem W8_keep_v3 : W8 m ρ c (Proc.devRef .tc main_v3) = W1 m ρ c (Proc.devRef .tc main_v3) :=
  (W8_carry m ρ c main_v3 (by decide)).trans (W7_keep_v3 m ρ c)
theorem W9_keep_v3 : W9 m ρ c (Proc.devRef .tc main_v3) = W1 m ρ c (Proc.devRef .tc main_v3) :=
  (W9_carry m ρ c main_v3 (by decide)).trans (W8_keep_v3 m ρ c)
theorem W10_keep_v3 : W10 m ρ c (Proc.devRef .tc main_v3) = W1 m ρ c (Proc.devRef .tc main_v3) :=
  (W10_carry m ρ c main_v3 (by decide)).trans (W9_keep_v3 m ρ c)
theorem W11_keep_v3 : W11 m ρ c (Proc.devRef .tc main_v3) = W1 m ρ c (Proc.devRef .tc main_v3) :=
  (W11_carry m ρ c main_v3 (by decide)).trans (W10_keep_v3 m ρ c)
theorem W12_keep_v3 : W12 m ρ c (Proc.devRef .tc main_v3) = W1 m ρ c (Proc.devRef .tc main_v3) :=
  (W12_carry m ρ c main_v3 (by decide)).trans (W11_keep_v3 m ρ c)
theorem W13_keep_v3 : W13 m ρ c (Proc.devRef .tc main_v3) = W1 m ρ c (Proc.devRef .tc main_v3) :=
  (W13_carry m ρ c main_v3 (by decide)).trans (W12_keep_v3 m ρ c)
theorem W14_keep_v3 : W14 m ρ c (Proc.devRef .tc main_v3) = W1 m ρ c (Proc.devRef .tc main_v3) :=
  (W14_carry m ρ c main_v3 (by decide)).trans (W13_keep_v3 m ρ c)
theorem W15_keep_v3 : W15 m ρ c (Proc.devRef .tc main_v3) = W1 m ρ c (Proc.devRef .tc main_v3) :=
  (W15_carry m ρ c main_v3 (by decide)).trans (W14_keep_v3 m ρ c)
theorem W16_keep_v3 : W16 m ρ c (Proc.devRef .tc main_v3) = W1 m ρ c (Proc.devRef .tc main_v3) :=
  (W16_carry m ρ c main_v3 (by decide)).trans (W15_keep_v3 m ρ c)
theorem W17_keep_v3 : W17 m ρ c (Proc.devRef .tc main_v3) = W1 m ρ c (Proc.devRef .tc main_v3) :=
  (W17_carry m ρ c main_v3 (by decide)).trans (W16_keep_v3 m ρ c)
theorem W18_keep_v3 : W18 m ρ c (Proc.devRef .tc main_v3) = W1 m ρ c (Proc.devRef .tc main_v3) :=
  (W18_carry m ρ c main_v3 (by decide)).trans (W17_keep_v3 m ρ c)
theorem W19_keep_v3 : W19 m ρ c (Proc.devRef .tc main_v3) = W1 m ρ c (Proc.devRef .tc main_v3) :=
  (W19_carry m ρ c main_v3 (by decide)).trans (W18_keep_v3 m ρ c)
theorem W3_keep_v4 : W3 m ρ c (Proc.devRef .tc main_v4) = W2 m ρ c (Proc.devRef .tc main_v4) :=
  (W3_carry m ρ c main_v4 (by decide))
theorem W4_keep_v4 : W4 m ρ c (Proc.devRef .tc main_v4) = W2 m ρ c (Proc.devRef .tc main_v4) :=
  (W4_carry m ρ c main_v4 (by decide)).trans (W3_keep_v4 m ρ c)
theorem W5_keep_v4 : W5 m ρ c (Proc.devRef .tc main_v4) = W2 m ρ c (Proc.devRef .tc main_v4) :=
  (W5_carry m ρ c main_v4 (by decide)).trans (W4_keep_v4 m ρ c)
theorem W6_keep_v4 : W6 m ρ c (Proc.devRef .tc main_v4) = W2 m ρ c (Proc.devRef .tc main_v4) :=
  (W6_carry m ρ c main_v4 (by decide)).trans (W5_keep_v4 m ρ c)
theorem W4_keep_v5 : W4 m ρ c (Proc.devRef .tc main_v5) = W3 m ρ c (Proc.devRef .tc main_v5) :=
  (W4_carry m ρ c main_v5 (by decide))
theorem W5_keep_v5 : W5 m ρ c (Proc.devRef .tc main_v5) = W3 m ρ c (Proc.devRef .tc main_v5) :=
  (W5_carry m ρ c main_v5 (by decide)).trans (W4_keep_v5 m ρ c)
theorem W5_keep_v6 : W5 m ρ c (Proc.devRef .tc main_v6) = W4 m ρ c (Proc.devRef .tc main_v6) :=
  (W5_carry m ρ c main_v6 (by decide))
theorem W9_keep_v14 : W9 m ρ c (Proc.devRef .tc main_v14) = W8 m ρ c (Proc.devRef .tc main_v14) :=
  (W9_carry m ρ c main_v14 (by decide))
theorem W10_keep_v14 : W10 m ρ c (Proc.devRef .tc main_v14) = W8 m ρ c (Proc.devRef .tc main_v14) :=
  (W10_carry m ρ c main_v14 (by decide)).trans (W9_keep_v14 m ρ c)
theorem W11_keep_v14 : W11 m ρ c (Proc.devRef .tc main_v14) = W8 m ρ c (Proc.devRef .tc main_v14) :=
  (W11_carry m ρ c main_v14 (by decide)).trans (W10_keep_v14 m ρ c)
theorem W12_keep_v14 : W12 m ρ c (Proc.devRef .tc main_v14) = W8 m ρ c (Proc.devRef .tc main_v14) :=
  (W12_carry m ρ c main_v14 (by decide)).trans (W11_keep_v14 m ρ c)
theorem W10_keep_v15 : W10 m ρ c (Proc.devRef .tc main_v15) = W9 m ρ c (Proc.devRef .tc main_v15) :=
  (W10_carry m ρ c main_v15 (by decide))
theorem W11_keep_v15 : W11 m ρ c (Proc.devRef .tc main_v15) = W9 m ρ c (Proc.devRef .tc main_v15) :=
  (W11_carry m ρ c main_v15 (by decide)).trans (W10_keep_v15 m ρ c)
theorem W11_keep_v16 : W11 m ρ c (Proc.devRef .tc main_v16) = W10 m ρ c (Proc.devRef .tc main_v16) :=
  (W11_carry m ρ c main_v16 (by decide))
theorem W15_keep_v24 : W15 m ρ c (Proc.devRef .tc main_v24) = W14 m ρ c (Proc.devRef .tc main_v24) :=
  (W15_carry m ρ c main_v24 (by decide))
theorem W16_keep_v24 : W16 m ρ c (Proc.devRef .tc main_v24) = W14 m ρ c (Proc.devRef .tc main_v24) :=
  (W16_carry m ρ c main_v24 (by decide)).trans (W15_keep_v24 m ρ c)
theorem W17_keep_v24 : W17 m ρ c (Proc.devRef .tc main_v24) = W14 m ρ c (Proc.devRef .tc main_v24) :=
  (W17_carry m ρ c main_v24 (by decide)).trans (W16_keep_v24 m ρ c)
theorem W18_keep_v24 : W18 m ρ c (Proc.devRef .tc main_v24) = W14 m ρ c (Proc.devRef .tc main_v24) :=
  (W18_carry m ρ c main_v24 (by decide)).trans (W17_keep_v24 m ρ c)
theorem W16_keep_v25 : W16 m ρ c (Proc.devRef .tc main_v25) = W15 m ρ c (Proc.devRef .tc main_v25) :=
  (W16_carry m ρ c main_v25 (by decide))
theorem W17_keep_v25 : W17 m ρ c (Proc.devRef .tc main_v25) = W15 m ρ c (Proc.devRef .tc main_v25) :=
  (W17_carry m ρ c main_v25 (by decide)).trans (W16_keep_v25 m ρ c)
theorem W17_keep_v26 : W17 m ρ c (Proc.devRef .tc main_v26) = W16 m ρ c (Proc.devRef .tc main_v26) :=
  (W17_carry m ρ c main_v26 (by decide))

end Cert.KernelIdeal.Fold

end
-- ==== Proof.FoldWrites.lean ====
/-
  The host operations around the three calls, each stretch read as one function of the buffers it reads.

  After a call, the messages of the edges are summed into their target nodes, the sums are added to the node array and
  the negative part is cut off: one layer's update. After the third layer every graph's node rows are averaged and an
  affine map of the 128 features gives the result. Both are stated once, over any array contents, so that the same
  two functions describe all three layers and, later, the other program's operations.
-/
import proofs.«419282_j17575006175633_1_alg».proof.Proof.Gen.KernelIdeal.Launch
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]

/-- One layer's update of the node array: the array plus, at each node, the sum of the messages of the edges that
    point at it, then the positive part. -/
def aggregate (h : FVec F S32000x128 .f32) (dst : IVec S320000 32) (msg : FVec F S320000x128 .f32) : FVec F S32000x128 .f32 :=
  maximumf
    (addf h
      (Host.scatterAdd scatter_S32000x128_S320000x1_S320000x128_1_0_0_1
        (broadcastInDim S32000x128 ![] bcast_S_S32000x128 (constant S_ .f32 0#32))
        (broadcastInDim S320000x1 ![0] bcast_S320000_S320000x1_0 dst) msg))
    (broadcastInDim S32000x128 ![] bcast_S_S32000x128 (constant S_ .f32 0#32))

/-- The readout: per graph the mean of its nodes' rows (the sum over the graph's nodes by the node count, a count below 1
    taken as 1), then an affine map of the 128 features. -/
def readout (h : FVec F S32000x128 .f32) (batch : IVec S32000 32) (Wlin : FVec F S128x128 .f32) (blin : FVec F S128 .f32) :
    FVec F S1600x128 .f32 :=
  addf
    (Host.dotGeneral dot_S1600x128_S128x128_S1600x128_1_0_0_1_n_n none
      (Host.divf
        (Host.scatterAdd scatter_S1600x128_S32000x1_S32000x128_1_0_0_1
          (broadcastInDim S1600x128 ![] bcast_S_S1600x128 (constant S_ .f32 0#32))
          (broadcastInDim S32000x1 ![0] bcast_S32000_S32000x1_0 batch) h)
        (broadcastInDim S1600x128 ![0, 1] bcast_S1600x1_S1600x128_0_1
          (broadcastInDim S1600x1 ![0] bcast_S1600_S1600x1_0
            (maximumf
              (Host.scatterAdd scatter_S1600_S32000x1_S32000_n_0_0_1
                (broadcastInDim S1600 ![] bcast_S_S1600 (constant S_ .f32 0#32))
                (broadcastInDim S32000x1 ![0] bcast_S32000_S32000x1_0 batch)
                (broadcastInDim S32000 ![] bcast_S_S32000 (constant S_ .f32 1065353216#32)))
              (broadcastInDim S1600 ![] bcast_S_S1600 (constant S_ .f32 1065353216#32))))))
      Wlin)
    (broadcastInDim S1600x128 ![0, 1] bcast_S1x128_S1600x128_0_1 (broadcastInDim S1x128 ![1] bcast_S128_S1x128_1 blin))

set_option maxHeartbeats 800000 in
/-- Layer 1: the two stretches after the call (the scattered sum added to the node array, then the positive part)
    leave the node array updated by the call's messages. -/
theorem after_update_1 (V : Valuation τ sig (Elt F)) :
    StableHlo.after (hostOps1_1 (F := F)) (StableHlo.after (hostOps1 (F := F)) V) (Proc.devRef .tc main_v14)
      = aggregate (V (Proc.devRef .tc main_v4)) (V (Proc.devRef .tc main_v3)) (V (Proc.devRef .tc main_v9)) := by
  dsimp only [hostOps1_1, hostOps1]
  after_results
  try simp only [TRef.ofBuf, TRef.toBuf, cast_eq]
  rfl

set_option maxHeartbeats 800000 in
/-- Layer 2: the two stretches after the call (the scattered sum added to the node array, then the positive part)
    leave the node array updated by the call's messages. -/
theorem after_update_2 (V : Valuation τ sig (Elt F)) :
    StableHlo.after (hostOps2_1 (F := F)) (StableHlo.after (hostOps2 (F := F)) V) (Proc.devRef .tc main_v24)
      = aggregate (V (Proc.devRef .tc main_v14)) (V (Proc.devRef .tc main_v3)) (V (Proc.devRef .tc main_v19)) := by
  dsimp only [hostOps2_1, hostOps2]
  after_results
  try simp only [TRef.ofBuf, TRef.toBuf, cast_eq]
  rfl

set_option maxHeartbeats 800000 in
/-- Layer 3: the two stretches after the call (the scattered sum added to the node array, then the positive part)
    leave the node array updated by the call's messages. -/
theorem after_update_3 (V : Valuation τ sig (Elt F)) :
    StableHlo.after (hostOps3_1 (F := F)) (StableHlo.after (hostOps3 (F := F)) V) (Proc.devRef .tc main_v34)
      = aggregate (V (Proc.devRef .tc main_v24)) (V (Proc.devRef .tc main_v3)) (V (Proc.devRef .tc main_v29)) := by
  dsimp only [hostOps3_1, hostOps3]
  after_results
  try simp only [TRef.ofBuf, TRef.toBuf, cast_eq]
  rfl

set_option maxHeartbeats 800000 in
/-- The last stretch leaves the readout of the third layer's node array in the result buffer. -/
theorem after_readout (V : Valuation τ sig (Elt F)) :
    StableHlo.after (hostOps3_2 (F := F)) V (Proc.devRef .tc main_v50)
      = readout (V (Proc.devRef .tc main_v34)) (V (Proc.devRef .tc main_arg3)) (V (Proc.devRef .tc main_arg17)) (V (Proc.devRef .tc main_arg18)) := by
  dsimp only [hostOps3_2]
  after_results
  rfl

end Cert.KernelIdeal.Fold

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.TakeDefs.lean ====
/-
  The row lookups of the program, and when their fill never shows.

  A row lookup into a table of N rows first counts a negative index from the end, then gathers the rows at the
  resulting start words (the gather clamps a word into [0, N − 1]), and last replaces every row whose start word lies
  outside [0, N − 1] by a not-a-number. Where every index lies in [0, N) the first step moves no word and the test of
  the last holds on every row, so the lookup is the bare gather. The test is integer arithmetic only: nothing here
  depends on how the floats are read.

  The program looks 32000 rows up in a table of 100 once, and 320000 rows up in a table of 32000 six times (two per
  layer: by row 1 and by row 0 of the edge index array); the two functions are written here, each of its table and
  its index array alone.
-/
import proofs.«419282_j17575006175633_1_alg».proof.Proof.Gen.KernelIdeal
import proofs.«419282_j17575006175633_1_alg».proof.Proof.LibRowGatherScatter
import Idealize.ShloMosaic.Lib.ReduceAll
import Idealize.ShloMosaic.Lib.ValueIdx
import Idealize.ShloMosaic.Lib.ValueLayout

noncomputable section

namespace Cert.KernelIdeal.Takes

open Cert.KernelIdeal Cert.KernelIdeal.Gen
open Idealize.ShloMosaic Idealize.ShloMosaic.ValueIdx

variable {F : FTy → Type} [FloatOps F]

/-- The start words of the 32000 lookups into a table of 100 rows, as a column: a negative word counts from the end. -/
def wrapColEmb (x : IVec S32000 32) : IVec S32000x1 32 :=
  broadcastInDim S32000x1 ![0] bcast_S32000_S32000x1_0
    (select (cmpi .slt x (broadcastInDim S32000 ![] bcast_S_S32000 (constantI S_ 32 0#32)))
      (addi x (broadcastInDim S32000 ![] bcast_S_S32000 (constantI S_ 32 100#32))) x)

/-- The lookup with its fill: the gathered rows where the start word is a row of the table, a not-a-number elsewhere. -/
def takeEmb (T : FVec F S100x128 .f32) (x : IVec S32000 32) : FVec F S32000x128 .f32 :=
  select
    (broadcastInDim S32000x128 ![0] bcast_S32000_S32000x128_0
      (Host.reduce IntOp.andi
        (andi (cmpi .sge (wrapColEmb x) (broadcastInDim S32000x1 ![] bcast_S_S32000x1 (constantI S_ 32 0#32)))
              (cmpi .sle (wrapColEmb x) (broadcastInDim S32000x1 ![0, 1] bcast_S1x1_S32000x1_0_1
                (broadcastInDim S1x1 ![1] bcast_S1_S1x1_1 (constantI S1 32 99#32)))))
        (constantI S_ 1 1#1) reducesTo_S32000x1_S32000_d1 h_S_))
    (Host.gather gather_S100x128_S32000x1_S32000x128_1_0_n_n_0_1_1128 T (wrapColEmb x))
    (broadcastInDim S32000x128 ![] bcast_S_S32000x128 (constant (F := F) S_ .f32 0x7FC00000#32))

/-- The lookup without the fill. -/
def gatherEmb (T : FVec F S100x128 .f32) (x : IVec S32000 32) : FVec F S32000x128 .f32 :=
  Host.gather gather_S100x128_S32000x1_S32000x128_1_0_n_n_0_1_1128 T (wrapColEmb x)

/-- The start words of the 320000 lookups into a table of 32000 rows, as a column: a negative word counts from the end. -/
def wrapColNode (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 32000#32))) idx)

/-- The lookup with its fill: the gathered rows where the start word is a row of the table, a not-a-number elsewhere. -/
def takeNode (T : FVec F S32000x128 .f32) (idx : IVec S320000 32) : FVec F S320000x128 .f32 :=
  select
    (broadcastInDim S320000x128 ![0] bcast_S320000_S320000x128_0
      (Host.reduce IntOp.andi
        (andi (cmpi .sge (wrapColNode idx) (broadcastInDim S320000x1 ![] bcast_S_S320000x1 (constantI S_ 32 0#32)))
              (cmpi .sle (wrapColNode idx) (broadcastInDim S320000x1 ![0, 1] bcast_S1x1_S320000x1_0_1
                (broadcastInDim S1x1 ![1] bcast_S1_S1x1_1 (constantI S1 32 31999#32)))))
        (constantI S_ 1 1#1) reducesTo_S320000x1_S320000_d1 h_S_))
    (Host.gather gather_S32000x128_S320000x1_S320000x128_1_0_n_n_0_1_1128 T (wrapColNode idx))
    (broadcastInDim S320000x128 ![] bcast_S_S320000x128 (constant (F := F) S_ .f32 0x7FC00000#32))

/-- The lookup without the fill. -/
def gatherNode (T : FVec F S32000x128 .f32) (idx : IVec S320000 32) : FVec F S320000x128 .f32 :=
  Host.gather gather_S32000x128_S320000x1_S320000x128_1_0_n_n_0_1_1128 T (wrapColNode idx)

/-! ## A lookup whose every start word is a row of the table: the fill never shows -/

section Generic
open Cert.ReferenceIdeal.Hand
variable {α : Type} {E D : Nat}

/-- A vector over the rows spread along D features, at (e, q): the vector at e. -/
theorem bcastAlongFeat_apply (h : (⟨1, ![E]⟩ : Shape).BroadcastsInDim ⟨2, ![E, D]⟩ ![0])
    (v : (⟨1, ![E]⟩ : Shape).Idx → α) (e : Fin E) (q : Fin D) :
    broadcastInDim ⟨2, ![E, D]⟩ ![0] h v (ix2 e q) = v (ix1 e) := by
  refine broadcastInDim_apply _ h v _ (ix1 e) fun a => ?_
  match a with
  | ⟨0, _⟩ =>
    show e.val = if E = 1 then 0 else e.val
    have := e.isLt
    split <;> omega

/-- A fold by "and" from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The "and" along the one-entry axis of a column of bits, at row e, is 1 when the column's entry at e is. -/
theorem reduce_andi_col_one (hred : (⟨2, ![E, 1]⟩ : Shape).ReducesTo [1] ⟨1, ![E]⟩) (hu : 0 < (⟨0, ![]⟩ : Shape).numel)
    (m : IVec ⟨2, ![E, 1]⟩ 1) (e : Fin E) (hm : m (ix2 e 0) = 1#1) :
    Host.reduce IntOp.andi m (constantI ⟨0, ![]⟩ 1 1#1) hred hu (ix1 e) = 1#1 := by
  rw [Host.reduce_eq_foldl]
  refine foldl_andi_one m _ fun i hi => ?_
  have hd : hred.drop i = ix1 e := by simpa using (List.mem_filter.mp hi).2
  have h0 : (i 0).val = e.val := by
    have h := hred.drop_apply_val_of_eq i 0 0 (by exact Nat.zero_lt_one) rfl
    rw [hd] at h
    exact h.symm
  have hi2 : i = ix2 e 0 := funext fun a => Fin.ext (by
    match a with
    | ⟨0, _⟩ => exact h0
    | ⟨1, _⟩ =>
      show (i 1).val = 0
      have : (i 1).val < 1 := (i 1).isLt
      omega)
  rw [hi2]
  exact hm

/-- The bit "the start word is a row of the table", at row e, is 1 when the word, read signed, lies between 0 and the
    last row. -/
theorem take_mask_one (hs1 : (⟨0, ![]⟩ : Shape).BroadcastsInDim ⟨2, ![E, 1]⟩ ![])
    (h11 : (⟨1, ![1]⟩ : Shape).BroadcastsInDim ⟨2, ![1, 1]⟩ ![1])
    (h1E : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (col : IVec ⟨2, ![E, 1]⟩ 32) (last : BitVec 32) (e : Fin E)
    (h0 : 0 ≤ (col (ix2 e 0)).toInt) (h1 : (col (ix2 e 0)).toInt ≤ last.toInt) :
    Host.reduce IntOp.andi
        (andi (cmpi .sge col (broadcastInDim ⟨2, ![E, 1]⟩ ![] hs1 (constantI ⟨0, ![]⟩ 32 0#32)))
          (cmpi .sle col (broadcastInDim ⟨2, ![E, 1]⟩ ![0, 1] h1E
            (broadcastInDim ⟨2, ![1, 1]⟩ ![1] h11 (constantI ⟨1, ![1]⟩ 32 last)))))
        (constantI ⟨0, ![]⟩ 1 1#1) hred hu (ix1 e) = 1#1 := by
  refine reduce_andi_col_one hred hu _ e ?_
  show IntOp.andi
      (IntOp.cmpi .sge (col (ix2 e 0)) (broadcastInDim ⟨2, ![E, 1]⟩ ![] hs1 (constantI ⟨0, ![]⟩ 32 0#32) (ix2 e 0)))
      (IntOp.cmpi .sle (col (ix2 e 0)) (broadcastInDim ⟨2, ![E, 1]⟩ ![0, 1] h1E
        (broadcastInDim ⟨2, ![1, 1]⟩ ![1] h11 (constantI ⟨1, ![1]⟩ 32 last)) (ix2 e 0))) = 1#1
  rw [bcastScalar_apply, bcastRows_apply, bcastRow_apply, constantI_apply, constantI_apply]
  exact IntOp.andi_eq_one.mpr ⟨IntOp.cmpi_sge.mpr (by simpa using h0), IntOp.cmpi_sle.mpr h1⟩

/-- The start word of row e, where the index is not negative: the index itself. -/
theorem wrapCol_apply (h0E : (⟨0, ![]⟩ : Shape).BroadcastsInDim ⟨1, ![E]⟩ ![])
    (hcol : (⟨1, ![E]⟩ : Shape).BroadcastsInDim ⟨2, ![E, 1]⟩ ![0]) (x : IVec ⟨1, ![E]⟩ 32) (n : BitVec 32) (e : Fin E)
    (hx : 0 ≤ (x (ix1 e)).toInt) :
    broadcastInDim ⟨2, ![E, 1]⟩ ![0] hcol
        (select (cmpi .slt x (broadcastInDim ⟨1, ![E]⟩ ![] h0E (constantI ⟨0, ![]⟩ 32 0#32)))
          (addi x (broadcastInDim ⟨1, ![E]⟩ ![] h0E (constantI ⟨0, ![]⟩ 32 n))) x) (ix2 e 0) = x (ix1 e) := by
  rw [bcastCol_apply, select_apply]
  show Scalar.select
      (IntOp.cmpi .slt (x (ix1 e)) (broadcastInDim ⟨1, ![E]⟩ ![] h0E (constantI ⟨0, ![]⟩ 32 0#32) (ix1 e)))
      (IntOp.addi (x (ix1 e)) (broadcastInDim ⟨1, ![E]⟩ ![] h0E (constantI ⟨0, ![]⟩ 32 n) (ix1 e))) (x (ix1 e)) = _
  rw [bcastScalar_apply, bcastScalar_apply, constantI_apply, constantI_apply, wrap_select, if_neg (not_lt.mpr hx)]

/-- A select on a bit per row spread along the features, the bit 1 on every row, is its first branch. -/
theorem select_all_one (hmE : (⟨1, ![E]⟩ : Shape).BroadcastsInDim ⟨2, ![E, D]⟩ ![0]) (mask : IVec ⟨1, ![E]⟩ 1)
    (g fill : (⟨2, ![E, D]⟩ : Shape).Idx → α) (hm : ∀ e : Fin E, mask (ix1 e) = 1#1) :
    select (broadcastInDim ⟨2, ![E, D]⟩ ![0] hmE mask) g fill = g := by
  funext j
  obtain ⟨e, q, rfl⟩ : ∃ (e : Fin E) (q : Fin D), j = ix2 e q := ⟨j 0, j 1, eq_ix2 j⟩
  rw [select_apply, bcastAlongFeat_apply, hm e, select_one]
end Generic

/-! ## The two lookups of the program -/

/-- Where every index is a row of the 100-row table, the lookup with its fill is the bare lookup. -/
theorem takeEmb_eq_gather (T : FVec F S100x128 .f32) (x : IVec S32000 32)
    (hx : ∀ i : S32000.Idx, 0 ≤ (x i).toInt ∧ (x i).toInt < 100) : takeEmb T x = gatherEmb T x := by
  unfold takeEmb gatherEmb
  refine select_all_one _ _ _ _ fun e => ?_
  have hw : wrapColEmb x (ix2 e 0) = x (ix1 e) := wrapCol_apply _ _ x _ e (hx _).1
  refine take_mask_one _ _ _ _ _ (wrapColEmb x) 99#32 e ?_ ?_
  · rw [hw]; exact (hx _).1
  · rw [hw]
    have h := (hx (ix1 e)).2
    have h99 : (99#32 : BitVec 32).toInt = 99 := by decide
    omega

/-- Where every index is a row of the 32000-row table, the lookup with its fill is the bare lookup. -/
theorem takeNode_eq_gather (T : FVec F S32000x128 .f32) (idx : IVec S320000 32)
    (h : ∀ e : S320000.Idx, 0 ≤ (idx e).toInt ∧ (idx e).toInt < 32000) : takeNode T idx = gatherNode T idx := by
  unfold takeNode gatherNode
  refine select_all_one _ _ _ _ fun e => ?_
  have hw : wrapColNode idx (ix2 e 0) = idx (ix1 e) := wrapCol_apply _ _ idx _ e (h _).1
  refine take_mask_one _ _ _ _ _ (wrapColNode idx) 31999#32 e ?_ ?_
  · rw [hw]; exact (h _).1
  · rw [hw]
    have h' := (h (ix1 e)).2
    have hl : (31999#32 : BitVec 32).toInt = 31999 := by decide
    omega

end Cert.KernelIdeal.Takes

end
-- ==== Proof.TakeWrites.lean ====
/-
  What each row-lookup stretch of the program leaves in its result.

  The program looks 32000 rows up in a table of 100 once, and 320000 rows up in a table of 32000 six times (two per
  layer: by row 1 and by row 0 of the edge index array). Each such stretch of host operations, run from any valuation,
  leaves in its result the lookup, as one function of the table and the index array it reads.
-/
import proofs.«419282_j17575006175633_1_alg».proof.Proof.TakeDefs
import proofs.«419282_j17575006175633_1_alg».proof.Proof.Gen.KernelIdeal.Launch
import Idealize.ShloMosaic.Lib.StableHlo.Run

set_option maxRecDepth 16384

noncomputable section

namespace Cert.KernelIdeal.Takes

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]

set_option maxHeartbeats 1600000 in
/-- The stretch of the 32000-row lookup, run from any valuation: the lookup of its index array in its table. -/
theorem after_take_emb (V : Valuation τ sig (Elt F)) :
    StableHlo.after (hostOps0_1 (F := F)) V (Proc.devRef .tc main_v4)
      = takeEmb (F := F) (V (Proc.devRef .tc main_arg4)) (V (Proc.devRef .tc main_arg0)) := by
  dsimp only [hostOps0_1]
  after_results
  simp only [TRef.ofBuf, TRef.toBuf, cast_eq]
  unfold takeEmb wrapColEmb
  with_reducible rfl

set_option maxHeartbeats 3200000 in
/-- The first layer's lookup by row 1 of the edge index array. -/
theorem after_take_1d (V : Valuation τ sig (Elt F)) :
    StableHlo.after (hostOps0_2 (F := F)) V (Proc.devRef .tc main_v5)
      = takeNode (F := F) (V (Proc.devRef .tc main_v4)) (V (Proc.devRef .tc main_v3)) := by
  dsimp only [hostOps0_2]
  after_results
  simp only [TRef.ofBuf, TRef.toBuf, cast_eq]
  unfold takeNode wrapColNode
  with_reducible rfl

set_option maxHeartbeats 3200000 in
/-- The first layer's lookup by row 0 of the edge index array. -/
theorem after_take_1s (V : Valuation τ sig (Elt F)) :
    StableHlo.after (hostOps0_3 (F := F)) V (Proc.devRef .tc main_v6)
      = takeNode (F := F) (V (Proc.devRef .tc main_v4)) (V (Proc.devRef .tc main_v1)) := by
  dsimp only [hostOps0_3]
  after_results
  simp only [TRef.ofBuf, TRef.toBuf, cast_eq]
  unfold takeNode wrapColNode
  with_reducible rfl

set_option maxHeartbeats 3200000 in
/-- The second layer's lookup by row 1. -/
theorem after_take_2d (V : Valuation τ sig (Elt F)) :
    StableHlo.after (hostOps1_2 (F := F)) V (Proc.devRef .tc main_v15)
      = takeNode (F := F) (V (Proc.devRef .tc main_v14)) (V (Proc.devRef .tc main_v3)) := by
  dsimp only [hostOps1_2]
  after_results
  simp only [TRef.ofBuf, TRef.toBuf, cast_eq]
  unfold takeNode wrapColNode
  with_reducible rfl

set_option maxHeartbeats 3200000 in
/-- The second layer's lookup by row 0. -/
theorem after_take_2s (V : Valuation τ sig (Elt F)) :
    StableHlo.after (hostOps1_3 (F := F)) V (Proc.devRef .tc main_v16)
      = takeNode (F := F) (V (Proc.devRef .tc main_v14)) (V (Proc.devRef .tc main_v1)) := by
  dsimp only [hostOps1_3]
  after_results
  simp only [TRef.ofBuf, TRef.toBuf, cast_eq]
  unfold takeNode wrapColNode
  with_reducible rfl

set_option maxHeartbeats 3200000 in
/-- The third layer's lookup by row 1. -/
theorem after_take_3d (V : Valuation τ sig (Elt F)) :
    StableHlo.after (hostOps2_2 (F := F)) V (Proc.devRef .tc main_v25)
      = takeNode (F := F) (V (Proc.devRef .tc main_v24)) (V (Proc.devRef .tc main_v3)) := by
  dsimp only [hostOps2_2]
  after_results
  simp only [TRef.ofBuf, TRef.toBuf, cast_eq]
  unfold takeNode wrapColNode
  with_reducible rfl

set_option maxHeartbeats 3200000 in
/-- The third layer's lookup by row 0. -/
theorem after_take_3s (V : Valuation τ sig (Elt F)) :
    StableHlo.after (hostOps2_3 (F := F)) V (Proc.devRef .tc main_v26)
      = takeNode (F := F) (V (Proc.devRef .tc main_v24)) (V (Proc.devRef .tc main_v1)) := by
  dsimp only [hostOps2_3]
  after_results
  simp only [TRef.ofBuf, TRef.toBuf, cast_eq]
  unfold takeNode wrapColNode
  with_reducible rfl

end Cert.KernelIdeal.Takes

end
-- ==== Proof.MessageSpec.lean ====
/-
  The per-edge gated message of one crystal-graph convolution layer, as one function of the arrays it reads,
  entry by entry over the extended reals.

  For an edge e the three feature rows it reads — the target node's 128 features, the source node's 128 features and
  the edge's own 32 radial features — are laid side by side into one row of 288 numbers. Two affine maps of that row,
  each a 288 × 128 matrix and a bias of 128 numbers, give a gate argument f and a core argument s for every output
  feature q; the message is  logistic f · softplus s.  The number of edges E is arbitrary: the same function describes
  a block of rows of the edge arrays and the arrays whole.

  The softplus arrives spelled as  select (d ≠ d) (s + 0) (max s 0 + log1p (exp (−|d|)))  with d = s − 0: the first
  branch answers a not-a-number difference, and the extended reals have none, so the test never holds and what is left
  is  max s 0 + log (1 + e^(−|s|)),  with |s| = max s (−s).  One spelling negates |d|, the other subtracts it from 0, one
  tests "ordered and different", the other "unordered or different": all four meet in the same value.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Message

open Idealize.ShloMosaic Idealize.ShloMosaic.ValueIdx

/-- Feature k of the row of 288 numbers edge e reads: the target node's features, then the source node's, then the
    edge's own. -/
def zrow {E : Nat} (hd hs : (⟨2, ![E, 128]⟩ : Shape).Idx → EReal) (ea : (⟨2, ![E, 32]⟩ : Shape).Idx → EReal)
    (e : Fin E) (k : Fin 288) : EReal :=
  if h : k.val < 128 then hd (ix2 e ⟨k.val, h⟩)
  else if h2 : k.val < 256 then hs (ix2 e ⟨k.val - 128, by omega⟩)
  else ea (ix2 e ⟨k.val - 256, by omega⟩)

/-- An affine map of a row of 288 numbers at output feature q: the row against column q of the matrix, plus the bias. -/
def affine (z : Fin 288 → EReal) (W : (⟨2, ![288, 128]⟩ : Shape).Idx → EReal) (b : Fin 128 → EReal) (q : Fin 128) : EReal :=
  (∑ k : Fin 288, z k * W (ix2 k q)) + b q

/-- softplus on the extended reals: max s 0 + log (1 + e^(−|s|)). -/
def softplus (s : EReal) : EReal := max s 0 + Ideal.log1p (Ideal.exp (-(max s (-s))))

/-- The message of edge e at output feature q. -/
def message {E : Nat} (hd hs : (⟨2, ![E, 128]⟩ : Shape).Idx → EReal) (ea : (⟨2, ![E, 32]⟩ : Shape).Idx → EReal)
    (Wf : (⟨2, ![288, 128]⟩ : Shape).Idx → EReal) (bf : Fin 128 → EReal)
    (Ws : (⟨2, ![288, 128]⟩ : Shape).Idx → EReal) (bs : Fin 128 → EReal) (e : Fin E) (q : Fin 128) : EReal :=
  Ideal.logistic (affine (zrow hd hs ea e) Wf bf q) * softplus (affine (zrow hd hs ea e) Ws bs q)

/-- No extended real differs from itself, whichever of the two "different" tests asks. -/
theorem cmp_one_self (d : EReal) : Ideal.cmp .one d d = 0#1 := by simp [Ideal.cmp]

theorem cmp_une_self (d : EReal) : Ideal.cmp .une d d = 0#1 := by simp [Ideal.cmp]

/-- The spelling that subtracts |d| from 0 and tests "ordered and different". -/
theorem softplus_of_sub (s : EReal) :
    Scalar.select (Ideal.cmp .one (s - 0) (s - 0)) (s + 0)
      (max s 0 + Ideal.log1p (Ideal.exp (0 - max (s - 0) (-(s - 0))))) = softplus s := by
  rw [cmp_one_self, select_zero, sub_zero, zero_sub]
  rfl

/-- The spelling that negates |d| and tests "unordered or different". -/
theorem softplus_of_neg (s : EReal) :
    Scalar.select (Ideal.cmp .une (s - 0) (s - 0)) (s + 0)
      (max s 0 + Ideal.log1p (Ideal.exp (-(max (s - 0) (-(s - 0)))))) = softplus s := by
  rw [cmp_une_self, select_zero, sub_zero]
  rfl

end Cert.Message

end
-- ==== Proof.ConcatRow.lean ====
import Idealize.ShloMosaic.Lib.Pipeline.Value
import proofs.«419282_j17575006175633_1_alg».proof.Proof.MessageSpec

noncomputable section

namespace Cert.Message

open Idealize.ShloMosaic Idealize.ShloMosaic.ValueIdx

/-- Three arrays of E rows laid side by side along the feature axis, 128 + 128 + 32 features, read at row e and
    feature k: the piece whose span holds k, at k counted from that piece's first feature. -/
theorem concat_row {E : Nat} (a b : (⟨2, ![E, 128]⟩ : Shape).Idx → EReal) (c : (⟨2, ![E, 32]⟩ : Shape).Idx → EReal)
    (h : Shape.Concatenates [(⟨2, ![E, 128]⟩ : Shape), ⟨2, ![E, 128]⟩, ⟨2, ![E, 32]⟩] ⟨2, ![E, 288]⟩ (1 : Fin 2))
    (e : Fin E) (k : Fin 288) :
    concatenate (⟨2, ![E, 288]⟩ : Shape) 1 [⟨⟨2, ![E, 128]⟩, a⟩, ⟨⟨2, ![E, 128]⟩, b⟩, ⟨⟨2, ![E, 32]⟩, c⟩] h (ix2 e k)
      = zrow a b c e k := by
  unfold zrow
  split
  · next h1 =>
    -- the first piece: features 0 … 127
    refine concatenate_apply_piece (t := ⟨2, ![E, 288]⟩) (1 : Fin 2)
      [⟨⟨2, ![E, 128]⟩, a⟩, ⟨⟨2, ![E, 128]⟩, b⟩, ⟨⟨2, ![E, 32]⟩, c⟩] h (ix2 e k) 0 (by simp) ⟨2, ![E, 128]⟩ a rfl rfl 0 rfl
      (ix2 e ⟨k.val, h1⟩) ?_ ?_
    · intro d hd
      match d, hd with
      | ⟨0, _⟩, _ => rfl
      | ⟨1, _⟩, hd => exact absurd rfl hd
    · exact Nat.zero_add _
  · next h1 =>
    split
    · next h2 =>
      -- the second piece: features 128 … 255, counted from 128
      refine concatenate_apply_piece (t := ⟨2, ![E, 288]⟩) (1 : Fin 2)
        [⟨⟨2, ![E, 128]⟩, a⟩, ⟨⟨2, ![E, 128]⟩, b⟩, ⟨⟨2, ![E, 32]⟩, c⟩] h (ix2 e k) 1 (by simp) ⟨2, ![E, 128]⟩ b rfl rfl 128 rfl
        (ix2 e ⟨k.val - 128, by omega⟩) ?_ ?_
      · intro d hd
        match d, hd with
        | ⟨0, _⟩, _ => rfl
        | ⟨1, _⟩, hd => exact absurd rfl hd
      · show 128 + (k.val - 128) = k.val
        omega
    · next h2 =>
      -- the third piece: features 256 … 287, counted from 256
      refine concatenate_apply_piece (t := ⟨2, ![E, 288]⟩) (1 : Fin 2)
        [⟨⟨2, ![E, 128]⟩, a⟩, ⟨⟨2, ![E, 128]⟩, b⟩, ⟨⟨2, ![E, 32]⟩, c⟩] h (ix2 e k) 2 (by simp) ⟨2, ![E, 32]⟩ c rfl rfl 256 rfl
        (ix2 e ⟨k.val - 256, by omega⟩) ?_ ?_
      · intro d hd
        match d, hd with
        | ⟨0, _⟩, _ => rfl
        | ⟨1, _⟩, hd => exact absurd rfl hd
      · show 256 + (k.val - 256) = k.val
        omega

end Cert.Message

end
-- ==== Proof.BodyBlock.lean ====
/-
  What one grid point of each layer's call leaves in its output block, entry by entry over the extended reals.

  The body lays its three input blocks side by side into a block of 4000 rows of 288 numbers, takes two affine maps
  of every row (a 288 × 128 matrix and a one-row bias each), and multiplies the logistic of the first by the softplus
  of the second. Read at row p and output feature q this is the message of MessageSpec for row p of the blocks:
  the contraction is the sum over the 288 features, the bias row is the same on every row, the side-by-side row is
  the row of ConcatRow, and the softplus's test for a not-a-number difference never holds. The three layers' bodies
  are the same function of their seven blocks, so one statement about that function serves all three.
-/
import proofs.«419282_j17575006175633_1_alg».proof.Proof.Gen.KernelIdeal.Frame
import proofs.«419282_j17575006175633_1_alg».proof.Proof.MessageSpec
import proofs.«419282_j17575006175633_1_alg».proof.Proof.ConcatRow
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Idealize.ShloMosaic Idealize.ShloMosaic.ValueIdx Cert.KernelIdeal Cert.KernelIdeal.Gen

/-! ## The contraction of a 4000 × 288 block with a 288 × 128 matrix, at an entry -/

/-- The left operand is read at the output's row … -/
theorem lhs_dot_0 (i : S4000x128.Idx) (c : dot_S4000x288_S288x128_S4000x128_1_0_0_1_n_n.contr.Idx) :
    (dot_S4000x288_S288x128_S4000x128_1_0_0_1_n_n.lhsIdx i c 0).val = (i 0).val := by
  unfold DotDims.lhsIdx
  rw [dif_neg (show ¬(0 : Fin S4000x288.rank) ∈ dot_S4000x288_S288x128_S4000x128_1_0_0_1_n_n.lhsBatch by decide), dif_pos (show (0 : Fin S4000x288.rank) ∈ dot_S4000x288_S288x128_S4000x128_1_0_0_1_n_n.lhsNonContracting by decide)]
  rfl
/-- … and at the contracted feature; -/
theorem lhs_dot_1 (i : S4000x128.Idx) (c : dot_S4000x288_S288x128_S4000x128_1_0_0_1_n_n.contr.Idx) :
    (dot_S4000x288_S288x128_S4000x128_1_0_0_1_n_n.lhsIdx i c 1).val = (c ⟨0, by decide⟩).val :=
  dot_S4000x288_S288x128_S4000x128_1_0_0_1_n_n.lhsIdx_val_of_single rfl i c
/-- the right operand at the contracted feature … -/
theorem rhs_dot_0 (i : S4000x128.Idx) (c : dot_S4000x288_S288x128_S4000x128_1_0_0_1_n_n.contr.Idx) :
    (dot_S4000x288_S288x128_S4000x128_1_0_0_1_n_n.rhsIdx i c 0).val = (c ⟨0, by decide⟩).val :=
  dot_S4000x288_S288x128_S4000x128_1_0_0_1_n_n.rhsIdx_val_of_single rfl i c
/-- … and at the output's column. -/
theorem rhs_dot_1 (i : S4000x128.Idx) (c : dot_S4000x288_S288x128_S4000x128_1_0_0_1_n_n.contr.Idx) :
    (dot_S4000x288_S288x128_S4000x128_1_0_0_1_n_n.rhsIdx i c 1).val = (i 1).val := by
  unfold DotDims.rhsIdx
  rw [dif_neg (show ¬(1 : Fin S288x128.rank) ∈ dot_S4000x288_S288x128_S4000x128_1_0_0_1_n_n.rhsBatch by decide), dif_pos (show (1 : Fin S288x128.rank) ∈ dot_S4000x288_S288x128_S4000x128_1_0_0_1_n_n.rhsNonContracting by decide)]
  rfl

/-- Accumulated into zero, the product of a block of rows with a matrix is, at row p and column q, the sum over the
    288 features of the row's entry times the column's. -/
theorem matmul_row (z : FVec Ideal S4000x288 .f32) (W : FVec Ideal S288x128 .f32) (p : Fin 4000) (q : Fin 128) :
    matmul dot_S4000x288_S288x128_S4000x128_1_0_0_1_n_n none z W (constant (F := Ideal) S4000x128 .f32 0x00000000#32) (ix2 p q)
      = ∑ k : Fin 288, z (ix2 p k) * W (ix2 k q) := by
  simp only [matmul]
  rw [Ideal.matmul_constant_zero_apply, ← Equiv.sum_comp (ValueIdx.contrEquiv1 dot_S4000x288_S288x128_S4000x128_1_0_0_1_n_n 288 rfl rfl).symm]
  refine Finset.sum_congr rfl fun k _ => ?_
  have hk := ValueIdx.contrEquiv1_symm_val dot_S4000x288_S288x128_S4000x128_1_0_0_1_n_n 288 rfl rfl k
  have el : dot_S4000x288_S288x128_S4000x128_1_0_0_1_n_n.lhsIdx (ix2 p q) ((ValueIdx.contrEquiv1 dot_S4000x288_S288x128_S4000x128_1_0_0_1_n_n 288 rfl rfl).symm k) = ix2 p k := funext fun a => Fin.ext (by
    match a with
    | ⟨0, _⟩ => exact lhs_dot_0 _ _
    | ⟨1, _⟩ => exact (lhs_dot_1 _ _).trans hk)
  have er : dot_S4000x288_S288x128_S4000x128_1_0_0_1_n_n.rhsIdx (ix2 p q) ((ValueIdx.contrEquiv1 dot_S4000x288_S288x128_S4000x128_1_0_0_1_n_n 288 rfl rfl).symm k) = ix2 k q := funext fun a => Fin.ext (by
    match a with
    | ⟨0, _⟩ => exact (rhs_dot_0 _ _).trans hk
    | ⟨1, _⟩ => exact rhs_dot_1 _ _)
  rw [el, er]

/-! ## An affine map of every row of a block -/

/-- The block against the matrix, plus the one-row bias repeated on every row: at row p and column q, the affine map of
    row p at output feature q. -/
theorem affine_row (z : FVec Ideal S4000x288 .f32) (W : FVec Ideal S288x128 .f32) (b : FVec Ideal S1x128 .f32)
    (p : Fin 4000) (q : Fin 128) :
    addf (matmul dot_S4000x288_S288x128_S4000x128_1_0_0_1_n_n none z W (constant (F := Ideal) S4000x128 .f32 0x00000000#32))
        (broadcastTo S4000x128 (shapeCast S1x128 b shapeCasts_S1x128_S1x128) broadcasts_S1x128_S4000x128) (ix2 p q)
      = Cert.Message.affine (fun k => z (ix2 p k)) W (fun q => b (ix2 0 q)) q := by
  rw [addf_apply, matmul_row, shapeCast_self, broadcastTo_1b_ab_apply]
  rfl

/-! ## The gate and the softplus at an entry -/

/-- The logistic of a block, entry by entry. -/
theorem logistic_apply (x : FVec Ideal S4000x128 .f32) (j : S4000x128.Idx) : logistic x j = Ideal.logistic (x j) := rfl

/-- The softplus as the body spells it, entry by entry: the test for a not-a-number difference never holds. -/
theorem softplus_spelled (s : FVec Ideal S4000x128 .f32) (j : S4000x128.Idx) :
    select (cmpf .one (subf s (broadcast S4000x128 (Scalar.ofBits (F := Ideal) .f32 0x00000000#32))) (subf s (broadcast S4000x128 (Scalar.ofBits (F := Ideal) .f32 0x00000000#32)))) (addf s (broadcast S4000x128 (Scalar.ofBits (F := Ideal) .f32 0x00000000#32)))
        (addf (maximumf s (broadcast S4000x128 (Scalar.ofBits (F := Ideal) .f32 0x00000000#32))) (log1p (exp (subf (broadcast S4000x128 (Scalar.ofBits (F := Ideal) .f32 0x00000000#32)) (absf (subf s (broadcast S4000x128 (Scalar.ofBits (F := Ideal) .f32 0x00000000#32)))))))) j
      = Cert.Message.softplus (s j) := by
  show Scalar.select (Ideal.cmp .one (s j - Ideal.ofBits .f32 0x00000000#32) (s j - Ideal.ofBits .f32 0x00000000#32))
      (s j + Ideal.ofBits .f32 0x00000000#32)
      (max (s j) (Ideal.ofBits .f32 0x00000000#32) + Ideal.log1p (Ideal.exp (Ideal.ofBits .f32 0x00000000#32
        - max (s j - Ideal.ofBits .f32 0x00000000#32) (-(s j - Ideal.ofBits .f32 0x00000000#32))))) = _
  rw [Ideal.ofBits_zero_f32]
  exact Cert.Message.softplus_of_sub (s j)

/-! ## The body's value at an entry -/

/-- The gate of one affine map times the softplus of another, over a block of rows z: at row p and column q it is
    the message of any row of 288 numbers that z's row p is. -/
theorem gated_apply (z : FVec Ideal S4000x288 .f32) (Wf Ws : FVec Ideal S288x128 .f32) (bf bs : FVec Ideal S1x128 .f32)
    (p : Fin 4000) (q : Fin 128) (g s : FVec Ideal S4000x128 .f32)
    (hg : g = addf (matmul dot_S4000x288_S288x128_S4000x128_1_0_0_1_n_n none z Wf (constant (F := Ideal) S4000x128 .f32 0x00000000#32))
        (broadcastTo S4000x128 (shapeCast S1x128 bf shapeCasts_S1x128_S1x128) broadcasts_S1x128_S4000x128))
    (hs : s = addf (matmul dot_S4000x288_S288x128_S4000x128_1_0_0_1_n_n none z Ws (constant (F := Ideal) S4000x128 .f32 0x00000000#32))
        (broadcastTo S4000x128 (shapeCast S1x128 bs shapeCasts_S1x128_S1x128) broadcasts_S1x128_S4000x128))
    (r : Fin 288 → EReal) (hr : ∀ k, z (ix2 p k) = r k) :
    mulf (logistic g) (select (cmpf .one (subf s (broadcast S4000x128 (Scalar.ofBits (F := Ideal) .f32 0x00000000#32))) (subf s (broadcast S4000x128 (Scalar.ofBits (F := Ideal) .f32 0x00000000#32)))) (addf s (broadcast S4000x128 (Scalar.ofBits (F := Ideal) .f32 0x00000000#32)))
        (addf (maximumf s (broadcast S4000x128 (Scalar.ofBits (F := Ideal) .f32 0x00000000#32))) (log1p (exp (subf (broadcast S4000x128 (Scalar.ofBits (F := Ideal) .f32 0x00000000#32)) (absf (subf s (broadcast S4000x128 (Scalar.ofBits (F := Ideal) .f32 0x00000000#32))))))))) (ix2 p q)
      = Ideal.logistic (Cert.Message.affine r Wf (fun q => bf (ix2 0 q)) q)
        * Cert.Message.softplus (Cert.Message.affine r Ws (fun q => bs (ix2 0 q)) q) := by
  have er : (fun k => z (ix2 p k)) = r := funext hr
  rw [mulf_apply, logistic_apply, softplus_spelled, hg, hs, affine_row, affine_row, er]

/-- The whole-buffer rectangle sits at offset zero on both axes. -/
theorem off_zero : (![0, 0] : Fin 2 → Nat) = fun _ => 0 := funext fun a => by fin_cases a <;> rfl

/-- What one grid point of the first layer's call leaves in its output block, at row p and feature q: the message of
    the point's blocks (the two bias blocks are single rows). -/
theorem out0_7_apply (x0 x1 : Vec Ideal S4000x128 .f32) (x2 : Vec Ideal S4000x32 .f32) (x3 : Vec Ideal S288x128 .f32)
    (x4 : Vec Ideal S1x128 .f32) (x5 : Vec Ideal S288x128 .f32) (x6 : Vec Ideal S1x128 .f32) (p : Fin 4000) (q : Fin 128) :
    out0_7 (F := Ideal) x0 x1 x2 x3 x4 x5 x6 (ix2 p q)
      = Cert.Message.message x0 x1 x2 x3 (fun q => x4 (ix2 0 q)) x5 (fun q => x6 (ix2 0 q)) p q := by
  unfold out0_7
  rw [View.canon_unit_zero off_zero]
  simp only [View.ld_unit_zero (S := S4000x128) off_zero, View.ld_unit_zero (S := S4000x32) off_zero,
    View.ld_unit_zero (S := S288x128) off_zero, View.ld_unit_zero (S := S1x128) off_zero]
  unfold k0_pay1 Cert.Message.message
  exact gated_apply _ x3 x5 x4 x6 p q _ _ rfl rfl _ (fun k => by
    rw [shapeCast_self, shapeCast_self]
    exact Cert.Message.concat_row x0 x1 x2 _ p k)

/-- The second layer's call: the same body. -/
theorem out1_7_apply (x0 x1 : Vec Ideal S4000x128 .f32) (x2 : Vec Ideal S4000x32 .f32) (x3 : Vec Ideal S288x128 .f32)
    (x4 : Vec Ideal S1x128 .f32) (x5 : Vec Ideal S288x128 .f32) (x6 : Vec Ideal S1x128 .f32) (p : Fin 4000) (q : Fin 128) :
    out1_7 (F := Ideal) x0 x1 x2 x3 x4 x5 x6 (ix2 p q)
      = Cert.Message.message x0 x1 x2 x3 (fun q => x4 (ix2 0 q)) x5 (fun q => x6 (ix2 0 q)) p q := by
  unfold out1_7
  rw [View.canon_unit_zero off_zero]
  simp only [View.ld_unit_zero (S := S4000x128) off_zero, View.ld_unit_zero (S := S4000x32) off_zero,
    View.ld_unit_zero (S := S288x128) off_zero, View.ld_unit_zero (S := S1x128) off_zero]
  unfold k1_pay1 Cert.Message.message
  exact gated_apply _ x3 x5 x4 x6 p q _ _ rfl rfl _ (fun k => by
    rw [shapeCast_self, shapeCast_self]
    exact Cert.Message.concat_row x0 x1 x2 _ p k)

/-- The third layer's call: the same body. -/
theorem out2_7_apply (x0 x1 : Vec Ideal S4000x128 .f32) (x2 : Vec Ideal S4000x32 .f32) (x3 : Vec Ideal S288x128 .f32)
    (x4 : Vec Ideal S1x128 .f32) (x5 : Vec Ideal S288x128 .f32) (x6 : Vec Ideal S1x128 .f32) (p : Fin 4000) (q : Fin 128) :
    out2_7 (F := Ideal) x0 x1 x2 x3 x4 x5 x6 (ix2 p q)
      = Cert.Message.message x0 x1 x2 x3 (fun q => x4 (ix2 0 q)) x5 (fun q => x6 (ix2 0 q)) p q := by
  unfold out2_7
  rw [View.canon_unit_zero off_zero]
  simp only [View.ld_unit_zero (S := S4000x128) off_zero, View.ld_unit_zero (S := S4000x32) off_zero,
    View.ld_unit_zero (S := S288x128) off_zero, View.ld_unit_zero (S := S1x128) off_zero]
  unfold k2_pay1 Cert.Message.message
  exact gated_apply _ x3 x5 x4 x6 p q _ _ rfl rfl _ (fun k => by
    rw [shapeCast_self, shapeCast_self]
    exact Cert.Message.concat_row x0 x1 x2 _ p k)

end Cert.KernelIdeal.Block

end
-- ==== Proof.RegionArrays.lean ====
/-
  The three message calls, from blocks to arrays.

  Each of the three calls walks its 320000 edges in 80 blocks of 4000 rows. At a point t it stages rows
  4000 t … 4000 t + 3999 of the target-node features, of the source-node features and of the edges' radial features,
  the two 288 × 128 matrices and the two bias rows whole, and leaves in its output block, at row p and feature q, the
  message of those blocks. The message of an edge reads only that edge's own rows, so what the point leaves is the
  message of the whole arrays at row 4000 t + p: the output block is block t of ONE array, the message array. The 80
  blocks tile the output, row r lying in block r / 4000, so after the last point the output array is the message array.
-/
import proofs.«419282_j17575006175633_1_alg».proof.Proof.Gen.KernelIdeal.Frame
import proofs.«419282_j17575006175633_1_alg».proof.Proof.MessageSpec
import proofs.«419282_j17575006175633_1_alg».proof.Proof.BodyBlock
import Idealize.ShloMosaic.Lib.ValueIdx
import Idealize.ShloMosaic.Lib.Pipeline.Value

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen

/-- The message of an edge reads only that edge's own rows: two triples of feature arrays that agree along the rows
    of two edges give those edges the same message under the same two affine maps. -/
theorem message_of_rows {E E' : Nat} (hd hs : (⟨2, ![E, 128]⟩ : Shape).Idx → EReal) (ea : (⟨2, ![E, 32]⟩ : Shape).Idx → EReal)
    (hd' hs' : (⟨2, ![E', 128]⟩ : Shape).Idx → EReal) (ea' : (⟨2, ![E', 32]⟩ : Shape).Idx → EReal)
    (Wf : (⟨2, ![288, 128]⟩ : Shape).Idx → EReal) (bf : Fin 128 → EReal)
    (Ws : (⟨2, ![288, 128]⟩ : Shape).Idx → EReal) (bs : Fin 128 → EReal) (e : Fin E) (e' : Fin E') (q : Fin 128)
    (h0 : ∀ k : Fin 128, hd (ix2 e k) = hd' (ix2 e' k)) (h1 : ∀ k : Fin 128, hs (ix2 e k) = hs' (ix2 e' k))
    (h2 : ∀ k : Fin 32, ea (ix2 e k) = ea' (ix2 e' k)) :
    Cert.Message.message hd hs ea Wf bf Ws bs e q = Cert.Message.message hd' hs' ea' Wf bf Ws bs e' q := by
  have hz : Cert.Message.zrow hd hs ea e = Cert.Message.zrow hd' hs' ea' e' := by
    funext k
    unfold Cert.Message.zrow
    split
    · exact h0 _
    · split
      · exact h1 _
      · exact h2 _
  unfold Cert.Message.message
  rw [hz]

variable (V : (c : Dev nD) → (b : Ref sig .tc) → Buf (Elt Ideal) ((c : Thread nD τ).loc b))

/-! ## The first layer's call -/

/-- Which buffer each window of the call stages. -/
theorem ref0_0 : Pipeline.arrRef spec0 0 = main_v5 := rfl
theorem ref0_1 : Pipeline.arrRef spec0 1 = main_v6 := rfl
theorem ref0_2 : Pipeline.arrRef spec0 2 = main_arg2 := rfl
theorem ref0_3 : Pipeline.arrRef spec0 3 = main_arg5 := rfl
theorem ref0_4 : Pipeline.arrRef spec0 4 = main_v7 := rfl
theorem ref0_5 : Pipeline.arrRef spec0 5 = main_arg7 := rfl
theorem ref0_6 : Pipeline.arrRef spec0 6 = main_v8 := rfl
theorem ref0_7 : Pipeline.arrRef spec0 7 = main_v9 := rfl

/-- The arrays the call's windows stage, as the call finds them, each at its literal type. -/
abbrev hd0 (c : Dev nD) : Vec Ideal S320000x128 .f32 := V c (Pipeline.arrRef spec0 0)
abbrev hs0 (c : Dev nD) : Vec Ideal S320000x128 .f32 := V c (Pipeline.arrRef spec0 1)
abbrev ea0 (c : Dev nD) : Vec Ideal S320000x32 .f32 := V c (Pipeline.arrRef spec0 2)
abbrev Wf0 (c : Dev nD) : Vec Ideal S288x128 .f32 := V c (Pipeline.arrRef spec0 3)
abbrev bf0 (c : Dev nD) : Vec Ideal S1x128 .f32 := V c (Pipeline.arrRef spec0 4)
abbrev Ws0 (c : Dev nD) : Vec Ideal S288x128 .f32 := V c (Pipeline.arrRef spec0 5)
abbrev bs0 (c : Dev nD) : Vec Ideal S1x128 .f32 := V c (Pipeline.arrRef spec0 6)

/-- The message array of the call: every edge's message at every output feature. -/
abbrev msg0 (c : Dev nD) : Vec Ideal S320000x128 .f32 := fun i =>
  Cert.Message.message (hd0 V c) (hs0 V c) (ea0 V c) (Wf0 V c) (fun q => bf0 V c (ix2 0 q)) (Ws0 V c) (fun q => bs0 V c (ix2 0 q)) (i 0) (i 1)

/-- The call's index maps over the grid: the three edge windows and the output move down the rows one block a
    point, the four weight windows stay on their one block. -/
theorem blocks0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem rowlt0 (t : Fin cfg0.N) (p : Fin 4000) : 4000 * t.val + p.val < 320000 := by
  have ht : t.val < 80 := Nat.lt_of_lt_of_eq t.isLt N_0
  have := p.isLt
  omega

/-- A block of the target-node rows at a point is rows 4000 t … 4000 t + 3999 of the array. -/
theorem iblk0_0_apply (c : Dev nD) (t : Fin cfg0.N) (p : Fin 4000) (k : Fin 128) :
    (iblk0 V c 0 t : Vec Ideal S4000x128 .f32) (ix2 p k) = hd0 V c (ix2 ⟨4000 * t.val + p.val, rowlt0 t p⟩ k) := by
  obtain ⟨e0, e1, -⟩ := blocks0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- A block of the source-node rows at a point is the same rows of its array. -/
theorem iblk0_1_apply (c : Dev nD) (t : Fin cfg0.N) (p : Fin 4000) (k : Fin 128) :
    (iblk0 V c 1 t : Vec Ideal S4000x128 .f32) (ix2 p k) = hs0 V c (ix2 ⟨4000 * t.val + p.val, rowlt0 t p⟩ k) := by
  obtain ⟨-, -, e0, e1, -⟩ := blocks0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 4000 + 1 * p.val = 4000 * t.val + p.val; rw [e0]; omega
  | ⟨1, _⟩ => show win0_1.index t (1 : Fin 2) * 128 + 1 * k.val = k.val; rw [e1]; omega

/-- A block of the edges' radial features at a point is the same rows of its array. -/
theorem iblk0_2_apply (c : Dev nD) (t : Fin cfg0.N) (p : Fin 4000) (k : Fin 32) :
    (iblk0 V c 2 t : Vec Ideal S4000x32 .f32) (ix2 p k) = ea0 V c (ix2 ⟨4000 * t.val + p.val, rowlt0 t p⟩ k) := by
  obtain ⟨-, -, -, -, e0, e1, -⟩ := blocks0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 4000 + 1 * p.val = 4000 * t.val + p.val; rw [e0]; omega
  | ⟨1, _⟩ => show win0_2.index t (1 : Fin 2) * 32 + 1 * k.val = k.val; rw [e1]; omega

/-- The gate matrix's one block is the matrix. -/
theorem iblk0_3_eq (c : Dev nD) (t : Fin cfg0.N) : (iblk0 V c 3 t : Vec Ideal S288x128 .f32) = Wf0 V c := by
  obtain ⟨-, -, -, -, -, -, e0, e1, -⟩ := blocks0 t
  funext j
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 288 + 1 * (j 0).val = (j 0).val; rw [e0]; omega
  | ⟨1, _⟩ => show win0_3.index t (1 : Fin 2) * 128 + 1 * (j 1).val = (j 1).val; rw [e1]; omega

/-- The gate bias's one block is the bias row. -/
theorem iblk0_4_eq (c : Dev nD) (t : Fin cfg0.N) : (iblk0 V c 4 t : Vec Ideal S1x128 .f32) = bf0 V c := by
  obtain ⟨-, -, -, -, -, -, -, -, e0, e1, -⟩ := blocks0 t
  funext j
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- The core matrix's one block is the matrix. -/
theorem iblk0_5_eq (c : Dev nD) (t : Fin cfg0.N) : (iblk0 V c 5 t : Vec Ideal S288x128 .f32) = Ws0 V c := by
  obtain ⟨-, -, -, -, -, -, -, -, -, -, e0, e1, -⟩ := blocks0 t
  funext j
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 288 + 1 * (j 0).val = (j 0).val; rw [e0]; omega
  | ⟨1, _⟩ => show win0_5.index t (1 : Fin 2) * 128 + 1 * (j 1).val = (j 1).val; rw [e1]; omega

/-- The core bias's one block is the bias row. -/
theorem iblk0_6_eq (c : Dev nD) (t : Fin cfg0.N) : (iblk0 V c 6 t : Vec Ideal S1x128 .f32) = bs0 V c := by
  obtain ⟨-, -, -, -, -, -, -, -, -, -, -, -, e0, e1, -⟩ := blocks0 t
  funext j
  unfold iblk0
  rw [View.read_apply]
  show V c (Pipeline.arrRef spec0 6) _ = V c (Pipeline.arrRef spec0 6) _
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 128 + 1 * (j 1).val = (j 1).val; rw [e1]; omega

/-- What a point leaves in its output block, at row p and feature q, is the message array at row 4000 t + p. -/
theorem out0_point (c : Dev nD) (t : Fin cfg0.N) (p : Fin 4000) (q : Fin 128) :
    out0_7 (F := Ideal) (iblk0 V c 0 t) (iblk0 V c 1 t) (iblk0 V c 2 t) (iblk0 V c 3 t) (iblk0 V c 4 t) (iblk0 V c 5 t) (iblk0 V c 6 t) (ix2 p q)
      = msg0 V c (ix2 ⟨4000 * t.val + p.val, rowlt0 t p⟩ q) := by
  rw [Cert.KernelIdeal.Block.out0_7_apply, iblk0_3_eq V c t, iblk0_4_eq V c t, iblk0_5_eq V c t, iblk0_6_eq V c t]
  exact message_of_rows _ _ _ _ _ _ _ _ _ _ p ⟨4000 * t.val + p.val, rowlt0 t p⟩ q
    (fun k => iblk0_0_apply V c t p k) (fun k => iblk0_1_apply V c t p k) (fun k => iblk0_2_apply V c t p k)

/-- What point t writes back is block t of the message array. -/
theorem flushed0_eq (c : Dev nD) (t : Fin cfg0.N) :
    (dat0 (F := Ideal) V c).flushed 7 t = ((cfg0.win 7).blk t).view.read (Elt Ideal) (msg0 V c) := by
  obtain ⟨-, -, -, -, -, -, -, -, -, -, -, -, -, -, e0, e1⟩ := blocks0 t
  show (cfg0.win 7).cut (grid0.coords t) ((dat0 V c).after 7 t) = _
  rw [after0_7]
  funext j
  obtain ⟨p, q, rfl⟩ : ∃ (p : Fin 4000) (q : Fin 128), j = ix2 p q := ⟨j 0, j 1, eq_ix2 j⟩
  rw [View.read_apply]
  refine (out0_point V c t p q).trans ?_
  show msg0 V c _ = msg0 V c _
  congr 1
  funext a
  apply Fin.ext
  match a with
  | ⟨0, _⟩ => show 4000 * t.val + p.val = win0_7.index t (0 : Fin 2) * 4000 + 1 * p.val; rw [e0]; omega
  | ⟨1, _⟩ => show q.val = win0_7.index t (1 : Fin 2) * 128 + 1 * q.val; rw [e1]; omega

/-- An index of the output array is in point t's block iff each coordinate is in the block's range on its axis. -/
theorem mem_blk0 (t : Fin cfg0.N) (i : S320000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v9).slice (win0_7.rect t)).set ↔ _
  rw [View.set_slice_whole, Rect.mem_set_unit]
  exact Iff.rfl

/-- Every row of the output array lies in the block of the point numbered by the row over 4000. -/
theorem cover0 (i : S320000x128.Idx) :
    ∃ t : Fin cfg0.N, (cfg0.win 7).flush t = true ∧ i ∈ ((cfg0.win 7).blk t).view.set := by
  have hi0 : (i 0).val < 320000 := (i 0).isLt
  have hi1 : (i 1).val < 128 := (i 1).isLt
  have hN : cfg0.N = 80 := N_0
  let t : Fin cfg0.N := ⟨(i 0).val / 4000, by rw [hN]; omega⟩
  have ht : t.val = (i 0).val / 4000 := rfl
  obtain ⟨-, -, -, -, -, -, -, -, -, -, -, -, -, -, e0, e1⟩ := blocks0 t
  refine ⟨t, flush0_7 t, ?_⟩
  rw [mem_blk0]
  intro a
  match a with
  | ⟨0, _⟩ => show win0_7.index t (0 : Fin 2) * 4000 ≤ (i 0).val ∧ (i 0).val < win0_7.index t (0 : Fin 2) * 4000 + 4000; rw [e0, ht]; omega
  | ⟨1, _⟩ => show win0_7.index t (1 : Fin 2) * 128 ≤ (i 1).val ∧ (i 1).val < win0_7.index t (1 : Fin 2) * 128 + 128; rw [e1]; omega

/-- The output array after all 80 points is the message array. -/
theorem final0 (c : Dev nD) : (dat0 (F := Ideal) V c).arrAt 7 cfg0.N = msg0 V c :=
  (dat0 (F := Ideal) V c).arrAt_eq_of_cover 7 (msg0 V c) (fun t _ => flushed0_eq V c t) cover0

/-- The first layer's call leaves, at edge e and output feature q, the message of the arrays its windows stage. -/
theorem region0_array (c : Dev nD) (e : Fin 320000) (q : Fin 128) :
    (dat0 (F := Ideal) V c).arrAt 7 cfg0.N (ix2 e q) = Cert.Message.message (V c (Pipeline.arrRef spec0 0)) (V c (Pipeline.arrRef spec0 1)) (V c (Pipeline.arrRef spec0 2)) (V c (Pipeline.arrRef spec0 3)) (fun q => V c (Pipeline.arrRef spec0 4) (ix2 0 q)) (V c (Pipeline.arrRef spec0 5)) (fun q => V c (Pipeline.arrRef spec0 6) (ix2 0 q)) e q := by
  rw [final0 V c]

/-! ## The second layer's call -/

/-- Which buffer each window of the call stages. -/
theorem ref1_0 : Pipeline.arrRef spec1 0 = main_v15 := rfl
theorem ref1_1 : Pipeline.arrRef spec1 1 = main_v16 := rfl
theorem ref1_2 : Pipeline.arrRef spec1 2 = main_arg2 := rfl
theorem ref1_3 : Pipeline.arrRef spec1 3 = main_arg9 := rfl
theorem ref1_4 : Pipeline.arrRef spec1 4 = main_v17 := rfl
theorem ref1_5 : Pipeline.arrRef spec1 5 = main_arg11 := rfl
theorem ref1_6 : Pipeline.arrRef spec1 6 = main_v18 := rfl
theorem ref1_7 : Pipeline.arrRef spec1 7 = main_v19 := rfl

/-- The arrays the call's windows stage, as the call finds them, each at its literal type. -/
abbrev hd1 (c : Dev nD) : Vec Ideal S320000x128 .f32 := V c (Pipeline.arrRef spec1 0)
abbrev hs1 (c : Dev nD) : Vec Ideal S320000x128 .f32 := V c (Pipeline.arrRef spec1 1)
abbrev ea1 (c : Dev nD) : Vec Ideal S320000x32 .f32 := V c (Pipeline.arrRef spec1 2)
abbrev Wf1 (c : Dev nD) : Vec Ideal S288x128 .f32 := V c (Pipeline.arrRef spec1 3)
abbrev bf1 (c : Dev nD) : Vec Ideal S1x128 .f32 := V c (Pipeline.arrRef spec1 4)
abbrev Ws1 (c : Dev nD) : Vec Ideal S288x128 .f32 := V c (Pipeline.arrRef spec1 5)
abbrev bs1 (c : Dev nD) : Vec Ideal S1x128 .f32 := V c (Pipeline.arrRef spec1 6)

/-- The message array of the call: every edge's message at every output feature. -/
abbrev msg1 (c : Dev nD) : Vec Ideal S320000x128 .f32 := fun i =>
  Cert.Message.message (hd1 V c) (hs1 V c) (ea1 V c) (Wf1 V c) (fun q => bf1 V c (ix2 0 q)) (Ws1 V c) (fun q => bs1 V c (ix2 0 q)) (i 0) (i 1)

/-- The call's index maps over the grid: the three edge windows and the output move down the rows one block a
    point, the four weight windows stay on their one block. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem rowlt1 (t : Fin cfg1.N) (p : Fin 4000) : 4000 * t.val + p.val < 320000 := by
  have ht : t.val < 80 := Nat.lt_of_lt_of_eq t.isLt N_1
  have := p.isLt
  omega

/-- A block of the target-node rows at a point is rows 4000 t … 4000 t + 3999 of the array. -/
theorem iblk1_0_apply (c : Dev nD) (t : Fin cfg1.N) (p : Fin 4000) (k : Fin 128) :
    (iblk1 V c 0 t : Vec Ideal S4000x128 .f32) (ix2 p k) = hd1 V c (ix2 ⟨4000 * t.val + p.val, rowlt1 t p⟩ k) := by
  obtain ⟨e0, e1, -⟩ := blocks1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 4000 + 1 * p.val = 4000 * t.val + p.val; rw [e0]; omega
  | ⟨1, _⟩ => show win1_0.index t (1 : Fin 2) * 128 + 1 * k.val = k.val; rw [e1]; omega

/-- A block of the source-node rows at a point is the same rows of its array. -/
theorem iblk1_1_apply (c : Dev nD) (t : Fin cfg1.N) (p : Fin 4000) (k : Fin 128) :
    (iblk1 V c 1 t : Vec Ideal S4000x128 .f32) (ix2 p k) = hs1 V c (ix2 ⟨4000 * t.val + p.val, rowlt1 t p⟩ k) := by
  obtain ⟨-, -, e0, e1, -⟩ := blocks1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 4000 + 1 * p.val = 4000 * t.val + p.val; rw [e0]; omega
  | ⟨1, _⟩ => show win1_1.index t (1 : Fin 2) * 128 + 1 * k.val = k.val; rw [e1]; omega

/-- A block of the edges' radial features at a point is the same rows of its array. -/
theorem iblk1_2_apply (c : Dev nD) (t : Fin cfg1.N) (p : Fin 4000) (k : Fin 32) :
    (iblk1 V c 2 t : Vec Ideal S4000x32 .f32) (ix2 p k) = ea1 V c (ix2 ⟨4000 * t.val + p.val, rowlt1 t p⟩ k) := by
  obtain ⟨-, -, -, -, e0, e1, -⟩ := blocks1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 4000 + 1 * p.val = 4000 * t.val + p.val; rw [e0]; omega
  | ⟨1, _⟩ => show win1_2.index t (1 : Fin 2) * 32 + 1 * k.val = k.val; rw [e1]; omega

/-- The gate matrix's one block is the matrix. -/
theorem iblk1_3_eq (c : Dev nD) (t : Fin cfg1.N) : (iblk1 V c 3 t : Vec Ideal S288x128 .f32) = Wf1 V c := by
  obtain ⟨-, -, -, -, -, -, e0, e1, -⟩ := blocks1 t
  funext j
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 288 + 1 * (j 0).val = (j 0).val; rw [e0]; omega
  | ⟨1, _⟩ => show win1_3.index t (1 : Fin 2) * 128 + 1 * (j 1).val = (j 1).val; rw [e1]; omega

/-- The gate bias's one block is the bias row. -/
theorem iblk1_4_eq (c : Dev nD) (t : Fin cfg1.N) : (iblk1 V c 4 t : Vec Ideal S1x128 .f32) = bf1 V c := by
  obtain ⟨-, -, -, -, -, -, -, -, e0, e1, -⟩ := blocks1 t
  funext j
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- The core matrix's one block is the matrix. -/
theorem iblk1_5_eq (c : Dev nD) (t : Fin cfg1.N) : (iblk1 V c 5 t : Vec Ideal S288x128 .f32) = Ws1 V c := by
  obtain ⟨-, -, -, -, -, -, -, -, -, -, e0, e1, -⟩ := blocks1 t
  funext j
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 288 + 1 * (j 0).val = (j 0).val; rw [e0]; omega
  | ⟨1, _⟩ => show win1_5.index t (1 : Fin 2) * 128 + 1 * (j 1).val = (j 1).val; rw [e1]; omega

/-- The core bias's one block is the bias row. -/
theorem iblk1_6_eq (c : Dev nD) (t : Fin cfg1.N) : (iblk1 V c 6 t : Vec Ideal S1x128 .f32) = bs1 V c := by
  obtain ⟨-, -, -, -, -, -, -, -, -, -, -, -, e0, e1, -⟩ := blocks1 t
  funext j
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- What a point leaves in its output block, at row p and feature q, is the message array at row 4000 t + p. -/
theorem out1_point (c : Dev nD) (t : Fin cfg1.N) (p : Fin 4000) (q : Fin 128) :
    out1_7 (F := Ideal) (iblk1 V c 0 t) (iblk1 V c 1 t) (iblk1 V c 2 t) (iblk1 V c 3 t) (iblk1 V c 4 t) (iblk1 V c 5 t) (iblk1 V c 6 t) (ix2 p q)
      = msg1 V c (ix2 ⟨4000 * t.val + p.val, rowlt1 t p⟩ q) := by
  rw [Cert.KernelIdeal.Block.out1_7_apply, iblk1_3_eq V c t, iblk1_4_eq V c t, iblk1_5_eq V c t, iblk1_6_eq V c t]
  exact message_of_rows _ _ _ _ _ _ _ _ _ _ p ⟨4000 * t.val + p.val, rowlt1 t p⟩ q
    (fun k => iblk1_0_apply V c t p k) (fun k => iblk1_1_apply V c t p k) (fun k => iblk1_2_apply V c t p k)

/-- What point t writes back is block t of the message array. -/
theorem flushed1_eq (c : Dev nD) (t : Fin cfg1.N) :
    (dat1 (F := Ideal) V c).flushed 7 t = ((cfg1.win 7).blk t).view.read (Elt Ideal) (msg1 V c) := by
  obtain ⟨-, -, -, -, -, -, -, -, -, -, -, -, -, -, e0, e1⟩ := blocks1 t
  show (cfg1.win 7).cut (grid1.coords t) ((dat1 V c).after 7 t) = _
  rw [after1_7]
  funext j
  obtain ⟨p, q, rfl⟩ : ∃ (p : Fin 4000) (q : Fin 128), j = ix2 p q := ⟨j 0, j 1, eq_ix2 j⟩
  rw [View.read_apply]
  refine (out1_point V c t p q).trans ?_
  show msg1 V c _ = msg1 V c _
  congr 1
  funext a
  apply Fin.ext
  match a with
  | ⟨0, _⟩ => show 4000 * t.val + p.val = win1_7.index t (0 : Fin 2) * 4000 + 1 * p.val; rw [e0]; omega
  | ⟨1, _⟩ => show q.val = win1_7.index t (1 : Fin 2) * 128 + 1 * q.val; rw [e1]; omega

/-- An index of the output array is in point t's block iff each coordinate is in the block's range on its axis. -/
theorem mem_blk1 (t : Fin cfg1.N) (i : S320000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v19).slice (win1_7.rect t)).set ↔ _
  rw [View.set_slice_whole, Rect.mem_set_unit]
  exact Iff.rfl

/-- Every row of the output array lies in the block of the point numbered by the row over 4000. -/
theorem cover1 (i : S320000x128.Idx) :
    ∃ t : Fin cfg1.N, (cfg1.win 7).flush t = true ∧ i ∈ ((cfg1.win 7).blk t).view.set := by
  have hi0 : (i 0).val < 320000 := (i 0).isLt
  have hi1 : (i 1).val < 128 := (i 1).isLt
  have hN : cfg1.N = 80 := N_1
  let t : Fin cfg1.N := ⟨(i 0).val / 4000, by rw [hN]; omega⟩
  have ht : t.val = (i 0).val / 4000 := rfl
  obtain ⟨-, -, -, -, -, -, -, -, -, -, -, -, -, -, e0, e1⟩ := blocks1 t
  refine ⟨t, flush1_7 t, ?_⟩
  rw [mem_blk1]
  intro a
  match a with
  | ⟨0, _⟩ => show win1_7.index t (0 : Fin 2) * 4000 ≤ (i 0).val ∧ (i 0).val < win1_7.index t (0 : Fin 2) * 4000 + 4000; rw [e0, ht]; omega
  | ⟨1, _⟩ => show win1_7.index t (1 : Fin 2) * 128 ≤ (i 1).val ∧ (i 1).val < win1_7.index t (1 : Fin 2) * 128 + 128; rw [e1]; omega

/-- The output array after all 80 points is the message array. -/
theorem final1 (c : Dev nD) : (dat1 (F := Ideal) V c).arrAt 7 cfg1.N = msg1 V c :=
  (dat1 (F := Ideal) V c).arrAt_eq_of_cover 7 (msg1 V c) (fun t _ => flushed1_eq V c t) cover1

/-- The second layer's call leaves, at edge e and output feature q, the message of the arrays its windows stage. -/
theorem region1_array (c : Dev nD) (e : Fin 320000) (q : Fin 128) :
    (dat1 (F := Ideal) V c).arrAt 7 cfg1.N (ix2 e q) = Cert.Message.message (V c (Pipeline.arrRef spec1 0)) (V c (Pipeline.arrRef spec1 1)) (V c (Pipeline.arrRef spec1 2)) (V c (Pipeline.arrRef spec1 3)) (fun q => V c (Pipeline.arrRef spec1 4) (ix2 0 q)) (V c (Pipeline.arrRef spec1 5)) (fun q => V c (Pipeline.arrRef spec1 6) (ix2 0 q)) e q := by
  rw [final1 V c]

/-! ## The third layer's call -/

/-- Which buffer each window of the call stages. -/
theorem ref2_0 : Pipeline.arrRef spec2 0 = main_v25 := rfl
theorem ref2_1 : Pipeline.arrRef spec2 1 = main_v26 := rfl
theorem ref2_2 : Pipeline.arrRef spec2 2 = main_arg2 := rfl
theorem ref2_3 : Pipeline.arrRef spec2 3 = main_arg13 := rfl
theorem ref2_4 : Pipeline.arrRef spec2 4 = main_v27 := rfl
theorem ref2_5 : Pipeline.arrRef spec2 5 = main_arg15 := rfl
theorem ref2_6 : Pipeline.arrRef spec2 6 = main_v28 := rfl
theorem ref2_7 : Pipeline.arrRef spec2 7 = main_v29 := rfl

/-- The arrays the call's windows stage, as the call finds them, each at its literal type. -/
abbrev hd2 (c : Dev nD) : Vec Ideal S320000x128 .f32 := V c (Pipeline.arrRef spec2 0)
abbrev hs2 (c : Dev nD) : Vec Ideal S320000x128 .f32 := V c (Pipeline.arrRef spec2 1)
abbrev ea2 (c : Dev nD) : Vec Ideal S320000x32 .f32 := V c (Pipeline.arrRef spec2 2)
abbrev Wf2 (c : Dev nD) : Vec Ideal S288x128 .f32 := V c (Pipeline.arrRef spec2 3)
abbrev bf2 (c : Dev nD) : Vec Ideal S1x128 .f32 := V c (Pipeline.arrRef spec2 4)
abbrev Ws2 (c : Dev nD) : Vec Ideal S288x128 .f32 := V c (Pipeline.arrRef spec2 5)
abbrev bs2 (c : Dev nD) : Vec Ideal S1x128 .f32 := V c (Pipeline.arrRef spec2 6)

/-- The message array of the call: every edge's message at every output feature. -/
abbrev msg2 (c : Dev nD) : Vec Ideal S320000x128 .f32 := fun i =>
  Cert.Message.message (hd2 V c) (hs2 V c) (ea2 V c) (Wf2 V c) (fun q => bf2 V c (ix2 0 q)) (Ws2 V c) (fun q => bs2 V c (ix2 0 q)) (i 0) (i 1)

/-- The call's index maps over the grid: the three edge windows and the output move down the rows one block a
    point, the four weight windows stay on their one block. -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem rowlt2 (t : Fin cfg2.N) (p : Fin 4000) : 4000 * t.val + p.val < 320000 := by
  have ht : t.val < 80 := Nat.lt_of_lt_of_eq t.isLt N_2
  have := p.isLt
  omega

/-- A block of the target-node rows at a point is rows 4000 t … 4000 t + 3999 of the array. -/
theorem iblk2_0_apply (c : Dev nD) (t : Fin cfg2.N) (p : Fin 4000) (k : Fin 128) :
    (iblk2 V c 0 t : Vec Ideal S4000x128 .f32) (ix2 p k) = hd2 V c (ix2 ⟨4000 * t.val + p.val, rowlt2 t p⟩ k) := by
  obtain ⟨e0, e1, -⟩ := blocks2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 4000 + 1 * p.val = 4000 * t.val + p.val; rw [e0]; omega
  | ⟨1, _⟩ => show win2_0.index t (1 : Fin 2) * 128 + 1 * k.val = k.val; rw [e1]; omega

/-- A block of the source-node rows at a point is the same rows of its array. -/
theorem iblk2_1_apply (c : Dev nD) (t : Fin cfg2.N) (p : Fin 4000) (k : Fin 128) :
    (iblk2 V c 1 t : Vec Ideal S4000x128 .f32) (ix2 p k) = hs2 V c (ix2 ⟨4000 * t.val + p.val, rowlt2 t p⟩ k) := by
  obtain ⟨-, -, e0, e1, -⟩ := blocks2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 4000 + 1 * p.val = 4000 * t.val + p.val; rw [e0]; omega
  | ⟨1, _⟩ => show win2_1.index t (1 : Fin 2) * 128 + 1 * k.val = k.val; rw [e1]; omega

/-- A block of the edges' radial features at a point is the same rows of its array. -/
theorem iblk2_2_apply (c : Dev nD) (t : Fin cfg2.N) (p : Fin 4000) (k : Fin 32) :
    (iblk2 V c 2 t : Vec Ideal S4000x32 .f32) (ix2 p k) = ea2 V c (ix2 ⟨4000 * t.val + p.val, rowlt2 t p⟩ k) := by
  obtain ⟨-, -, -, -, e0, e1, -⟩ := blocks2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 4000 + 1 * p.val = 4000 * t.val + p.val; rw [e0]; omega
  | ⟨1, _⟩ => show win2_2.index t (1 : Fin 2) * 32 + 1 * k.val = k.val; rw [e1]; omega

/-- The gate matrix's one block is the matrix. -/
theorem iblk2_3_eq (c : Dev nD) (t : Fin cfg2.N) : (iblk2 V c 3 t : Vec Ideal S288x128 .f32) = Wf2 V c := by
  obtain ⟨-, -, -, -, -, -, e0, e1, -⟩ := blocks2 t
  funext j
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 288 + 1 * (j 0).val = (j 0).val; rw [e0]; omega
  | ⟨1, _⟩ => show win2_3.index t (1 : Fin 2) * 128 + 1 * (j 1).val = (j 1).val; rw [e1]; omega

/-- The gate bias's one block is the bias row. -/
theorem iblk2_4_eq (c : Dev nD) (t : Fin cfg2.N) : (iblk2 V c 4 t : Vec Ideal S1x128 .f32) = bf2 V c := by
  obtain ⟨-, -, -, -, -, -, -, -, e0, e1, -⟩ := blocks2 t
  funext j
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-- The core matrix's one block is the matrix. -/
theorem iblk2_5_eq (c : Dev nD) (t : Fin cfg2.N) : (iblk2 V c 5 t : Vec Ideal S288x128 .f32) = Ws2 V c := by
  obtain ⟨-, -, -, -, -, -, -, -, -, -, e0, e1, -⟩ := blocks2 t
  funext j
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 288 + 1 * (j 0).val = (j 0).val; rw [e0]; omega
  | ⟨1, _⟩ => show win2_5.index t (1 : Fin 2) * 128 + 1 * (j 1).val = (j 1).val; rw [e1]; omega

/-- The core bias's one block is the bias row. -/
theorem iblk2_6_eq (c : Dev nD) (t : Fin cfg2.N) : (iblk2 V c 6 t : Vec Ideal S1x128 .f32) = bs2 V c := by
  obtain ⟨-, -, -, -, -, -, -, -, -, -, -, -, e0, e1, -⟩ := blocks2 t
  funext j
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 1 + 1 * (j 0).val = (j 0).val; rw [e0]; omega
  | ⟨1, _⟩ => show win2_6.index t (1 : Fin 2) * 128 + 1 * (j 1).val = (j 1).val; rw [e1]; omega

/-- What a point leaves in its output block, at row p and feature q, is the message array at row 4000 t + p. -/
theorem out2_point (c : Dev nD) (t : Fin cfg2.N) (p : Fin 4000) (q : Fin 128) :
    out2_7 (F := Ideal) (iblk2 V c 0 t) (iblk2 V c 1 t) (iblk2 V c 2 t) (iblk2 V c 3 t) (iblk2 V c 4 t) (iblk2 V c 5 t) (iblk2 V c 6 t) (ix2 p q)
      = msg2 V c (ix2 ⟨4000 * t.val + p.val, rowlt2 t p⟩ q) := by
  rw [Cert.KernelIdeal.Block.out2_7_apply, iblk2_3_eq V c t, iblk2_4_eq V c t, iblk2_5_eq V c t, iblk2_6_eq V c t]
  exact message_of_rows _ _ _ _ _ _ _ _ _ _ p ⟨4000 * t.val + p.val, rowlt2 t p⟩ q
    (fun k => iblk2_0_apply V c t p k) (fun k => iblk2_1_apply V c t p k) (fun k => iblk2_2_apply V c t p k)

/-- What point t writes back is block t of the message array. -/
theorem flushed2_eq (c : Dev nD) (t : Fin cfg2.N) :
    (dat2 (F := Ideal) V c).flushed 7 t = ((cfg2.win 7).blk t).view.read (Elt Ideal) (msg2 V c) := by
  obtain ⟨-, -, -, -, -, -, -, -, -, -, -, -, -, -, e0, e1⟩ := blocks2 t
  show (cfg2.win 7).cut (grid2.coords t) ((dat2 V c).after 7 t) = _
  rw [after2_7]
  funext j
  obtain ⟨p, q, rfl⟩ : ∃ (p : Fin 4000) (q : Fin 128), j = ix2 p q := ⟨j 0, j 1, eq_ix2 j⟩
  rw [View.read_apply]
  refine (out2_point V c t p q).trans ?_
  show msg2 V c _ = msg2 V c _
  congr 1
  funext a
  apply Fin.ext
  match a with
  | ⟨0, _⟩ => show 4000 * t.val + p.val = win2_7.index t (0 : Fin 2) * 4000 + 1 * p.val; rw [e0]; omega
  | ⟨1, _⟩ => show q.val = win2_7.index t (1 : Fin 2) * 128 + 1 * q.val; rw [e1]; omega

/-- An index of the output array is in point t's block iff each coordinate is in the block's range on its axis. -/
theorem mem_blk2 (t : Fin cfg2.N) (i : S320000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v29).slice (win2_7.rect t)).set ↔ _
  rw [View.set_slice_whole, Rect.mem_set_unit]
  exact Iff.rfl

/-- Every row of the output array lies in the block of the point numbered by the row over 4000. -/
theorem cover2 (i : S320000x128.Idx) :
    ∃ t : Fin cfg2.N, (cfg2.win 7).flush t = true ∧ i ∈ ((cfg2.win 7).blk t).view.set := by
  have hi0 : (i 0).val < 320000 := (i 0).isLt
  have hi1 : (i 1).val < 128 := (i 1).isLt
  have hN : cfg2.N = 80 := N_2
  let t : Fin cfg2.N := ⟨(i 0).val / 4000, by rw [hN]; omega⟩
  have ht : t.val = (i 0).val / 4000 := rfl
  obtain ⟨-, -, -, -, -, -, -, -, -, -, -, -, -, -, e0, e1⟩ := blocks2 t
  refine ⟨t, flush2_7 t, ?_⟩
  rw [mem_blk2]
  intro a
  match a with
  | ⟨0, _⟩ => show win2_7.index t (0 : Fin 2) * 4000 ≤ (i 0).val ∧ (i 0).val < win2_7.index t (0 : Fin 2) * 4000 + 4000; rw [e0, ht]; omega
  | ⟨1, _⟩ => show win2_7.index t (1 : Fin 2) * 128 ≤ (i 1).val ∧ (i 1).val < win2_7.index t (1 : Fin 2) * 128 + 128; rw [e1]; omega

/-- The output array after all 80 points is the message array. -/
theorem final2 (c : Dev nD) : (dat2 (F := Ideal) V c).arrAt 7 cfg2.N = msg2 V c :=
  (dat2 (F := Ideal) V c).arrAt_eq_of_cover 7 (msg2 V c) (fun t _ => flushed2_eq V c t) cover2

/-- The third layer's call leaves, at edge e and output feature q, the message of the arrays its windows stage. -/
theorem region2_array (c : Dev nD) (e : Fin 320000) (q : Fin 128) :
    (dat2 (F := Ideal) V c).arrAt 7 cfg2.N (ix2 e q) = Cert.Message.message (V c (Pipeline.arrRef spec2 0)) (V c (Pipeline.arrRef spec2 1)) (V c (Pipeline.arrRef spec2 2)) (V c (Pipeline.arrRef spec2 3)) (fun q => V c (Pipeline.arrRef spec2 4) (ix2 0 q)) (V c (Pipeline.arrRef spec2 5)) (fun q => V c (Pipeline.arrRef spec2 6) (ix2 0 q)) e q := by
  rw [final2 V c]

end Cert.KernelIdeal.Arrays

end
-- ==== Proof.EdgeIndex.lean ====
/-
  The host operations that only re-index: each result, read at an index, is an argument array at an index.

  The edge table has two rows of 320000 words, row 0 the source node of every edge and row 1 its target node; each row
  is cut out and flattened to a vector, so entry e of the vector is entry (r, e) of the table. Before each call the two
  bias vectors of 128 numbers are viewed as single rows, so entry (0, q) of the row is entry q of the vector. Both hold
  over any contents of the buffers the operations read.
-/
import proofs.«419282_j17575006175633_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Edges

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL.Sem

variable {F : FTy → Type} [FloatOps F]

/-! ## The edge table's two rows, flattened -/

/-- The target nodes: row 1 of the edge table, as a vector of 320000 words. -/
theorem dst_apply (V : Valuation τ sig (Elt F)) (e : Fin 320000) :
    (StableHlo.after (hostOps0 (F := F)) V (Proc.devRef .tc main_v3) : S320000.Idx → BitVec 32) (ix1 e)
      = (V (Proc.devRef .tc main_arg1) : S2x320000.Idx → BitVec 32) (ix2 1 e) := by
  dsimp only [hostOps0]
  after_results
  show shapeCast S320000 (extractStridedSlice S1x320000 ![1, 0] (V (Proc.devRef .tc main_arg1) : S2x320000.Idx → BitVec 32) slices_S2x320000_S1x320000_1_0) shapeCasts_S1x320000_S320000 (ix1 e) = _
  refine (shapeCast_apply _ shapeCasts_S1x320000_S320000 (ix1 e) (ix2 0 e) ?_).trans ?_
  · rw [Shape.rowMajor_val_two, Shape.rowMajor_val_one]
    show 0 * 320000 + e.val = e.val
    omega
  · exact extractStridedSlice_apply ![1, 0] _ slices_S2x320000_S1x320000_1_0 (ix2 0 e) (ix2 1 e) (fun a => match a with
      | ⟨0, _⟩ => by show 1 = 1 + 0; rfl
      | ⟨1, _⟩ => by show e.val = 0 + e.val; omega)

/-- The source nodes: row 0 of the edge table, as a vector of 320000 words. -/
theorem src_apply (V : Valuation τ sig (Elt F)) (e : Fin 320000) :
    (StableHlo.after (hostOps0 (F := F)) V (Proc.devRef .tc main_v1) : S320000.Idx → BitVec 32) (ix1 e)
      = (V (Proc.devRef .tc main_arg1) : S2x320000.Idx → BitVec 32) (ix2 0 e) := by
  dsimp only [hostOps0]
  after_results
  show shapeCast S320000 (extractStridedSlice S1x320000 ![0, 0] (V (Proc.devRef .tc main_arg1) : S2x320000.Idx → BitVec 32) slices_S2x320000_S1x320000_0_0) shapeCasts_S1x320000_S320000 (ix1 e) = _
  refine (shapeCast_apply _ shapeCasts_S1x320000_S320000 (ix1 e) (ix2 0 e) ?_).trans ?_
  · rw [Shape.rowMajor_val_two, Shape.rowMajor_val_one]
    show 0 * 320000 + e.val = e.val
    omega
  · exact extractStridedSlice_apply ![0, 0] _ slices_S2x320000_S1x320000_0_0 (ix2 0 e) (ix2 0 e) (fun a => match a with
      | ⟨0, _⟩ => by show 0 = 0 + 0; rfl
      | ⟨1, _⟩ => by show e.val = 0 + e.val; omega)

/-! ## The bias vectors as single rows -/

/-- A vector of 128 numbers viewed as one row of 128: entry (0, q) of the row is entry q of the vector. -/
theorem row_of_vector_apply {α : Type} (x : S128.Idx → α) (q : Fin 128) :
    shapeCast S1x128 x shapeCasts_S128_S1x128 (ix2 0 q) = x (ix1 q) := by
  refine shapeCast_apply x shapeCasts_S128_S1x128 (ix2 0 q) (ix1 q) ?_
  rw [Shape.rowMajor_val_two, Shape.rowMajor_val_one]
  show q.val = 0 * 128 + q.val
  omega

/-- The first layer's gate bias as a row. -/
theorem bias1f_apply (V : Valuation τ sig (Elt F)) (q : Fin 128) :
    (StableHlo.after (hostOps0_4 (F := F)) V (Proc.devRef .tc main_v7) : S1x128.Idx → Elt F .f32) (ix2 0 q)
      = (V (Proc.devRef .tc main_arg6) : S128.Idx → Elt F .f32) (ix1 q) := by
  dsimp only [hostOps0_4]
  after_results
  exact row_of_vector_apply (V (Proc.devRef .tc main_arg6) : S128.Idx → Elt F .f32) q

/-- The first layer's core bias as a row. -/
theorem bias1s_apply (V : Valuation τ sig (Elt F)) (q : Fin 128) :
    (StableHlo.after (hostOps0_4 (F := F)) V (Proc.devRef .tc main_v8) : S1x128.Idx → Elt F .f32) (ix2 0 q)
      = (V (Proc.devRef .tc main_arg8) : S128.Idx → Elt F .f32) (ix1 q) := by
  dsimp only [hostOps0_4]
  after_results
  exact row_of_vector_apply (V (Proc.devRef .tc main_arg8) : S128.Idx → Elt F .f32) q

/-- The second layer's gate bias as a row. -/
theorem bias2f_apply (V : Valuation τ sig (Elt F)) (q : Fin 128) :
    (StableHlo.after (hostOps1_4 (F := F)) V (Proc.devRef .tc main_v17) : S1x128.Idx → Elt F .f32) (ix2 0 q)
      = (V (Proc.devRef .tc main_arg10) : S128.Idx → Elt F .f32) (ix1 q) := by
  dsimp only [hostOps1_4]
  after_results
  exact row_of_vector_apply (V (Proc.devRef .tc main_arg10) : S128.Idx → Elt F .f32) q

/-- The second layer's core bias as a row. -/
theorem bias2s_apply (V : Valuation τ sig (Elt F)) (q : Fin 128) :
    (StableHlo.after (hostOps1_4 (F := F)) V (Proc.devRef .tc main_v18) : S1x128.Idx → Elt F .f32) (ix2 0 q)
      = (V (Proc.devRef .tc main_arg12) : S128.Idx → Elt F .f32) (ix1 q) := by
  dsimp only [hostOps1_4]
  after_results
  exact row_of_vector_apply (V (Proc.devRef .tc main_arg12) : S128.Idx → Elt F .f32) q

/-- The third layer's gate bias as a row. -/
theorem bias3f_apply (V : Valuation τ sig (Elt F)) (q : Fin 128) :
    (StableHlo.after (hostOps2_4 (F := F)) V (Proc.devRef .tc main_v27) : S1x128.Idx → Elt F .f32) (ix2 0 q)
      = (V (Proc.devRef .tc main_arg14) : S128.Idx → Elt F .f32) (ix1 q) := by
  dsimp only [hostOps2_4]
  after_results
  exact row_of_vector_apply (V (Proc.devRef .tc main_arg14) : S128.Idx → Elt F .f32) q

/-- The third layer's core bias as a row. -/
theorem bias3s_apply (V : Valuation τ sig (Elt F)) (q : Fin 128) :
    (StableHlo.after (hostOps2_4 (F := F)) V (Proc.devRef .tc main_v28) : S1x128.Idx → Elt F .f32) (ix2 0 q)
      = (V (Proc.devRef .tc main_arg16) : S128.Idx → Elt F .f32) (ix1 q) := by
  dsimp only [hostOps2_4]
  after_results
  exact row_of_vector_apply (V (Proc.devRef .tc main_arg16) : S128.Idx → Elt F .f32) q

end Cert.KernelIdeal.Edges

end
-- ==== Proof.KernelFold.lean ====
/-
  The value the idealized kernel program leaves in its result buffer, read off the fold of its host stretches and its
  three calls, at the extended reals.

  The arrays are named at the boundary where they are written: the source and target node of every edge (the two rows
  of the edge table), the node array before the first layer (the embedding rows the node types look up), each layer's
  message array (what the layer's call leaves) and the node array after each layer. Each is a function of the ones
  before it: a message array is the message function of the rows the edges' two nodes look up in the node array, a
  node array is the update of the previous one by the messages, and the result is the readout of the last one.
-/
import proofs.«419282_j17575006175633_1_alg».proof.Proof.FoldKeeps
import proofs.«419282_j17575006175633_1_alg».proof.Proof.FoldWrites
import proofs.«419282_j17575006175633_1_alg».proof.Proof.TakeDefs
import proofs.«419282_j17575006175633_1_alg».proof.Proof.TakeWrites
import proofs.«419282_j17575006175633_1_alg».proof.Proof.RegionArrays
import proofs.«419282_j17575006175633_1_alg».proof.Proof.EdgeIndex
import proofs.«419282_j17575006175633_1_alg».proof.Proof.MessageSpec
import Idealize.ShloMosaic.Lib.ValueIdx

set_option maxRecDepth 16384

noncomputable section

namespace Cert.KernelIdeal.Fold

open Cert.KernelIdeal Cert.KernelIdeal.Gen Cert.KernelIdeal.Takes Cert.KernelIdeal.Arrays Cert.KernelIdeal.Edges
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg) (c : Dev nD)

/-! ## The named arrays -/

/-- An argument array of the launch. -/
abbrev arg (r : Ref sig .tc) : Buf (Elt Ideal) ((c : Thread nD τ).loc r) := m ((c : Thread nD τ).loc r)

/-- The source node of every edge. -/
def srcK : IVec S320000 32 := W1 m ρ c (Proc.devRef .tc main_v1)
/-- The target node of every edge. -/
def dstK : IVec S320000 32 := W1 m ρ c (Proc.devRef .tc main_v3)
/-- The node array before the first layer. -/
def node0 : FVec Ideal S32000x128 .f32 := W2 m ρ c (Proc.devRef .tc main_v4)
/-- The first layer's messages. -/
def msg1 : FVec Ideal S320000x128 .f32 := W6 m ρ c (Proc.devRef .tc main_v9)
/-- The node array after the first layer. -/
def node1 : FVec Ideal S32000x128 .f32 := W8 m ρ c (Proc.devRef .tc main_v14)
/-- The second layer's messages. -/
def msg2 : FVec Ideal S320000x128 .f32 := W12 m ρ c (Proc.devRef .tc main_v19)
/-- The node array after the second layer. -/
def node2 : FVec Ideal S32000x128 .f32 := W14 m ρ c (Proc.devRef .tc main_v24)
/-- The third layer's messages. -/
def msg3 : FVec Ideal S320000x128 .f32 := W18 m ρ c (Proc.devRef .tc main_v29)
/-- The node array after the third layer. -/
def node3 : FVec Ideal S32000x128 .f32 := W20 m ρ c (Proc.devRef .tc main_v34)

/-! ## The edge table's rows -/

theorem srcK_apply (e : Fin 320000) : srcK m ρ c (ix1 e) = (arg m c main_arg1 : S2x320000.Idx → BitVec 32) (ix2 0 e) := by
  exact src_apply (W0 m ρ c) e

theorem dstK_apply (e : Fin 320000) : dstK m ρ c (ix1 e) = (arg m c main_arg1 : S2x320000.Idx → BitVec 32) (ix2 1 e) := by
  exact dst_apply (W0 m ρ c) e

/-! ## The layers -/

/-- The node array before the first layer: the embedding rows the node types look up. -/
theorem node0_eq : node0 m ρ c = takeEmb (arg m c main_arg4) (arg m c main_arg0) := by
  unfold node0
  rw [W2_def, after_take_emb, W1_keep_arg4 m ρ c, W1_keep_arg0 m ρ c]

/-! ## Layer 1 -/

/-- The rows the edges' target nodes look up in the node array, as the layer's call finds them. -/
theorem hd1_eq : W5 m ρ c (Proc.devRef .tc main_v5) = takeNode (node0 m ρ c) (dstK m ρ c) := by
  rw [W5_keep_v5 m ρ c, W3_def, after_take_1d, W2_keep_v3 m ρ c]
  rfl

/-- The rows the edges' source nodes look up. -/
theorem hs1_eq : W5 m ρ c (Proc.devRef .tc main_v6) = takeNode (node0 m ρ c) (srcK m ρ c) := by
  rw [W5_keep_v6 m ρ c, W4_def, after_take_1s, W3_keep_v4 m ρ c, W3_keep_v1 m ρ c]
  rfl

/-- The layer's first bias as the call finds it: the argument vector as one row. -/
theorem bf1_eq (q : Fin 128) :
    (W5 m ρ c (Proc.devRef .tc main_v7) : S1x128.Idx → EReal) (ix2 0 q) = (arg m c main_arg6 : S128.Idx → EReal) (ix1 q) := by
  rw [W5_def]
  exact (bias1f_apply (W4 m ρ c) q).trans (congrFun (W4_keep_arg6 m ρ c) (ix1 q))

/-- The layer's second bias. -/
theorem bs1_eq (q : Fin 128) :
    (W5 m ρ c (Proc.devRef .tc main_v8) : S1x128.Idx → EReal) (ix2 0 q) = (arg m c main_arg8 : S128.Idx → EReal) (ix1 q) := by
  rw [W5_def]
  exact (bias1s_apply (W4 m ρ c) q).trans (congrFun (W4_keep_arg8 m ρ c) (ix1 q))

/-- Layer 1's messages, entry by entry: the message function of the rows the edges' target and source nodes look up in
    the node array before the layer, the edges' own features, and the layer's two matrices and two biases. -/
theorem msg1_apply (e : Fin 320000) (q : Fin 128) :
    msg1 m ρ c (ix2 e q)
      = Cert.Message.message (takeNode (node0 m ρ c) (dstK m ρ c)) (takeNode (node0 m ρ c) (srcK m ρ c))
          (arg m c main_arg2) (arg m c main_arg5) (fun q => (arg m c main_arg6 : S128.Idx → EReal) (ix1 q))
          (arg m c main_arg7) (fun q => (arg m c main_arg8 : S128.Idx → EReal) (ix1 q)) e q := by
  unfold msg1
  refine ((congrFun (W6_arr m ρ c 7) (ix2 e q)).trans (region0_array (V5 m ρ) c e q)).trans ?_
  have h0 : V5 m ρ c (Pipeline.arrRef spec0 0) = takeNode (node0 m ρ c) (dstK m ρ c) := hd1_eq m ρ c
  have h1 : V5 m ρ c (Pipeline.arrRef spec0 1) = takeNode (node0 m ρ c) (srcK m ρ c) := hs1_eq m ρ c
  have h2 : V5 m ρ c (Pipeline.arrRef spec0 2) = arg m c main_arg2 := W5_keep_arg2 m ρ c
  have h3 : V5 m ρ c (Pipeline.arrRef spec0 3) = arg m c main_arg5 := W5_keep_arg5 m ρ c
  have h5 : V5 m ρ c (Pipeline.arrRef spec0 5) = arg m c main_arg7 := W5_keep_arg7 m ρ c
  have h4 : (fun q => V5 m ρ c (Pipeline.arrRef spec0 4) (ix2 0 q)) = fun q => (arg m c main_arg6 : S128.Idx → EReal) (ix1 q) :=
    funext (bf1_eq m ρ c)
  have h6 : (fun q => V5 m ρ c (Pipeline.arrRef spec0 6) (ix2 0 q)) = fun q => (arg m c main_arg8 : S128.Idx → EReal) (ix1 q) :=
    funext (bs1_eq m ρ c)
  rw [h0, h1, h2, h3, h5, h4, h6]

/-- The node array after layer 1: the one before it updated by the layer's messages. -/
theorem node1_eq : node1 m ρ c = aggregate (node0 m ρ c) (dstK m ρ c) (msg1 m ρ c) := by
  unfold node1
  rw [W8_def, W7_def, after_update_1, W6_keep_v4 m ρ c, W6_keep_v3 m ρ c]
  rfl

/-! ## Layer 2 -/

/-- The rows the edges' target nodes look up in the node array, as the layer's call finds them. -/
theorem hd2_eq : W11 m ρ c (Proc.devRef .tc main_v15) = takeNode (node1 m ρ c) (dstK m ρ c) := by
  rw [W11_keep_v15 m ρ c, W9_def, after_take_2d, W8_keep_v3 m ρ c]
  rfl

/-- The rows the edges' source nodes look up. -/
theorem hs2_eq : W11 m ρ c (Proc.devRef .tc main_v16) = takeNode (node1 m ρ c) (srcK m ρ c) := by
  rw [W11_keep_v16 m ρ c, W10_def, after_take_2s, W9_keep_v14 m ρ c, W9_keep_v1 m ρ c]
  rfl

/-- The layer's first bias as the call finds it: the argument vector as one row. -/
theorem bf2_eq (q : Fin 128) :
    (W11 m ρ c (Proc.devRef .tc main_v17) : S1x128.Idx → EReal) (ix2 0 q) = (arg m c main_arg10 : S128.Idx → EReal) (ix1 q) := by
  rw [W11_def]
  exact (bias2f_apply (W10 m ρ c) q).trans (congrFun (W10_keep_arg10 m ρ c) (ix1 q))

/-- The layer's second bias. -/
theorem bs2_eq (q : Fin 128) :
    (W11 m ρ c (Proc.devRef .tc main_v18) : S1x128.Idx → EReal) (ix2 0 q) = (arg m c main_arg12 : S128.Idx → EReal) (ix1 q) := by
  rw [W11_def]
  exact (bias2s_apply (W10 m ρ c) q).trans (congrFun (W10_keep_arg12 m ρ c) (ix1 q))

/-- Layer 2's messages, entry by entry: the message function of the rows the edges' target and source nodes look up in
    the node array before the layer, the edges' own features, and the layer's two matrices and two biases. -/
theorem msg2_apply (e : Fin 320000) (q : Fin 128) :
    msg2 m ρ c (ix2 e q)
      = Cert.Message.message (takeNode (node1 m ρ c) (dstK m ρ c)) (takeNode (node1 m ρ c) (srcK m ρ c))
          (arg m c main_arg2) (arg m c main_arg9) (fun q => (arg m c main_arg10 : S128.Idx → EReal) (ix1 q))
          (arg m c main_arg11) (fun q => (arg m c main_arg12 : S128.Idx → EReal) (ix1 q)) e q := by
  unfold msg2
  refine ((congrFun (W12_arr m ρ c 7) (ix2 e q)).trans (region1_array (V11 m ρ) c e q)).trans ?_
  have h0 : V11 m ρ c (Pipeline.arrRef spec1 0) = takeNode (node1 m ρ c) (dstK m ρ c) := hd2_eq m ρ c
  have h1 : V11 m ρ c (Pipeline.arrRef spec1 1) = takeNode (node1 m ρ c) (srcK m ρ c) := hs2_eq m ρ c
  have h2 : V11 m ρ c (Pipeline.arrRef spec1 2) = arg m c main_arg2 := W11_keep_arg2 m ρ c
  have h3 : V11 m ρ c (Pipeline.arrRef spec1 3) = arg m c main_arg9 := W11_keep_arg9 m ρ c
  have h5 : V11 m ρ c (Pipeline.arrRef spec1 5) = arg m c main_arg11 := W11_keep_arg11 m ρ c
  have h4 : (fun q => V11 m ρ c (Pipeline.arrRef spec1 4) (ix2 0 q)) = fun q => (arg m c main_arg10 : S128.Idx → EReal) (ix1 q) :=
    funext (bf2_eq m ρ c)
  have h6 : (fun q => V11 m ρ c (Pipeline.arrRef spec1 6) (ix2 0 q)) = fun q => (arg m c main_arg12 : S128.Idx → EReal) (ix1 q) :=
    funext (bs2_eq m ρ c)
  rw [h0, h1, h2, h3, h5, h4, h6]

/-- The node array after layer 2: the one before it updated by the layer's messages. -/
theorem node2_eq : node2 m ρ c = aggregate (node1 m ρ c) (dstK m ρ c) (msg2 m ρ c) := by
  unfold node2
  rw [W14_def, W13_def, after_update_2, W12_keep_v14 m ρ c, W12_keep_v3 m ρ c]
  rfl

/-! ## Layer 3 -/

/-- The rows the edges' target nodes look up in the node array, as the layer's call finds them. -/
theorem hd3_eq : W17 m ρ c (Proc.devRef .tc main_v25) = takeNode (node2 m ρ c) (dstK m ρ c) := by
  rw [W17_keep_v25 m ρ c, W15_def, after_take_3d, W14_keep_v3 m ρ c]
  rfl

/-- The rows the edges' source nodes look up. -/
theorem hs3_eq : W17 m ρ c (Proc.devRef .tc main_v26) = takeNode (node2 m ρ c) (srcK m ρ c) := by
  rw [W17_keep_v26 m ρ c, W16_def, after_take_3s, W15_keep_v24 m ρ c, W15_keep_v1 m ρ c]
  rfl

/-- The layer's first bias as the call finds it: the argument vector as one row. -/
theorem bf3_eq (q : Fin 128) :
    (W17 m ρ c (Proc.devRef .tc main_v27) : S1x128.Idx → EReal) (ix2 0 q) = (arg m c main_arg14 : S128.Idx → EReal) (ix1 q) := by
  rw [W17_def]
  exact (bias3f_apply (W16 m ρ c) q).trans (congrFun (W16_keep_arg14 m ρ c) (ix1 q))

/-- The layer's second bias. -/
theorem bs3_eq (q : Fin 128) :
    (W17 m ρ c (Proc.devRef .tc main_v28) : S1x128.Idx → EReal) (ix2 0 q) = (arg m c main_arg16 : S128.Idx → EReal) (ix1 q) := by
  rw [W17_def]
  exact (bias3s_apply (W16 m ρ c) q).trans (congrFun (W16_keep_arg16 m ρ c) (ix1 q))

/-- Layer 3's messages, entry by entry: the message function of the rows the edges' target and source nodes look up in
    the node array before the layer, the edges' own features, and the layer's two matrices and two biases. -/
theorem msg3_apply (e : Fin 320000) (q : Fin 128) :
    msg3 m ρ c (ix2 e q)
      = Cert.Message.message (takeNode (node2 m ρ c) (dstK m ρ c)) (takeNode (node2 m ρ c) (srcK m ρ c))
          (arg m c main_arg2) (arg m c main_arg13) (fun q => (arg m c main_arg14 : S128.Idx → EReal) (ix1 q))
          (arg m c main_arg15) (fun q => (arg m c main_arg16 : S128.Idx → EReal) (ix1 q)) e q := by
  unfold msg3
  refine ((congrFun (W18_arr m ρ c 7) (ix2 e q)).trans (region2_array (V17 m ρ) c e q)).trans ?_
  have h0 : V17 m ρ c (Pipeline.arrRef spec2 0) = takeNode (node2 m ρ c) (dstK m ρ c) := hd3_eq m ρ c
  have h1 : V17 m ρ c (Pipeline.arrRef spec2 1) = takeNode (node2 m ρ c) (srcK m ρ c) := hs3_eq m ρ c
  have h2 : V17 m ρ c (Pipeline.arrRef spec2 2) = arg m c main_arg2 := W17_keep_arg2 m ρ c
  have h3 : V17 m ρ c (Pipeline.arrRef spec2 3) = arg m c main_arg13 := W17_keep_arg13 m ρ c
  have h5 : V17 m ρ c (Pipeline.arrRef spec2 5) = arg m c main_arg15 := W17_keep_arg15 m ρ c
  have h4 : (fun q => V17 m ρ c (Pipeline.arrRef spec2 4) (ix2 0 q)) = fun q => (arg m c main_arg14 : S128.Idx → EReal) (ix1 q) :=
    funext (bf3_eq m ρ c)
  have h6 : (fun q => V17 m ρ c (Pipeline.arrRef spec2 6) (ix2 0 q)) = fun q => (arg m c main_arg16 : S128.Idx → EReal) (ix1 q) :=
    funext (bs3_eq m ρ c)
  rw [h0, h1, h2, h3, h5, h4, h6]

/-- The node array after layer 3: the one before it updated by the layer's messages. -/
theorem node3_eq : node3 m ρ c = aggregate (node2 m ρ c) (dstK m ρ c) (msg3 m ρ c) := by
  unfold node3
  rw [W20_def, W19_def, after_update_3, W18_keep_v24 m ρ c, W18_keep_v3 m ρ c]
  rfl

/-! ## The result -/

/-- The result buffer after the last stretch: the readout of the node array after the third layer. -/
theorem result_eq :
    W21 m ρ c (Proc.devRef .tc main_v50) = readout (node3 m ρ c) (arg m c main_arg3) (arg m c main_arg17) (arg m c main_arg18) := by
  rw [W21_def, after_readout, W20_keep_arg3 m ρ c, W20_keep_arg17 m ρ c, W20_keep_arg18 m ρ c]
  rfl

end Cert.KernelIdeal.Fold

end
-- ==== Proof.RefShape.lean ====
/-
  The reference program's stages, restated over the named functions of one layer.

  Between its contractions the reference does four things, three times over: it reads a column of the edge list, it
  takes rows of a node array at a column of indices (an index below zero counted from the end), it adds to a node array
  the sum, at each node, of the messages of the edges that point at it and keeps the positive part, and at the end it
  averages every graph's node rows and applies an affine map. Each is one named function of the arrays it reads. This
  file says, stage by stage, that the reference's operations between two such arrays are that function of them: every
  equation unfolds the few operations in between and the function's own definition, and the two sides are then the same
  term. The node arrays and the message arrays themselves stay closed on both sides.
-/
import proofs.«419282_j17575006175633_1_alg».proof.Proof.RefRead
import proofs.«419282_j17575006175633_1_alg».proof.Proof.TakeDefs
import proofs.«419282_j17575006175633_1_alg».proof.Proof.FoldWrites
import Idealize.ShloMosaic.Lib.ValueIdx

noncomputable section

namespace Cert.ReferenceIdeal.Shape

open Idealize.ShloMosaic Idealize.ShloMosaic.ValueIdx Cert.KernelIdeal

variable {F : FTy → Type} [FloatOps F]

/-! ## The two columns of the edge list -/

/-- The source column of the edge list: row 0 of the 2 × 320000 index array. -/
theorem ref_src_apply (x1 : (⟨S2x320000, .i32⟩ : BufTy).Contents (Elt F)) (e : Fin 320000) :
    Stages.val_main_v1 (F := F) x1 (ix1 e)
      = x1 (ix2 (0 : Fin 2) e) := by
  rw [Stages.val_main_v1_apply, Stages.val_main_v0_apply]
  refine congrArg x1 (funext fun a => ?_)
  match a with
  | ⟨0, _⟩ => rfl
  | ⟨1, _⟩ => exact Fin.ext (Nat.mod_eq_of_lt e.isLt)

/-- The target column of the edge list: row 1 of the 2 × 320000 index array. -/
theorem ref_dst_apply (x1 : (⟨S2x320000, .i32⟩ : BufTy).Contents (Elt F)) (e : Fin 320000) :
    Stages.val_main_v3 (F := F) x1 (ix1 e)
      = x1 (ix2 (1 : Fin 2) e) := by
  rw [Stages.val_main_v3_apply, Stages.val_main_v2_apply]
  refine congrArg x1 (funext fun a => ?_)
  match a with
  | ⟨0, _⟩ => rfl
  | ⟨1, _⟩ => exact Fin.ext (Nat.mod_eq_of_lt e.isLt)

/-! ## The node arrays and the gathered rows, layer by layer -/

/-- The embedded node features: the rows of the 100 × 128 table at the node types, a negative type counted from the end. -/
theorem stage_h0 (x0 : (⟨S32000, .i32⟩ : BufTy).Contents (Elt F)) (x4 : (⟨S100x128, .f32⟩ : BufTy).Contents (Elt F)) :
    Stages.val_main_v10 (F := F) x0 x4
      = Takes.gatherEmb x4 x0 := by
  unfold Stages.val_main_v10 Stages.val_main_v9 Stages.val_main_v8 Stages.val_main_v7 Stages.val_main_v6 Stages.val_main_c_0 Stages.val_main_v5 Stages.val_main_v4 Stages.val_main_c Takes.gatherEmb Takes.wrapColEmb
  rfl

/-- Layer 1, the target nodes' rows: the embedded node features gathered at the target column. -/
theorem stage_hd1 (x0 : (⟨S32000, .i32⟩ : BufTy).Contents (Elt F)) (x1 : (⟨S2x320000, .i32⟩ : BufTy).Contents (Elt F)) (x4 : (⟨S100x128, .f32⟩ : BufTy).Contents (Elt F)) :
    Stages.val_main_v17 (F := F) x0 x1 x4
      = Takes.gatherNode (Stages.val_main_v10 (F := F) x0 x4) (Stages.val_main_v3 (F := F) x1) := by
  unfold Stages.val_main_v17 Stages.val_main_v16 Stages.val_main_v15 Stages.val_main_v14 Stages.val_main_v13 Stages.val_main_c_2 Stages.val_main_v12 Stages.val_main_v11 Stages.val_main_c_1 Takes.gatherNode Takes.wrapColNode
  rfl

/-- Layer 1, the source nodes' rows: the embedded node features gathered at the source column. -/
theorem stage_hs1 (x0 : (⟨S32000, .i32⟩ : BufTy).Contents (Elt F)) (x1 : (⟨S2x320000, .i32⟩ : BufTy).Contents (Elt F)) (x4 : (⟨S100x128, .f32⟩ : BufTy).Contents (Elt F)) :
    Stages.val_main_v24 (F := F) x0 x1 x4
      = Takes.gatherNode (Stages.val_main_v10 (F := F) x0 x4) (Stages.val_main_v1 (F := F) x1) := by
  unfold Stages.val_main_v24 Stages.val_main_v23 Stages.val_main_v22 Stages.val_main_v21 Stages.val_main_v20 Stages.val_main_c_4 Stages.val_main_v19 Stages.val_main_v18 Stages.val_main_c_3 Takes.gatherNode Takes.wrapColNode
  rfl

/-- Layer 1's node array: the embedded node features updated by the first layer's messages. -/
theorem stage_h1 (x0 : (⟨S32000, .i32⟩ : BufTy).Contents (Elt F)) (x1 : (⟨S2x320000, .i32⟩ : BufTy).Contents (Elt F)) (x2 : (⟨S320000x32, .f32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) :
    Stages.val_main_v46 (F := F) x0 x1 x2 x4 x5 x6 x7 x8
      = Fold.aggregate (Stages.val_main_v10 (F := F) x0 x4) (Stages.val_main_v3 (F := F) x1) (Stages.val_main_v41 (F := F) x0 x1 x2 x4 x5 x6 x7 x8) := by
  unfold Stages.val_main_v46 Stages.val_main_call1_v0 Stages.val_main_call1_cst Stages.val_main_v45 Stages.val_main_v44 Stages.val_main_v43 Stages.val_main_v42 Stages.val_main_cst_6 Fold.aggregate
  rfl

/-- Layer 2, the target nodes' rows. -/
theorem stage_hd2 (x0 : (⟨S32000, .i32⟩ : BufTy).Contents (Elt F)) (x1 : (⟨S2x320000, .i32⟩ : BufTy).Contents (Elt F)) (x2 : (⟨S320000x32, .f32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) :
    Stages.val_main_v53 (F := F) x0 x1 x2 x4 x5 x6 x7 x8
      = Takes.gatherNode (Stages.val_main_v46 (F := F) x0 x1 x2 x4 x5 x6 x7 x8) (Stages.val_main_v3 (F := F) x1) := by
  unfold Stages.val_main_v53 Stages.val_main_v52 Stages.val_main_v51 Stages.val_main_v50 Stages.val_main_v49 Stages.val_main_c_8 Stages.val_main_v48 Stages.val_main_v47 Stages.val_main_c_7 Takes.gatherNode Takes.wrapColNode
  rfl

/-- Layer 2, the source nodes' rows. -/
theorem stage_hs2 (x0 : (⟨S32000, .i32⟩ : BufTy).Contents (Elt F)) (x1 : (⟨S2x320000, .i32⟩ : BufTy).Contents (Elt F)) (x2 : (⟨S320000x32, .f32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) :
    Stages.val_main_v60 (F := F) x0 x1 x2 x4 x5 x6 x7 x8
      = Takes.gatherNode (Stages.val_main_v46 (F := F) x0 x1 x2 x4 x5 x6 x7 x8) (Stages.val_main_v1 (F := F) x1) := by
  unfold Stages.val_main_v60 Stages.val_main_v59 Stages.val_main_v58 Stages.val_main_v57 Stages.val_main_v56 Stages.val_main_c_10 Stages.val_main_v55 Stages.val_main_v54 Stages.val_main_c_9 Takes.gatherNode Takes.wrapColNode
  rfl

/-- Layer 2's node array: the first layer's updated by the second layer's messages. -/
theorem stage_h2 (x0 : (⟨S32000, .i32⟩ : BufTy).Contents (Elt F)) (x1 : (⟨S2x320000, .i32⟩ : BufTy).Contents (Elt F)) (x2 : (⟨S320000x32, .f32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) (x9 : (⟨S288x128, .f32⟩ : BufTy).Contents (Elt F)) (x10 : (⟨S128, .f32⟩ : BufTy).Contents (Elt F)) (x11 : (⟨S288x128, .f32⟩ : BufTy).Contents (Elt F)) (x12 : (⟨S128, .f32⟩ : BufTy).Contents (Elt F)) :
    Stages.val_main_v82 (F := F) x0 x1 x2 x4 x5 x6 x7 x8 x9 x10 x11 x12
      = Fold.aggregate (Stages.val_main_v46 (F := F) x0 x1 x2 x4 x5 x6 x7 x8) (Stages.val_main_v3 (F := F) x1) (Stages.val_main_v77 (F := F) x0 x1 x2 x4 x5 x6 x7 x8 x9 x10 x11 x12) := by
  unfold Stages.val_main_v82 Stages.val_main_call3_v0 Stages.val_main_call3_cst Stages.val_main_v81 Stages.val_main_v80 Stages.val_main_v79 Stages.val_main_v78 Stages.val_main_cst_13 Fold.aggregate
  rfl

/-- Layer 3, the target nodes' rows. -/
theorem stage_hd3 (x0 : (⟨S32000, .i32⟩ : BufTy).Contents (Elt F)) (x1 : (⟨S2x320000, .i32⟩ : BufTy).Contents (Elt F)) (x2 : (⟨S320000x32, .f32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) (x9 : (⟨S288x128, .f32⟩ : BufTy).Contents (Elt F)) (x10 : (⟨S128, .f32⟩ : BufTy).Contents (Elt F)) (x11 : (⟨S288x128, .f32⟩ : BufTy).Contents (Elt F)) (x12 : (⟨S128, .f32⟩ : BufTy).Contents (Elt F)) :
    Stages.val_main_v89 (F := F) x0 x1 x2 x4 x5 x6 x7 x8 x9 x10 x11 x12
      = Takes.gatherNode (Stages.val_main_v82 (F := F) x0 x1 x2 x4 x5 x6 x7 x8 x9 x10 x11 x12) (Stages.val_main_v3 (F := F) x1) := by
  unfold Stages.val_main_v89 Stages.val_main_v88 Stages.val_main_v87 Stages.val_main_v86 Stages.val_main_v85 Stages.val_main_c_15 Stages.val_main_v84 Stages.val_main_v83 Stages.val_main_c_14 Takes.gatherNode Takes.wrapColNode
  rfl

/-- Layer 3, the source nodes' rows. -/
theorem stage_hs3 (x0 : (⟨S32000, .i32⟩ : BufTy).Contents (Elt F)) (x1 : (⟨S2x320000, .i32⟩ : BufTy).Contents (Elt F)) (x2 : (⟨S320000x32, .f32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) (x9 : (⟨S288x128, .f32⟩ : BufTy).Contents (Elt F)) (x10 : (⟨S128, .f32⟩ : BufTy).Contents (Elt F)) (x11 : (⟨S288x128, .f32⟩ : BufTy).Contents (Elt F)) (x12 : (⟨S128, .f32⟩ : BufTy).Contents (Elt F)) :
    Stages.val_main_v96 (F := F) x0 x1 x2 x4 x5 x6 x7 x8 x9 x10 x11 x12
      = Takes.gatherNode (Stages.val_main_v82 (F := F) x0 x1 x2 x4 x5 x6 x7 x8 x9 x10 x11 x12) (Stages.val_main_v1 (F := F) x1) := by
  unfold Stages.val_main_v96 Stages.val_main_v95 Stages.val_main_v94 Stages.val_main_v93 Stages.val_main_v92 Stages.val_main_c_17 Stages.val_main_v91 Stages.val_main_v90 Stages.val_main_c_16 Takes.gatherNode Takes.wrapColNode
  rfl

/-- Layer 3's node array: the second layer's updated by the third layer's messages. -/
theorem stage_h3 (x0 : (⟨S32000, .i32⟩ : BufTy).Contents (Elt F)) (x1 : (⟨S2x320000, .i32⟩ : BufTy).Contents (Elt F)) (x2 : (⟨S320000x32, .f32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) (x9 : (⟨S288x128, .f32⟩ : BufTy).Contents (Elt F)) (x10 : (⟨S128, .f32⟩ : BufTy).Contents (Elt F)) (x11 : (⟨S288x128, .f32⟩ : BufTy).Contents (Elt F)) (x12 : (⟨S128, .f32⟩ : BufTy).Contents (Elt F)) (x13 : (⟨S288x128, .f32⟩ : BufTy).Contents (Elt F)) (x14 : (⟨S128, .f32⟩ : BufTy).Contents (Elt F)) (x15 : (⟨S288x128, .f32⟩ : BufTy).Contents (Elt F)) (x16 : (⟨S128, .f32⟩ : BufTy).Contents (Elt F)) :
    Stages.val_main_v118 (F := F) x0 x1 x2 x4 x5 x6 x7 x8 x9 x10 x11 x12 x13 x14 x15 x16
      = Fold.aggregate (Stages.val_main_v82 (F := F) x0 x1 x2 x4 x5 x6 x7 x8 x9 x10 x11 x12) (Stages.val_main_v3 (F := F) x1) (Stages.val_main_v113 (F := F) x0 x1 x2 x4 x5 x6 x7 x8 x9 x10 x11 x12 x13 x14 x15 x16) := by
  unfold Stages.val_main_v118 Stages.val_main_call5_v0 Stages.val_main_call5_cst Stages.val_main_v117 Stages.val_main_v116 Stages.val_main_v115 Stages.val_main_v114 Stages.val_main_cst_20 Fold.aggregate
  rfl

/-! ## The result -/

/-- The result: the readout of the third layer's node array over the graph assignment, the last matrix and the last bias. -/
theorem stage_out (x0 : (⟨S32000, .i32⟩ : BufTy).Contents (Elt F)) (x1 : (⟨S2x320000, .i32⟩ : BufTy).Contents (Elt F)) (x2 : (⟨S320000x32, .f32⟩ : BufTy).Contents (Elt F)) (x3 : (⟨S32000, .i32⟩ : BufTy).Contents (Elt F)) (x4 : (⟨S100x128, .f32⟩ : BufTy).Contents (Elt F)) (x5 : (⟨S288x128, .f32⟩ : BufTy).Contents (Elt F)) (x6 : (⟨S128, .f32⟩ : BufTy).Contents (Elt F)) (x7 : (⟨S288x128, .f32⟩ : BufTy).Contents (Elt F)) (x8 : (⟨S128, .f32⟩ : BufTy).Contents (Elt F)) (x9 : (⟨S288x128, .f32⟩ : BufTy).Contents (Elt F)) (x10 : (⟨S128, .f32⟩ : BufTy).Contents (Elt F)) (x11 : (⟨S288x128, .f32⟩ : BufTy).Contents (Elt F)) (x12 : (⟨S128, .f32⟩ : BufTy).Contents (Elt F)) (x13 : (⟨S288x128, .f32⟩ : BufTy).Contents (Elt F)) (x14 : (⟨S128, .f32⟩ : BufTy).Contents (Elt F)) (x15 : (⟨S288x128, .f32⟩ : BufTy).Contents (Elt F)) (x16 : (⟨S128, .f32⟩ : BufTy).Contents (Elt F)) (x17 : (⟨S128x128, .f32⟩ : BufTy).Contents (Elt F)) (x18 : (⟨S128, .f32⟩ : BufTy).Contents (Elt F)) :
    Stages.val_main_v134 (F := F) x0 x1 x2 x3 x4 x5 x6 x7 x8 x9 x10 x11 x12 x13 x14 x15 x16 x17 x18
      = Fold.readout (Stages.val_main_v118 (F := F) x0 x1 x2 x4 x5 x6 x7 x8 x9 x10 x11 x12 x13 x14 x15 x16) x3 x17 x18 := by
  unfold Stages.val_main_v134 Stages.val_main_v133 Stages.val_main_v132 Stages.val_main_v131 Stages.val_main_v130 Stages.val_main_v129 Stages.val_main_v128 Stages.val_main_v127 Stages.val_main_v126 Stages.val_main_cst_24 Stages.val_main_v125 Stages.val_main_v124 Stages.val_main_v123 Stages.val_main_cst_23 Stages.val_main_v122 Stages.val_main_cst_22 Stages.val_main_v121 Stages.val_main_v120 Stages.val_main_v119 Stages.val_main_cst_21 Fold.readout
  rfl

end Cert.ReferenceIdeal.Shape

end
-- ==== Proof.RefMessage.lean ====
/-
  The reference program's message array, layer by layer.

  In each of its three layers the reference gathers, for every edge e, the target node's and the source node's 128
  features out of the layer's node array, lays them beside the edge's own 32 radial features into one row of 288
  numbers, and sends that row through two affine maps (a 288 × 128 matrix and a bias of 128 numbers each): a gate
  argument f and a core argument s for every output feature q. The gate is 1 ÷ (1 + e^(−f)), the core the softplus
  spelled  select (d ≠ d) (s + 0) (max s 0 + log1p (e^(−|d|)))  with d = s − 0, and the message their product.

  Read at an entry (e, q), every operation between the row array and the product is one operation on extended reals:
  the contraction is the sum over the 288 features of row entry times matrix entry, a bias broadcast reads entry q of the
  bias, the constants 1.0 and 0.0 are the extended reals 1 and 0. What is left is the shared message function of the
  layer's two gathered arrays, the edge features, and the layer's two matrices and two biases — the same statement
  three times, over the layer's own arrays. The two gathers themselves are not opened.
-/
import proofs.«419282_j17575006175633_1_alg».proof.Proof.RefRead
import proofs.«419282_j17575006175633_1_alg».proof.Proof.Gen.ReferenceIdeal
import proofs.«419282_j17575006175633_1_alg».proof.Proof.MessageSpec
import proofs.«419282_j17575006175633_1_alg».proof.Proof.ConcatRow
import Idealize.ShloMosaic.Lib.IdealHost
import Idealize.ShloMosaic.Lib.ValueIdx
import Idealize.ShloMosaic.PureOps.Ideal.Laws
import Mathlib.Algebra.BigOperators.Group.Finset.Basic

noncomputable section

open scoped BigOperators

namespace Cert.ReferenceIdeal.Layers

open Idealize.ShloMosaic Idealize.ShloMosaic.ValueIdx Cert.Message

/-- 1 ÷ (1 + e^(−f)), the two ones spelled as the 32-bit pattern of 1.0, is the logistic function of f. -/
theorem gate_eq (f : EReal) :
    Ideal.div (Ideal.ofBits .f32 0x3F800000#32) (Ideal.ofBits .f32 0x3F800000#32 + Ideal.exp (-f)) = Ideal.logistic f := by
  rw [Ideal.ofBits_one_f32]
  rfl

/-- The softplus as the reference spells it — the difference d = s − 0 tested against itself, s + 0 where the test
    holds, max s 0 + log1p (e^(−|d|)) where it does not, every 0 the 32-bit pattern of 0.0 — is softplus s. -/
theorem core_eq (s : EReal) :
    Scalar.select (Ideal.cmp .une (s - Ideal.ofBits .f32 0x00000000#32) (s - Ideal.ofBits .f32 0x00000000#32))
      (s + Ideal.ofBits .f32 0x00000000#32)
      (max s (Ideal.ofBits .f32 0x00000000#32)
        + Ideal.log1p (Ideal.exp (-(max (s - Ideal.ofBits .f32 0x00000000#32) (-(s - Ideal.ofBits .f32 0x00000000#32))))))
      = softplus s := by
  rw [Ideal.ofBits_zero_f32]
  exact softplus_of_neg s

/-- A row of the three arrays laid side by side, against column q of a 288 × 128 matrix, plus entry q of a bias:
    the affine map of the row edge e reads. -/
theorem affine_eq (hd hs : S320000x128.Idx → EReal) (ea : S320000x32.Idx → EReal)
    (h : Shape.Concatenates [S320000x128, S320000x128, S320000x32] S320000x288 (1 : Fin 2))
    (W : S288x128.Idx → EReal) (b : S128.Idx → EReal) (e : Fin 320000) (q : Fin 128) :
    (∑ k : Fin 288, concatenate S320000x288 1 [⟨S320000x128, hd⟩, ⟨S320000x128, hs⟩, ⟨S320000x32, ea⟩] h (ix2 e k) * W (ix2 k q))
        + b (ix1 q)
      = affine (zrow hd hs ea e) W (fun q => b (ix1 q)) q := by
  unfold affine
  refine congrArg (· + b (ix1 q)) (Finset.sum_congr rfl fun k _ => ?_)
  exact congrArg (· * W (ix2 k q)) (concat_row hd hs ea h e k)

/-- The gate times the core, over the two affine maps of one row, is the message. -/
theorem message_eq (hd hs : S320000x128.Idx → EReal) (ea : S320000x32.Idx → EReal)
    (Wf : S288x128.Idx → EReal) (bf : Fin 128 → EReal) (Ws : S288x128.Idx → EReal) (bs : Fin 128 → EReal)
    (e : Fin 320000) (q : Fin 128) (f s : EReal)
    (hf : f = affine (zrow hd hs ea e) Wf bf q) (hs' : s = affine (zrow hd hs ea e) Ws bs q) :
    Ideal.div (Ideal.ofBits .f32 0x3F800000#32) (Ideal.ofBits .f32 0x3F800000#32 + Ideal.exp (-f))
      * Scalar.select (Ideal.cmp .une (s - Ideal.ofBits .f32 0x00000000#32) (s - Ideal.ofBits .f32 0x00000000#32))
          (s + Ideal.ofBits .f32 0x00000000#32)
          (max s (Ideal.ofBits .f32 0x00000000#32)
            + Ideal.log1p (Ideal.exp (-(max (s - Ideal.ofBits .f32 0x00000000#32) (-(s - Ideal.ofBits .f32 0x00000000#32))))))
      = message hd hs ea Wf bf Ws bs e q := by
  rw [gate_eq, core_eq, hf, hs']
  rfl

/-! ## Layer 1: the rows gathered out of the embedded node features -/

/-- Entry (e, q) of the first layer's message array is the message of edge e at feature q over the two arrays of rows
    gathered from the embedded node features, the edge features, and the first layer's matrices and biases. -/
theorem msg1_apply (x0 : (⟨S32000, .i32⟩ : BufTy).Contents (Elt Ideal)) (x1 : (⟨S2x320000, .i32⟩ : BufTy).Contents (Elt Ideal)) (x2 : (⟨S320000x32, .f32⟩ : BufTy).Contents (Elt Ideal)) (x4 : (⟨S100x128, .f32⟩ : BufTy).Contents (Elt Ideal)) (x5 : (⟨S288x128, .f32⟩ : BufTy).Contents (Elt Ideal)) (x6 : (⟨S128, .f32⟩ : BufTy).Contents (Elt Ideal)) (x7 : (⟨S288x128, .f32⟩ : BufTy).Contents (Elt Ideal)) (x8 : (⟨S128, .f32⟩ : BufTy).Contents (Elt Ideal)) (e : Fin 320000) (q : Fin 128) :
    Stages.val_main_v41 (F := Ideal) x0 x1 x2 x4 x5 x6 x7 x8 (ix2 e q)
      = Cert.Message.message (Stages.val_main_v17 (F := Ideal) x0 x1 x4) (Stages.val_main_v24 (F := Ideal) x0 x1 x4) x2 x5 (fun q => x6 (ix1 q)) x7 (fun q => x8 (ix1 q)) e q := by
  -- the index maps of the two contractions and of the two bias broadcasts, by coordinates
  have hlf : ∀ k : Fin 288, Stages.lidx_main_v26 (ix2 e q) k = ix2 e k := fun k => funext fun a => by
    match a with
    | ⟨0, _⟩ => rfl
    | ⟨1, _⟩ => rfl
  have hrf : ∀ k : Fin 288, Stages.ridx_main_v26 (ix2 e q) k = ix2 k q := fun k => funext fun a => by
    match a with
    | ⟨0, _⟩ => rfl
    | ⟨1, _⟩ => rfl
  have hls : ∀ k : Fin 288, Stages.lidx_main_v36 (ix2 e q) k = ix2 e k := fun k => funext fun a => by
    match a with
    | ⟨0, _⟩ => rfl
    | ⟨1, _⟩ => rfl
  have hrs : ∀ k : Fin 288, Stages.ridx_main_v36 (ix2 e q) k = ix2 k q := fun k => funext fun a => by
    match a with
    | ⟨0, _⟩ => rfl
    | ⟨1, _⟩ => rfl
  have hbf : Stages.idx_main_v27 (Stages.idx_main_v28 (ix2 e q)) = ix1 q := funext fun a => by
    match a with
    | ⟨0, _⟩ => rfl
  have hbs : Stages.idx_main_v37 (Stages.idx_main_v38 (ix2 e q)) = ix1 q := funext fun a => by
    match a with
    | ⟨0, _⟩ => rfl
  -- every operation between the row array and the product, read at (e, q)
  rw [Stages.val_main_v41_apply, Stages.val_main_v35_apply, Stages.val_main_v34_apply, Stages.val_main_cst_5_apply,
    Stages.val_main_v33_apply, Stages.val_main_v32_apply, Stages.val_main_cst_apply, Stages.val_main_v31_apply,
    Stages.val_main_v30_apply, Stages.val_main_v29_apply, Stages.val_main_v26_apply, Stages.val_main_v28_apply,
    Stages.val_main_v27_apply, Stages.val_main_v40_apply, Stages.val_main_call0_v4_apply,
    Stages.val_main_call0_v6_apply, Stages.val_main_call0_v11_apply, Stages.val_main_call0_v1_apply,
    Stages.val_main_call0_v10_apply, Stages.val_main_call0_v9_apply, Stages.val_main_call0_v8_apply,
    Stages.val_main_call0_v7_apply, Stages.val_main_call0_v3_apply, Stages.val_main_call0_v0_apply,
    Stages.val_main_call0_v2_apply, Stages.val_main_call0_v5_apply, Stages.val_main_call0_cst_apply,
    Stages.val_main_v39_apply, Stages.val_main_v36_apply, Stages.val_main_v38_apply, Stages.val_main_v37_apply]
  simp only [hlf, hrf, hls, hrs, hbf, hbs]
  exact message_eq (Stages.val_main_v17 (F := Ideal) x0 x1 x4) (Stages.val_main_v24 (F := Ideal) x0 x1 x4) x2 x5 (fun q => x6 (ix1 q)) x7 (fun q => x8 (ix1 q)) e q _ _
    (affine_eq (Stages.val_main_v17 (F := Ideal) x0 x1 x4) (Stages.val_main_v24 (F := Ideal) x0 x1 x4) x2 Gen.concatenates_S320000x128_S320000x128_S320000x32_S320000x288_d1 x5 x6 e q) (affine_eq (Stages.val_main_v17 (F := Ideal) x0 x1 x4) (Stages.val_main_v24 (F := Ideal) x0 x1 x4) x2 Gen.concatenates_S320000x128_S320000x128_S320000x32_S320000x288_d1 x7 x8 e q)

/-! ## Layer 2: the rows gathered out of the first layer's node array -/

/-- The same for the second layer: its rows are gathered from the first layer's node array. -/
theorem msg2_apply (x0 : (⟨S32000, .i32⟩ : BufTy).Contents (Elt Ideal)) (x1 : (⟨S2x320000, .i32⟩ : BufTy).Contents (Elt Ideal)) (x2 : (⟨S320000x32, .f32⟩ : BufTy).Contents (Elt Ideal)) (x4 : (⟨S100x128, .f32⟩ : BufTy).Contents (Elt Ideal)) (x5 : (⟨S288x128, .f32⟩ : BufTy).Contents (Elt Ideal)) (x6 : (⟨S128, .f32⟩ : BufTy).Contents (Elt Ideal)) (x7 : (⟨S288x128, .f32⟩ : BufTy).Contents (Elt Ideal)) (x8 : (⟨S128, .f32⟩ : BufTy).Contents (Elt Ideal)) (x9 : (⟨S288x128, .f32⟩ : BufTy).Contents (Elt Ideal)) (x10 : (⟨S128, .f32⟩ : BufTy).Contents (Elt Ideal)) (x11 : (⟨S288x128, .f32⟩ : BufTy).Contents (Elt Ideal)) (x12 : (⟨S128, .f32⟩ : BufTy).Contents (Elt Ideal)) (e : Fin 320000) (q : Fin 128) :
    Stages.val_main_v77 (F := Ideal) x0 x1 x2 x4 x5 x6 x7 x8 x9 x10 x11 x12 (ix2 e q)
      = Cert.Message.message (Stages.val_main_v53 (F := Ideal) x0 x1 x2 x4 x5 x6 x7 x8) (Stages.val_main_v60 (F := Ideal) x0 x1 x2 x4 x5 x6 x7 x8) x2 x9 (fun q => x10 (ix1 q)) x11 (fun q => x12 (ix1 q)) e q := by
  -- the index maps of the two contractions and of the two bias broadcasts, by coordinates
  have hlf : ∀ k : Fin 288, Stages.lidx_main_v62 (ix2 e q) k = ix2 e k := fun k => funext fun a => by
    match a with
    | ⟨0, _⟩ => rfl
    | ⟨1, _⟩ => rfl
  have hrf : ∀ k : Fin 288, Stages.ridx_main_v62 (ix2 e q) k = ix2 k q := fun k => funext fun a => by
    match a with
    | ⟨0, _⟩ => rfl
    | ⟨1, _⟩ => rfl
  have hls : ∀ k : Fin 288, Stages.lidx_main_v72 (ix2 e q) k = ix2 e k := fun k => funext fun a => by
    match a with
    | ⟨0, _⟩ => rfl
    | ⟨1, _⟩ => rfl
  have hrs : ∀ k : Fin 288, Stages.ridx_main_v72 (ix2 e q) k = ix2 k q := fun k => funext fun a => by
    match a with
    | ⟨0, _⟩ => rfl
    | ⟨1, _⟩ => rfl
  have hbf : Stages.idx_main_v63 (Stages.idx_main_v64 (ix2 e q)) = ix1 q := funext fun a => by
    match a with
    | ⟨0, _⟩ => rfl
  have hbs : Stages.idx_main_v73 (Stages.idx_main_v74 (ix2 e q)) = ix1 q := funext fun a => by
    match a with
    | ⟨0, _⟩ => rfl
  -- every operation between the row array and the product, read at (e, q)
  rw [Stages.val_main_v77_apply, Stages.val_main_v71_apply, Stages.val_main_v70_apply, Stages.val_main_cst_12_apply,
    Stages.val_main_v69_apply, Stages.val_main_v68_apply, Stages.val_main_cst_11_apply, Stages.val_main_v67_apply,
    Stages.val_main_v66_apply, Stages.val_main_v65_apply, Stages.val_main_v62_apply, Stages.val_main_v64_apply,
    Stages.val_main_v63_apply, Stages.val_main_v76_apply, Stages.val_main_call2_v4_apply,
    Stages.val_main_call2_v6_apply, Stages.val_main_call2_v11_apply, Stages.val_main_call2_v1_apply,
    Stages.val_main_call2_v10_apply, Stages.val_main_call2_v9_apply, Stages.val_main_call2_v8_apply,
    Stages.val_main_call2_v7_apply, Stages.val_main_call2_v3_apply, Stages.val_main_call2_v0_apply,
    Stages.val_main_call2_v2_apply, Stages.val_main_call2_v5_apply, Stages.val_main_call2_cst_apply,
    Stages.val_main_v75_apply, Stages.val_main_v72_apply, Stages.val_main_v74_apply, Stages.val_main_v73_apply]
  simp only [hlf, hrf, hls, hrs, hbf, hbs]
  exact message_eq (Stages.val_main_v53 (F := Ideal) x0 x1 x2 x4 x5 x6 x7 x8) (Stages.val_main_v60 (F := Ideal) x0 x1 x2 x4 x5 x6 x7 x8) x2 x9 (fun q => x10 (ix1 q)) x11 (fun q => x12 (ix1 q)) e q _ _
    (affine_eq (Stages.val_main_v53 (F := Ideal) x0 x1 x2 x4 x5 x6 x7 x8) (Stages.val_main_v60 (F := Ideal) x0 x1 x2 x4 x5 x6 x7 x8) x2 Gen.concatenates_S320000x128_S320000x128_S320000x32_S320000x288_d1 x9 x10 e q) (affine_eq (Stages.val_main_v53 (F := Ideal) x0 x1 x2 x4 x5 x6 x7 x8) (Stages.val_main_v60 (F := Ideal) x0 x1 x2 x4 x5 x6 x7 x8) x2 Gen.concatenates_S320000x128_S320000x128_S320000x32_S320000x288_d1 x11 x12 e q)

/-! ## Layer 3: the rows gathered out of the second layer's node array -/

/-- The same for the third layer: its rows are gathered from the second layer's node array. -/
theorem msg3_apply (x0 : (⟨S32000, .i32⟩ : BufTy).Contents (Elt Ideal)) (x1 : (⟨S2x320000, .i32⟩ : BufTy).Contents (Elt Ideal)) (x2 : (⟨S320000x32, .f32⟩ : BufTy).Contents (Elt Ideal)) (x4 : (⟨S100x128, .f32⟩ : BufTy).Contents (Elt Ideal)) (x5 : (⟨S288x128, .f32⟩ : BufTy).Contents (Elt Ideal)) (x6 : (⟨S128, .f32⟩ : BufTy).Contents (Elt Ideal)) (x7 : (⟨S288x128, .f32⟩ : BufTy).Contents (Elt Ideal)) (x8 : (⟨S128, .f32⟩ : BufTy).Contents (Elt Ideal)) (x9 : (⟨S288x128, .f32⟩ : BufTy).Contents (Elt Ideal)) (x10 : (⟨S128, .f32⟩ : BufTy).Contents (Elt Ideal)) (x11 : (⟨S288x128, .f32⟩ : BufTy).Contents (Elt Ideal)) (x12 : (⟨S128, .f32⟩ : BufTy).Contents (Elt Ideal)) (x13 : (⟨S288x128, .f32⟩ : BufTy).Contents (Elt Ideal)) (x14 : (⟨S128, .f32⟩ : BufTy).Contents (Elt Ideal)) (x15 : (⟨S288x128, .f32⟩ : BufTy).Contents (Elt Ideal)) (x16 : (⟨S128, .f32⟩ : BufTy).Contents (Elt Ideal)) (e : Fin 320000) (q : Fin 128) :
    Stages.val_main_v113 (F := Ideal) x0 x1 x2 x4 x5 x6 x7 x8 x9 x10 x11 x12 x13 x14 x15 x16 (ix2 e q)
      = Cert.Message.message (Stages.val_main_v89 (F := Ideal) x0 x1 x2 x4 x5 x6 x7 x8 x9 x10 x11 x12) (Stages.val_main_v96 (F := Ideal) x0 x1 x2 x4 x5 x6 x7 x8 x9 x10 x11 x12) x2 x13 (fun q => x14 (ix1 q)) x15 (fun q => x16 (ix1 q)) e q := by
  -- the index maps of the two contractions and of the two bias broadcasts, by coordinates
  have hlf : ∀ k : Fin 288, Stages.lidx_main_v98 (ix2 e q) k = ix2 e k := fun k => funext fun a => by
    match a with
    | ⟨0, _⟩ => rfl
    | ⟨1, _⟩ => rfl
  have hrf : ∀ k : Fin 288, Stages.ridx_main_v98 (ix2 e q) k = ix2 k q := fun k => funext fun a => by
    match a with
    | ⟨0, _⟩ => rfl
    | ⟨1, _⟩ => rfl
  have hls : ∀ k : Fin 288, Stages.lidx_main_v108 (ix2 e q) k = ix2 e k := fun k => funext fun a => by
    match a with
    | ⟨0, _⟩ => rfl
    | ⟨1, _⟩ => rfl
  have hrs : ∀ k : Fin 288, Stages.ridx_main_v108 (ix2 e q) k = ix2 k q := fun k => funext fun a => by
    match a with
    | ⟨0, _⟩ => rfl
    | ⟨1, _⟩ => rfl
  have hbf : Stages.idx_main_v99 (Stages.idx_main_v100 (ix2 e q)) = ix1 q := funext fun a => by
    match a with
    | ⟨0, _⟩ => rfl
  have hbs : Stages.idx_main_v109 (Stages.idx_main_v110 (ix2 e q)) = ix1 q := funext fun a => by
    match a with
    | ⟨0, _⟩ => rfl
  -- every operation between the row array and the product, read at (e, q)
  rw [Stages.val_main_v113_apply, Stages.val_main_v107_apply, Stages.val_main_v106_apply,
    Stages.val_main_cst_19_apply, Stages.val_main_v105_apply, Stages.val_main_v104_apply,
    Stages.val_main_cst_18_apply, Stages.val_main_v103_apply, Stages.val_main_v102_apply, Stages.val_main_v101_apply,
    Stages.val_main_v98_apply, Stages.val_main_v100_apply, Stages.val_main_v99_apply, Stages.val_main_v112_apply,
    Stages.val_main_call4_v4_apply, Stages.val_main_call4_v6_apply, Stages.val_main_call4_v11_apply,
    Stages.val_main_call4_v1_apply, Stages.val_main_call4_v10_apply, Stages.val_main_call4_v9_apply,
    Stages.val_main_call4_v8_apply, Stages.val_main_call4_v7_apply, Stages.val_main_call4_v3_apply,
    Stages.val_main_call4_v0_apply, Stages.val_main_call4_v2_apply, Stages.val_main_call4_v5_apply,
    Stages.val_main_call4_cst_apply, Stages.val_main_v111_apply, Stages.val_main_v108_apply,
    Stages.val_main_v110_apply, Stages.val_main_v109_apply]
  simp only [hlf, hrf, hls, hrs, hbf, hbs]
  exact message_eq (Stages.val_main_v89 (F := Ideal) x0 x1 x2 x4 x5 x6 x7 x8 x9 x10 x11 x12) (Stages.val_main_v96 (F := Ideal) x0 x1 x2 x4 x5 x6 x7 x8 x9 x10 x11 x12) x2 x13 (fun q => x14 (ix1 q)) x15 (fun q => x16 (ix1 q)) e q _ _
    (affine_eq (Stages.val_main_v89 (F := Ideal) x0 x1 x2 x4 x5 x6 x7 x8 x9 x10 x11 x12) (Stages.val_main_v96 (F := Ideal) x0 x1 x2 x4 x5 x6 x7 x8 x9 x10 x11 x12) x2 Gen.concatenates_S320000x128_S320000x128_S320000x32_S320000x288_d1 x13 x14 e q) (affine_eq (Stages.val_main_v89 (F := Ideal) x0 x1 x2 x4 x5 x6 x7 x8 x9 x10 x11 x12) (Stages.val_main_v96 (F := Ideal) x0 x1 x2 x4 x5 x6 x7 x8 x9 x10 x11 x12) x2 Gen.concatenates_S320000x128_S320000x128_S320000x32_S320000x288_d1 x15 x16 e q)

end Cert.ReferenceIdeal.Layers

end
-- ==== Proof.Bridge.lean ====
/-
  The idealized kernel program's result is the reference's last stage.

  Both programs walk the same chain of arrays: the two rows of the edge table, the embedding rows the node types look
  up, and then three times a message array and the node array it updates, and last the readout. The kernel program
  looks rows up by a masked take, the reference by a gather; where every index is in range the two are the same
  function, and the two index-range facts say that they are. Array by array, in the order they are written, the kernel
  program's named array is the reference's stage at the launch's arguments.
-/
import proofs.«419282_j17575006175633_1_alg».proof.Proof.KernelFold
import proofs.«419282_j17575006175633_1_alg».proof.Proof.TakeDefs
import proofs.«419282_j17575006175633_1_alg».proof.Proof.RefShape
import proofs.«419282_j17575006175633_1_alg».proof.Proof.RefMessage
import Idealize.ShloMosaic.Lib.ValueIdx

set_option maxRecDepth 16384

noncomputable section

namespace Cert.Bridge

open Cert.KernelIdeal Cert.KernelIdeal.Gen Cert.KernelIdeal.Fold Cert.KernelIdeal.Takes
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

local notation "a0" => Fold.arg m c main_arg0
local notation "a1" => Fold.arg m c main_arg1
local notation "a2" => Fold.arg m c main_arg2
local notation "a3" => Fold.arg m c main_arg3
local notation "a4" => Fold.arg m c main_arg4
local notation "a5" => Fold.arg m c main_arg5
local notation "a6" => Fold.arg m c main_arg6
local notation "a7" => Fold.arg m c main_arg7
local notation "a8" => Fold.arg m c main_arg8
local notation "a9" => Fold.arg m c main_arg9
local notation "a10" => Fold.arg m c main_arg10
local notation "a11" => Fold.arg m c main_arg11
local notation "a12" => Fold.arg m c main_arg12
local notation "a13" => Fold.arg m c main_arg13
local notation "a14" => Fold.arg m c main_arg14
local notation "a15" => Fold.arg m c main_arg15
local notation "a16" => Fold.arg m c main_arg16
local notation "a17" => Fold.arg m c main_arg17
local notation "a18" => Fold.arg m c main_arg18

/-! ## The edge table's rows -/

/-- The source node of every edge is the reference's flattened row 0. -/
theorem src_stage : srcK m ρ c = Cert.ReferenceIdeal.Stages.val_main_v1 (F := Ideal) a1 := by
  funext i
  obtain ⟨e, rfl⟩ : ∃ e : Fin 320000, i = ix1 e := ⟨i 0, eq_ix1 i⟩
  exact (srcK_apply m ρ c e).trans (Cert.ReferenceIdeal.Shape.ref_src_apply (F := Ideal) a1 e).symm

/-- The target node of every edge is the reference's flattened row 1. -/
theorem dst_stage : dstK m ρ c = Cert.ReferenceIdeal.Stages.val_main_v3 (F := Ideal) a1 := by
  funext i
  obtain ⟨e, rfl⟩ : ∃ e : Fin 320000, i = ix1 e := ⟨i 0, eq_ix1 i⟩
  exact (dstK_apply m ρ c e).trans (Cert.ReferenceIdeal.Shape.ref_dst_apply (F := Ideal) a1 e).symm

/-- Every edge's source node is a node. -/
theorem src_range (he : ∀ j : S2x320000.Idx, 0 ≤ ((a1 : S2x320000.Idx → BitVec 32) j).toInt ∧ ((a1 : S2x320000.Idx → BitVec 32) j).toInt < 32000) :
    ∀ i : S320000.Idx, 0 ≤ (srcK m ρ c i).toInt ∧ (srcK m ρ c i).toInt < 32000 := by
  intro i
  obtain ⟨e, rfl⟩ : ∃ e : Fin 320000, i = ix1 e := ⟨i 0, eq_ix1 i⟩
  rw [srcK_apply m ρ c e]
  exact he (ix2 0 e)

/-- Every edge's target node is a node. -/
theorem dst_range (he : ∀ j : S2x320000.Idx, 0 ≤ ((a1 : S2x320000.Idx → BitVec 32) j).toInt ∧ ((a1 : S2x320000.Idx → BitVec 32) j).toInt < 32000) :
    ∀ i : S320000.Idx, 0 ≤ (dstK m ρ c i).toInt ∧ (dstK m ρ c i).toInt < 32000 := by
  intro i
  obtain ⟨e, rfl⟩ : ∃ e : Fin 320000, i = ix1 e := ⟨i 0, eq_ix1 i⟩
  rw [dstK_apply m ρ c e]
  exact he (ix2 1 e)

/-! ## The node array before the first layer -/

/-- The node array before the first layer: where every node type is a row of the embedding table, the masked take is
    the gather. -/
theorem node0_stage (hx : ∀ i : S32000.Idx, 0 ≤ ((a0 : S32000.Idx → BitVec 32) i).toInt ∧ ((a0 : S32000.Idx → BitVec 32) i).toInt < 100) :
    node0 m ρ c = Cert.ReferenceIdeal.Stages.val_main_v10 (F := Ideal) a0 a4 :=
  (node0_eq m ρ c).trans ((takeEmb_eq_gather _ _ hx).trans (Cert.ReferenceIdeal.Shape.stage_h0 (F := Ideal) a0 a4).symm)

/-! ## The first layer -/

/-- The rows the edges' target nodes look up before the first layer. -/
theorem hd1_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    takeNode (node0 m ρ c) (dstK m ρ c) = Cert.ReferenceIdeal.Stages.val_main_v17 (F := Ideal) a0 a1 a4 := by
  rw [takeNode_eq_gather _ _ (dst_range m ρ c he), Cert.ReferenceIdeal.Shape.stage_hd1, node0_stage m ρ c hx, dst_stage m ρ c]

/-- The rows the edges' source nodes look up before the first layer. -/
theorem hs1_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    takeNode (node0 m ρ c) (srcK m ρ c) = Cert.ReferenceIdeal.Stages.val_main_v24 (F := Ideal) a0 a1 a4 := by
  rw [takeNode_eq_gather _ _ (src_range m ρ c he), Cert.ReferenceIdeal.Shape.stage_hs1, node0_stage m ρ c hx, src_stage m ρ c]

/-- The first layer's messages. -/
theorem msg1_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    msg1 m ρ c = Cert.ReferenceIdeal.Stages.val_main_v41 (F := Ideal) a0 a1 a2 a4 a5 a6 a7 a8 := by
  funext i
  obtain ⟨e, q, rfl⟩ : ∃ (e : Fin 320000) (q : Fin 128), i = ix2 e q := ⟨i 0, i 1, eq_ix2 i⟩
  rw [Fold.msg1_apply m ρ c e q, Cert.ReferenceIdeal.Layers.msg1_apply, hd1_stage m ρ c hx he, hs1_stage m ρ c hx he]

/-- The node array after the first layer. -/
theorem node1_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    node1 m ρ c = Cert.ReferenceIdeal.Stages.val_main_v46 (F := Ideal) a0 a1 a2 a4 a5 a6 a7 a8 := by
  rw [node1_eq m ρ c, Cert.ReferenceIdeal.Shape.stage_h1, node0_stage m ρ c hx, dst_stage m ρ c, msg1_stage m ρ c hx he]

/-! ## The second layer -/

/-- The rows the edges' target nodes look up before the second layer. -/
theorem hd2_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    takeNode (node1 m ρ c) (dstK m ρ c) = Cert.ReferenceIdeal.Stages.val_main_v53 (F := Ideal) a0 a1 a2 a4 a5 a6 a7 a8 := by
  rw [takeNode_eq_gather _ _ (dst_range m ρ c he), Cert.ReferenceIdeal.Shape.stage_hd2, node1_stage m ρ c hx he, dst_stage m ρ c]

/-- The rows the edges' source nodes look up before the second layer. -/
theorem hs2_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    takeNode (node1 m ρ c) (srcK m ρ c) = Cert.ReferenceIdeal.Stages.val_main_v60 (F := Ideal) a0 a1 a2 a4 a5 a6 a7 a8 := by
  rw [takeNode_eq_gather _ _ (src_range m ρ c he), Cert.ReferenceIdeal.Shape.stage_hs2, node1_stage m ρ c hx he, src_stage m ρ c]

/-- The second layer's messages. -/
theorem msg2_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    msg2 m ρ c = Cert.ReferenceIdeal.Stages.val_main_v77 (F := Ideal) a0 a1 a2 a4 a5 a6 a7 a8 a9 a10 a11 a12 := by
  funext i
  obtain ⟨e, q, rfl⟩ : ∃ (e : Fin 320000) (q : Fin 128), i = ix2 e q := ⟨i 0, i 1, eq_ix2 i⟩
  rw [Fold.msg2_apply m ρ c e q, Cert.ReferenceIdeal.Layers.msg2_apply, hd2_stage m ρ c hx he, hs2_stage m ρ c hx he]

/-- The node array after the second layer. -/
theorem node2_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    node2 m ρ c = Cert.ReferenceIdeal.Stages.val_main_v82 (F := Ideal) a0 a1 a2 a4 a5 a6 a7 a8 a9 a10 a11 a12 := by
  rw [node2_eq m ρ c, Cert.ReferenceIdeal.Shape.stage_h2, node1_stage m ρ c hx he, dst_stage m ρ c, msg2_stage m ρ c hx he]

/-! ## The third layer -/

/-- The rows the edges' target nodes look up before the third layer. -/
theorem hd3_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    takeNode (node2 m ρ c) (dstK m ρ c) = Cert.ReferenceIdeal.Stages.val_main_v89 (F := Ideal) a0 a1 a2 a4 a5 a6 a7 a8 a9 a10 a11 a12 := by
  rw [takeNode_eq_gather _ _ (dst_range m ρ c he), Cert.ReferenceIdeal.Shape.stage_hd3, node2_stage m ρ c hx he, dst_stage m ρ c]

/-- The rows the edges' source nodes look up before the third layer. -/
theorem hs3_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    takeNode (node2 m ρ c) (srcK m ρ c) = Cert.ReferenceIdeal.Stages.val_main_v96 (F := Ideal) a0 a1 a2 a4 a5 a6 a7 a8 a9 a10 a11 a12 := by
  rw [takeNode_eq_gather _ _ (src_range m ρ c he), Cert.ReferenceIdeal.Shape.stage_hs3, node2_stage m ρ c hx he, src_stage m ρ c]

/-- The third layer's messages. -/
theorem msg3_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    msg3 m ρ c = Cert.ReferenceIdeal.Stages.val_main_v113 (F := Ideal) a0 a1 a2 a4 a5 a6 a7 a8 a9 a10 a11 a12 a13 a14 a15 a16 := by
  funext i
  obtain ⟨e, q, rfl⟩ : ∃ (e : Fin 320000) (q : Fin 128), i = ix2 e q := ⟨i 0, i 1, eq_ix2 i⟩
  rw [Fold.msg3_apply m ρ c e q, Cert.ReferenceIdeal.Layers.msg3_apply, hd3_stage m ρ c hx he, hs3_stage m ρ c hx he]

/-- The node array after the third layer. -/
theorem node3_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    node3 m ρ c = Cert.ReferenceIdeal.Stages.val_main_v118 (F := Ideal) a0 a1 a2 a4 a5 a6 a7 a8 a9 a10 a11 a12 a13 a14 a15 a16 := by
  rw [node3_eq m ρ c, Cert.ReferenceIdeal.Shape.stage_h3, node2_stage m ρ c hx he, dst_stage m ρ c, msg3_stage m ρ c hx he]

/-! ## The result -/

/-- The kernel program's result buffer holds the reference's last stage at the launch's arguments. -/
theorem kernel_eq_stage
    (hx : ∀ i : S32000.Idx, 0 ≤ ((a0 : S32000.Idx → BitVec 32) i).toInt ∧ ((a0 : S32000.Idx → BitVec 32) i).toInt < 100)
    (he : ∀ j : S2x320000.Idx, 0 ≤ ((a1 : S2x320000.Idx → BitVec 32) j).toInt ∧ ((a1 : S2x320000.Idx → BitVec 32) j).toInt < 32000) :
    W21 m ρ c (Proc.devRef .tc main_v50)
      = Cert.ReferenceIdeal.Stages.val_main_v134 (F := Ideal) a0 a1 a2 a3 a4 a5 a6 a7 a8 a9 a10 a11 a12 a13 a14 a15 a16 a17 a18 := by
  rw [result_eq m ρ c, Cert.ReferenceIdeal.Shape.stage_out, node3_stage m ρ c hx he]

end Cert.Bridge

end
-- ==== Proof.lean ====
/-
  The certificate of one three-layer crystal-graph convolution network with a mean readout: a kernel program whose
  per-edge gated messages are computed by three calls of one tiled kernel, against a reference that computes them
  with whole-array operations.

  Both programs look the node types up in an embedding table, then three times: look up, for every edge, the rows
  of its target and its source node, lay them beside the edge's own features into a row of 288 numbers, take two
  affine maps of that row, multiply the logistic of one by the softplus of the other, sum the messages into their
  target nodes, add the sums to the node array and cut off the negative part; at the end every graph's node rows are
  averaged and an affine map of the 128 features gives the result.

  The two differ in two places only. The kernel's look-ups replace a row whose index is out of range by a
  not-a-number fill where the reference clamps the index; under the precondition every index is in range, the fill
  is never taken and the two look-ups are one function. And the kernel computes the messages block by block, 4000
  edges at a time, each block's rows against the whole matrices; a block of the message array is the message
  function of the blocks of its inputs, the 80 blocks cover the array, and the reference's concatenate, products,
  logistic and softplus are the same message function of the whole arrays: the same sums over the 288 features and
  the same two functions on every extended real, so no finiteness is used.

  Everything around the messages is the same host operations in both programs, applied to equal arrays.
-/
import proofs.«419282_j17575006175633_1_alg».proof.Defs
import proofs.«419282_j17575006175633_1_alg».proof.Proof.Gen.Kernel
import proofs.«419282_j17575006175633_1_alg».proof.Proof.Gen.Kernel.Frame
import proofs.«419282_j17575006175633_1_alg».proof.Proof.Gen.KernelIdeal
import proofs.«419282_j17575006175633_1_alg».proof.Proof.Gen.KernelIdeal.Frame
import proofs.«419282_j17575006175633_1_alg».proof.Proof.Gen.ReferenceIdeal
import proofs.«419282_j17575006175633_1_alg».proof.Proof.Gen.Pre_finite_inputs
import proofs.«419282_j17575006175633_1_alg».proof.Proof.KernelRunValue
import proofs.«419282_j17575006175633_1_alg».proof.Proof.RefRun
import proofs.«419282_j17575006175633_1_alg».proof.Proof.RefFold
import proofs.«419282_j17575006175633_1_alg».proof.Proof.IndexRanges
import proofs.«419282_j17575006175633_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to its end from any launch memory and leaves its arguments as launched. -/
theorem frame_kernel : Cert.frame_Kernel := fun m ρ _ => Cert.Kernel.Gen.frame m ρ

/-- So does its idealization over the extended reals. -/
theorem frame_kernel_ideal : Cert.frame_KernelIdeal := fun m ρ _ => Cert.KernelIdeal.Gen.frame m ρ

/-- The reference runs to its end and leaves its arguments as launched: its run, the result set aside. -/
theorem frame_reference : Cert.frame_ReferenceIdeal :=
  fun m ρ _ => (θ_run Cert.ReferenceIdeal.defs _ _).mono (fun _ h c => (h c).2)
    (Cert.ReferenceIdeal.RunFold.run (F := Ideal) m ρ)

/-- The idealization is the kernel program's own text read over the extended reals: no operation was rewritten. -/
theorem preserves : Cert.preserves_Kernel_KernelIdeal := trivial

set_option maxHeartbeats 1000000 in
/-- From memories that agree on the arguments, the idealized kernel program and the reference end with the same result
    array. The kernel's result is what the fold of its host stretches and its three calls leaves; the reference's is its
    last stage at its own arguments, hence at the kernel's; and where every node type lies in [0, 100) and every edge
    end in [0, 32000), as the precondition says, the kernel's result is that stage. -/
theorem algebraic : Cert.algebraic_KernelIdeal_ReferenceIdeal := by
  intro m ρ m' ρ' hpre hagree
  refine ⟨fun c => Cert.KernelIdeal.Gen.W21 m ρ c (Proc.devRef .tc Cert.KernelIdeal.main_v50), Cert.KernelIdeal.RunValue.run_value m ρ, ?_⟩
  refine (θ_run Cert.ReferenceIdeal.defs _ _).mono (fun r h c => ⟨?_, (h c).2⟩) (Cert.ReferenceIdeal.RunFold.run (F := Ideal) m' ρ')
  have hx := fun i => Cert.Ranges.x_range _ _ _ _ _ _ _ _ _ _ _ _ _ _ _ _ _ _ _ (hpre c) i
  have he := fun j => Cert.Ranges.edge_range _ _ _ _ _ _ _ _ _ _ _ _ _ _ _ _ _ _ _ (hpre c) j
  obtain ⟨a0, a1, a2, a3, a4, a5, a6, a7, a8, a9, a10, a11, a12, a13, a14, a15, a16, a17, a18⟩ := hagree c
  rw [(h c).1, Cert.ReferenceIdeal.Fold.res_eq_stage (F := Ideal) m' c, a0, a1, a2, a3, a4, a5, a6, a7, a8, a9, a10, a11, a12, a13, a14, a15, a16, a17, a18]
  exact (Cert.Bridge.kernel_eq_stage m ρ c hx he).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
